-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x10000x2 : Shape := ⟨4, ![16, 12, 10000, 2]⟩
abbrev S2x320000 : Shape := ⟨2, ![2, 320000]⟩
abbrev S_ : Shape := ⟨0, ![]⟩

class Facts : Prop where
  bcast_S_S16x12x10000x2 : S_.BroadcastsInDim S16x12x10000x2 (![] : Fin 0 → Fin S16x12x10000x2.rank)
  reducesTo_S16x12x10000x2_S_d0_1_2_3 : S16x12x10000x2.ReducesTo [0, 1, 2, 3] S_
  h_S_ : 0 < S_.numel
  bcast_S_S2x320000 : S_.BroadcastsInDim S2x320000 (![] : Fin 0 → Fin S2x320000.rank)
  reducesTo_S2x320000_S_d0_1 : S2x320000.ReducesTo [0, 1] S_

variable [Facts]

def fn {F : FTy → Type} [FloatOps F] (main_arg0 : FVec F S16x12x10000x2 .f32) (main_arg1 : FVec F S16x12x10000x2 .f32) (main_arg2 : IVec S2x320000 32) : IVec S_ 1 :=
  let main_v0 : FVec F S16x12x10000x2 .f32 := Host.absf main_arg0
  let main_cst : FVec F S_ .f32 := constant S_ .f32 0x7F800000#32
  let main_v1 : FVec F S16x12x10000x2 .f32 := broadcastInDim S16x12x10000x2 ![] bcast_S_S16x12x10000x2 main_cst
  let main_v2 : IVec S16x12x10000x2 1 := cmpf .olt main_v0 main_v1
  let main_c : IVec S_ 1 := constantI S_ 1 1#1
  let main_v3 : IVec S_ 1 := (fun x v => Host.reduce IntOp.andi x v reducesTo_S16x12x10000x2_S_d0_1_2_3 h_S_) main_v2 main_c
  let main_v4 : FVec F S16x12x10000x2 .f32 := Host.absf main_arg1
  let main_cst_0 : FVec F S_ .f32 := constant S_ .f32 0x7F800000#32
  let main_v5 : FVec F S16x12x10000x2 .f32 := broadcastInDim S16x12x10000x2 ![] bcast_S_S16x12x10000x2 main_cst_0
  let main_v6 : IVec S16x12x10000x2 1 := cmpf .olt main_v4 main_v5
  let main_c_1 : IVec S_ 1 := constantI S_ 1 1#1
  let main_v7 : IVec S_ 1 := (fun x v => Host.reduce IntOp.andi x v reducesTo_S16x12x10000x2_S_d0_1_2_3 h_S_) main_v6 main_c_1
  let main_v8 : IVec S_ 1 := andi main_v3 main_v7
  let main_c_2 : IVec S_ 32 := constantI S_ 32 4294957296#32
  let main_v9 : IVec S2x320000 32 := broadcastInDim S2x320000 ![] bcast_S_S2x320000 main_c_2
  let main_v10 : IVec S2x320000 1 := cmpi .sge main_arg2 main_v9
  let main_c_3 : IVec S_ 32 := constantI S_ 32 10000#32
  let main_v11 : IVec S2x320000 32 := broadcastInDim S2x320000 ![] bcast_S_S2x320000 main_c_3
  let main_v12 : IVec S2x320000 1 := cmpi .slt main_arg2 main_v11
  let main_v13 : IVec S2x320000 1 := andi main_v10 main_v12
  let main_c_4 : IVec S_ 1 := constantI S_ 1 1#1
  let main_v14 : IVec S_ 1 := (fun x v => Host.reduce IntOp.andi x v reducesTo_S2x320000_S_d0_1 h_S_) main_v13 main_c_4
  let main_v15 : IVec S_ 1 := andi main_v8 main_v14
  main_v15
-- ==== Kernel.lean ====
abbrev S16x12x10000x2 : Shape := ⟨4, ![16, 12, 10000, 2]⟩
abbrev S2x320000 : Shape := ⟨2, ![2, 320000]⟩
abbrev S1x320000 : Shape := ⟨2, ![1, 320000]⟩
abbrev S320000 : Shape := ⟨1, ![320000]⟩
abbrev S16x12x2x10000 : Shape := ⟨4, ![16, 12, 2, 10000]⟩
abbrev S1x1 : Shape := ⟨2, ![1, 1]⟩
abbrev S1x12x2x10000 : Shape := ⟨4, ![1, 12, 2, 10000]⟩
abbrev S1x2x10000 : Shape := ⟨3, ![1, 2, 10000]⟩
abbrev S2x10000 : Shape := ⟨2, ![2, 10000]⟩
abbrev S2 : Shape := ⟨1, ![2]⟩
abbrev S2x1 : Shape := ⟨2, ![2, 1]⟩
abbrev S1 : Shape := ⟨1, ![1]⟩
abbrev S1x11x2x10000 : Shape := ⟨4, ![1, 11, 2, 10000]⟩
abbrev S1x12x2 : Shape := ⟨3, ![1, 12, 2]⟩
abbrev S1x12x2x1 : Shape := ⟨4, ![1, 12, 2, 1]⟩
abbrev S1x2x1 : Shape := ⟨3, ![1, 2, 1]⟩
abbrev S_ : Shape := ⟨0, ![]⟩
abbrev S10000x16x12x2 : Shape := ⟨4, ![10000, 16, 12, 2]⟩
abbrev S10000x384 : Shape := ⟨2, ![10000, 384]⟩
abbrev S320000x1 : Shape := ⟨2, ![320000, 1]⟩
abbrev S320000x384 : Shape := ⟨2, ![320000, 384]⟩
abbrev S2000x384 : Shape := ⟨2, ![2000, 384]⟩
abbrev S2000 : Shape := ⟨1, ![2000]⟩
abbrev S2000x1 : Shape := ⟨2, ![2000, 1]⟩
abbrev S5 : Shape := ⟨1, ![5]⟩

abbrev nBuf : Space → Nat
  | .hbm => 138
  | .vmem => 16
  | .smem => 0
  | _ => 0

abbrev hbmTy0_0 (i : Nat) : BufTy := match i % 128 with
  | 0 => ⟨S16x12x10000x2, .f32⟩
  | 1 => ⟨S16x12x10000x2, .f32⟩
  | 2 => ⟨S2x320000, .i32⟩
  | 3 => ⟨S1x320000, .i32⟩
  | 4 => ⟨S320000, .i32⟩
  | 5 => ⟨S1x320000, .i32⟩
  | 6 => ⟨S320000, .i32⟩
  | 7 => ⟨S16x12x2x10000, .f32⟩
  | 8 => ⟨S16x12x2x10000, .f32⟩
  | 9 => ⟨S1x1, .f32⟩
  | 10 => ⟨S1x1, .f32⟩
  | 11 => ⟨S1x1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S10000x16x12x2, .f32⟩
  | 22 => ⟨S10000x384, .f32⟩
  | 23 => ⟨S10000x16x12x2, .f32⟩
  | 24 => ⟨S10000x384, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S1, .i32⟩
  | 34 => ⟨S_, .i32⟩
  | 35 => ⟨S320000x1, .i32⟩
  | 36 => ⟨S320000x1, .i1⟩
  | 37 => ⟨S1x1, .i32⟩
  | 38 => ⟨S320000x1, .i32⟩
  | 39 => ⟨S320000x1, .i1⟩
  | 40 => ⟨S320000x1, .i1⟩
  | 41 => ⟨S_, .i1⟩
  | 42 => ⟨S320000, .i1⟩
  | 43 => ⟨S320000x384, .f32⟩
  | 44 => ⟨S320000x384, .i1⟩
  | 45 => ⟨S_, .f32⟩
  | 46 => ⟨S320000x384, .f32⟩
  | 47 => ⟨S320000x384, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1, .i32⟩
  | 57 => ⟨S_, .i32⟩
  | 58 => ⟨S320000x1, .i32⟩
  | 59 => ⟨S320000x1, .i1⟩
  | 60 => ⟨S1x1, .i32⟩
  | 61 => ⟨S320000x1, .i32⟩
  | 62 => ⟨S320000x1, .i1⟩
  | 63 => ⟨S320000x1, .i1⟩
  | 64 => ⟨S_, .i1⟩
  | 65 => ⟨S320000, .i1⟩
  | 66 => ⟨S320000x384, .f32⟩
  | 67 => ⟨S320000x384, .i1⟩
  | 68 => ⟨S_, .f32⟩
  | 69 => ⟨S320000x384, .f32⟩
  | 70 => ⟨S320000x384, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S1, .i32⟩
  | 80 => ⟨S_, .i32⟩
  | 81 => ⟨S320000x1, .i32⟩
  | 82 => ⟨S320000x1, .i1⟩
  | 83 => ⟨S1x1, .i32⟩
  | 84 => ⟨S320000x1, .i32⟩
  | 85 => ⟨S320000x1, .i1⟩
  | 86 => ⟨S320000x1, .i1⟩
  | 87 => ⟨S_, .i1⟩
  | 88 => ⟨S320000, .i1⟩
  | 89 => ⟨S320000x384, .f32⟩
  | 90 => ⟨S320000x384, .i1⟩
  | 91 => ⟨S_, .f32⟩
  | 92 => ⟨S320000x384, .f32⟩
  | 93 => ⟨S320000x384, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S1, .i32⟩
  | 103 => ⟨S_, .i32⟩
  | 104 => ⟨S320000x1, .i32⟩
  | 105 => ⟨S320000x1, .i1⟩
  | 106 => ⟨S1x1, .i32⟩
  | 107 => ⟨S320000x1, .i32⟩
  | 108 => ⟨S320000x1, .i1⟩
  | 109 => ⟨S320000x1, .i1⟩
  | 110 => ⟨S_, .i1⟩
  | 111 => ⟨S320000, .i1⟩
  | 112 => ⟨S320000x384, .f32⟩
  | 113 => ⟨S320000x384, .i1⟩
  | 114 => ⟨S_, .f32⟩
  | 115 => ⟨S320000x384, .f32⟩
  | 116 => ⟨S320000x384, .f32⟩
  | 117 => ⟨S1x1, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x12x10000x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S1, .f32⟩
  | 6 => ⟨S1, .f32⟩
  | 7 => ⟨S1, .f32⟩
  | 8 => ⟨S1, .f32⟩
  | 9 => ⟨S5, .f32⟩
  | _ => ⟨S16x12x10000x2, .f32⟩

abbrev hbmTy (i : Nat) : BufTy := match i / 128 with
  | 0 => hbmTy0_0 i
  | 1 => hbmTy0_1 i
  | _ => ⟨S16x12x10000x2, .f32⟩

abbrev bufTy : (tb : Table) → Fin (tcTables nBuf tb) → BufTy
  | .hbm, ⟨i, _⟩ => hbmTy i
  | .local _ .vmem, ⟨0, _⟩ => ⟨S1x12x2x10000, .f32⟩
  | .local _ .vmem, ⟨1, _⟩ => ⟨S1x12x2x10000, .f32⟩
  | .local _ .vmem, ⟨2, _⟩ => ⟨S1x12x2x10000, .f32⟩
  | .local _ .vmem, ⟨3, _⟩ => ⟨S1x12x2x10000, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S2000x384, .f32⟩
  | .local _ .vmem, ⟨8, _⟩ => ⟨S2000x384, .f32⟩
  | .local _ .vmem, ⟨9, _⟩ => ⟨S2000x384, .f32⟩
  | .local _ .vmem, ⟨10, _⟩ => ⟨S2000x384, .f32⟩
  | .local _ .vmem, ⟨11, _⟩ => ⟨S2000x384, .f32⟩
  | .local _ .vmem, ⟨12, _⟩ => ⟨S2000x384, .f32⟩
  | .local _ .vmem, ⟨13, _⟩ => ⟨S2000x384, .f32⟩
  | .local _ .vmem, ⟨14, _⟩ => ⟨S2000x384, .f32⟩
  | .local _ .vmem, ⟨15, _⟩ => ⟨S1x1, .f32⟩
  | _, _ => ⟨S16x12x10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v17 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v18 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v19 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_cst_2 : Ref sig .tc := ⟨.hbm, 119, rfl⟩
abbrev main_v23 : Ref sig .tc := ⟨.hbm, 120, rfl⟩
abbrev main_cst_3 : Ref sig .tc := ⟨.hbm, 121, rfl⟩
abbrev main_v24 : Ref sig .tc := ⟨.hbm, 122, rfl⟩
abbrev main_cst_4 : Ref sig .tc := ⟨.hbm, 123, rfl⟩
abbrev main_v25 : Ref sig .tc := ⟨.hbm, 124, rfl⟩
abbrev main_v26 : Ref sig .tc := ⟨.hbm, 125, rfl⟩
abbrev main_cst_5 : Ref sig .tc := ⟨.hbm, 126, rfl⟩
abbrev main_v27 : Ref sig .tc := ⟨.hbm, 127, rfl⟩
abbrev main_v28 : Ref sig .tc := ⟨.hbm, 128, rfl⟩
abbrev main_cst_6 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x12x2x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x2x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S16x12x10000x2_S16x12x2x10000_0_1_3_2 : S16x12x10000x2.Transposes [0, 1, 3, 2] S16x12x2x10000
  inb_S1x1_S1x1_0_0 : ∀ a, (![0, 0] : Fin 2 → Nat) a + S1x1.size a ≤ S1x1.size a
  h_S1x1 : 0 < S1x1.numel
  inb_S1x12x2x10000_S1x12x2x10000_0_0_0_0 : ∀ a, (![0, 0, 0, 0] : Fin 4 → Nat) a + S1x12x2x10000.size a ≤ S1x12x2x10000.size a
  h_S1x12x2x10000 : 0 < S1x12x2x10000.numel
  shapeCasts_S1x12x2x10000_S1x12x2x10000 : S1x12x2x10000.ShapeCasts S1x12x2x10000
  reduces_S1x12x2x10000_S1x2x10000 : S1x12x2x10000.Reduces [1] S1x2x10000
  reduces_S1x2x10000_S2x10000 : S1x2x10000.Reduces [0] S2x10000
  reduces_S2x10000_S2 : S2x10000.Reduces [1] S2
  shapeCasts_S2_S2x1 : S2.ShapeCasts S2x1
  reduces_S2x1_S1 : S2x1.Reduces [0] S1
  shapeCasts_S1_S1x1 : S1.ShapeCasts S1x1
  slices_S1x12x2x10000_o0_1_0_0_S1x11x2x10000 : S1x12x2x10000.Slices ![0, 1, 0, 0] S1x11x2x10000
  slices_S1x12x2x10000_o0_0_0_0_S1x11x2x10000 : S1x12x2x10000.Slices ![0, 0, 0, 0] S1x11x2x10000
  reduces_S1x11x2x10000_S1x2x10000 : S1x11x2x10000.Reduces [1] S1x2x10000
  reduces_S1x12x2x10000_S1x12x2 : S1x12x2x10000.Reduces [3] S1x12x2
  shapeCasts_S1x12x2_S1x12x2x1 : S1x12x2.ShapeCasts S1x12x2x1
  reduces_S1x12x2x1_S1x2x1 : S1x12x2x1.Reduces [1] S1x2x1
  reduces_S1x2x1_S2x1 : S1x2x1.Reduces [0] S2x1
  reduces_S2x1_S2 : S2x1.Reduces [1] S2
  shapeCasts_S1x1_S1x1 : S1x1.ShapeCasts S1x1
  shapeCasts_S1x1_S_ : S1x1.ShapeCasts S_
  transposes_S16x12x10000x2_S10000x16x12x2_2_0_1_3 : S16x12x10000x2.Transposes [2, 0, 1, 3] S10000x16x12x2
  shapeCasts_S10000x16x12x2_S10000x384 : S10000x16x12x2.ShapeCasts S10000x384
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x384_0 : S320000.BroadcastsInDim S320000x384 (![0] : Fin 1 → Fin S320000x384.rank)
  bcast_S_S320000x384 : S_.BroadcastsInDim S320000x384 (![] : Fin 0 → Fin S320000x384.rank)
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  reduces_S2000x384_S2000 : S2000x384.Reduces [1] S2000
  shapeCasts_S2000_S2000x1 : S2000.ShapeCasts S2000x1
  reduces_S2000x1_S1 : S2000x1.Reduces [0] S1
  bcast_S_S1 : S_.BroadcastsInDim S1 (![] : Fin 0 → Fin S1.rank)
  concatenates_S1_S1_S1_S1_S1_S5_d0 : Shape.Concatenates [S1, S1, S1, S1, S1] S5 0
  gather_S10000x384_S320000x1_S320000x384_1_0_n_n_0_1_1384_wf : GatherDims.WF S10000x384 S320000x1 S320000x384 [1] [0] [] [0] [] 1 ![1, 384]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x2x10000.size a ≤ S16x12x2x10000.size a
  hwx0_0 : ∀ i : grid0.Coords, EltTy.bits .f32 = 32 ∨ (Rect.block (s := S16x12x2x10000) S1x12x2x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x2x10000.size a ≤ S16x12x2x10000.size a
  hwx0_1 : ∀ i : grid0.Coords, EltTy.bits .f32 = 32 ∨ (Rect.block (s := S16x12x2x10000) S1x12x2x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S320000x384.size a
  hwx1_0 : ∀ i : grid1.Coords, EltTy.bits .f32 = 32 ∨ (Rect.block (s := S320000x384) S2000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x384.size a ≤ S320000x384.size a
  hwx1_1 : ∀ i : grid1.Coords, EltTy.bits .f32 = 32 ∨ (Rect.block (s := S320000x384) S2000x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x384.size a ≤ S320000x384.size a
  hwx1_2 : ∀ i : grid1.Coords, EltTy.bits .f32 = 32 ∨ (Rect.block (s := S320000x384) S2000x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x384.size a ≤ S320000x384.size a
  hwx1_3 : ∀ i : grid1.Coords, EltTy.bits .f32 = 32 ∨ (Rect.block (s := S320000x384) S2000x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S10000x384_S320000x1_S320000x384_1_0_n_n_0_1_1384 : GatherDims S10000x384 S320000x1 S320000x384 where
  offsetDims := [1]
  collapsedSliceDims := [0]
  operandBatchingDims := []
  startIndicesBatchingDims := []
  startIndexMap := [0]
  indexVectorDim := 1
  sliceSizes := ![1, 384]
  wf := gather_S10000x384_S320000x1_S320000x384_1_0_n_n_0_1_1384_wf

abbrev win0_0 : Pipeline.Window sig grid0 :=
  Pipeline.Window.ofSpec (Memref.whole main_v4) S1x12x2x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x12x2x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S2000x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x12x10000x2 : Shape := ⟨4, ![16, 12, 10000, 2]⟩
abbrev S2x320000 : Shape := ⟨2, ![2, 320000]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S16x12x320000x2 : Shape := ⟨4, ![16, 12, 320000, 2]⟩
abbrev S16x11x10000x2 : Shape := ⟨4, ![16, 11, 10000, 2]⟩
abbrev S16x12x2 : Shape := ⟨3, ![16, 12, 2]⟩
abbrev S1 : Shape := ⟨1, ![1]⟩
abbrev S5 : Shape := ⟨1, ![5]⟩

abbrev nBuf : Space → Nat
  | .hbm => 98
  | .vmem => 0
  | .smem => 0
  | _ => 0

abbrev bufTy : (tb : Table) → Fin (tcTables nBuf tb) → BufTy
  | .hbm, ⟨0, _⟩ => ⟨S16x12x10000x2, .f32⟩
  | .hbm, ⟨1, _⟩ => ⟨S16x12x10000x2, .f32⟩
  | .hbm, ⟨2, _⟩ => ⟨S2x320000, .i32⟩
  | .hbm, ⟨3, _⟩ => ⟨S16x12x10000x2, .f32⟩
  | .hbm, ⟨4, _⟩ => ⟨S16x12x10000x2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S16x12x320000x2, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S16x12x320000x2, .f32⟩
  | .hbm, ⟨31, _⟩ => ⟨S16x12x320000x2, .f32⟩
  | .hbm, ⟨32, _⟩ => ⟨S16x12x320000x2, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S16x12x320000x2, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S16x12x320000x2, .f32⟩
  | .hbm, ⟨51, _⟩ => ⟨S16x12x320000x2, .f32⟩
  | .hbm, ⟨52, _⟩ => ⟨S16x12x320000x2, .f32⟩
  | .hbm, ⟨53, _⟩ => ⟨S16x12x320000x2, .f32⟩
  | .hbm, ⟨54, _⟩ => ⟨S16x12x320000x2, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x11x10000x2, .f32⟩
  | .hbm, ⟨60, _⟩ => ⟨S16x11x10000x2, .f32⟩
  | .hbm, ⟨61, _⟩ => ⟨S16x11x10000x2, .f32⟩
  | .hbm, ⟨62, _⟩ => ⟨S16x11x10000x2, .f32⟩
  | .hbm, ⟨63, _⟩ => ⟨S16x11x10000x2, .f32⟩
  | .hbm, ⟨64, _⟩ => ⟨S16x11x10000x2, .f32⟩
  | .hbm, ⟨65, _⟩ => ⟨S16x11x10000x2, .f32⟩
  | .hbm, ⟨66, _⟩ => ⟨S16x11x10000x2, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16x12x2, .f32⟩
  | .hbm, ⟨73, _⟩ => ⟨S_, .f32⟩
  | .hbm, ⟨74, _⟩ => ⟨S16x12x2, .f32⟩
  | .hbm, ⟨75, _⟩ => ⟨S16x12x2, .f32⟩
  | .hbm, ⟨76, _⟩ => ⟨S16x12x2, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S1, .f32⟩
  | .hbm, ⟨96, _⟩ => ⟨S1, .f32⟩
  | .hbm, ⟨97, _⟩ => ⟨S5, .f32⟩
  | _, _ => ⟨S16x12x10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_cst_18 : Ref sig .tc := ⟨.hbm, 86, rfl⟩
abbrev main_v63 : Ref sig .tc := ⟨.hbm, 87, rfl⟩
abbrev main_v64 : Ref sig .tc := ⟨.hbm, 88, rfl⟩
abbrev main_cst_19 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  reducesTo_S16x12x10000x2_S_d0_1_2_3 : S16x12x10000x2.ReducesTo [0, 1, 2, 3] S_
  h_S_ : 0 < S_.numel
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S16x12x320000x2_S_d0_1_2_3 : S16x12x320000x2.ReducesTo [0, 1, 2, 3] S_
  slices_S16x12x10000x2_S16x11x10000x2_0_1_0_0 : S16x12x10000x2.Slices ![0, 1, 0, 0] S16x11x10000x2
  slices_S16x12x10000x2_S16x11x10000x2_0_0_0_0 : S16x12x10000x2.Slices ![0, 0, 0, 0] S16x11x10000x2
  reducesTo_S16x11x10000x2_S_d0_1_2_3 : S16x11x10000x2.ReducesTo [0, 1, 2, 3] S_
  reducesTo_S16x12x10000x2_S16x12x2_d2 : S16x12x10000x2.ReducesTo [2] S16x12x2
  reducesTo_S16x12x2_S_d0_1_2 : S16x12x2.ReducesTo [0, 1, 2] S_
  bcast_S_S1 : S_.BroadcastsInDim S1 (![] : Fin 0 → Fin S1.rank)
  concatenates_S1_S1_S1_S1_S1_S5_d0 : Shape.Concatenates [S1, S1, S1, S1, S1] S5 0
  gather_S16x12x10000x2_S320000x1_S16x12x320000x2_013_2_n_n_2_1_161212_wf : GatherDims.WF S16x12x10000x2 S320000x1 S16x12x320000x2 [0, 1, 3] [2] [] [2] [] 1 ![16, 12, 1, 2]

variable [Facts₀]

def gather_S16x12x10000x2_S320000x1_S16x12x320000x2_013_2_n_n_2_1_161212 : GatherDims S16x12x10000x2 S320000x1 S16x12x320000x2 where
  offsetDims := [0, 1, 3]
  collapsedSliceDims := [2]
  operandBatchingDims := []
  startIndicesBatchingDims := []
  startIndexMap := [2]
  indexVectorDim := 1
  sliceSizes := ![16, 12, 1, 2]
  wf := gather_S16x12x10000x2_S320000x1_S16x12x320000x2_013_2_n_n_2_1_161212_wf

class Facts : Prop extends Facts₀ where

variable [Facts]
-- ==== Proof.LibWhole.lean ====
/-
  Two facts about a two-axis buffer accessed only through its whole rectangle (offset zero on both axes, the buffer's
  own extents): reading back after a list of stores whose LAST one went through the whole rectangle gives that store's
  payload, whatever the earlier stores and the prior contents were; and a load through the whole rectangle — of the
  contents, or of what one such store left — is the contents, respectively that store's payload.
-/
import Idealize.ShloMosaic.Lib.Pipeline.FrameBody
import Idealize.ShloMosaic.Lib.Pipeline.Value

noncomputable section

namespace Cert.Whole

open Idealize.ShloMosaic

variable {Val : EltTy → Type} [∀ e, Nonempty (Val e)] {sig : RefSig} {κ : Kind} {sp : Space} {e : EltTy} {n0 n1 : ℕ}

/-- Both offsets of the whole rectangle are zero. -/
theorem hz : (![0, 0] : Fin 2 → ℕ) = fun _ => 0 := by
  funext a
  match a with
  | ⟨0, _⟩ => rfl
  | ⟨1, _⟩ => rfl

/-- After stores the last of which covers the buffer, the buffer reads as that store's payload. -/
theorem read_writes_cons (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) (L : List (View.Piece Val ⟨2, ![n0, n1]⟩ e)) :
    v.read Val (v.writes Val f ((⟨Rect.unit (s := ⟨2, ![n0, n1]⟩) ![0, 0] (⟨2, ![n0, n1]⟩ : Shape).size inb, w⟩ : View.Piece Val ⟨2, ![n0, n1]⟩ e) :: L)) = w := by
  rw [View.read_writes_eq_canon _ _ _ (fun y => ⟨_, List.mem_cons_self, by
    have h := hz
    show y ∈ (Rect.unit (s := ⟨2, ![n0, n1]⟩) ![0, 0] (⟨2, ![n0, n1]⟩ : Shape).size inb).set
    rw [Rect.mem_set_unit]
    intro a
    constructor
    · rw [congrFun h a]; exact Nat.zero_le _
    · rw [congrFun h a, Nat.zero_add]; exact (y a).isLt⟩), View.canon_cons_unit_zero hz]

/-- A load through the whole rectangle reads the contents. -/
theorem readAt_whole (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = v.read Val f := by
  rw [View.readAt_eq_ld, View.ld_unit_zero hz]

/-- A load through the whole rectangle of what one store through it left reads that store's payload. -/
theorem readCov_whole (v : View sig κ sp ⟨2, ![n0, n1]⟩ e)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) :
    v.readCov [(⟨Rect.unit (s := ⟨2, ![n0, n1]⟩) ![0, 0] (⟨2, ![n0, n1]⟩ : Shape).size inb, w⟩ : View.Piece Val ⟨2, ![n0, n1]⟩ e)]
      (Rect.unit (s := ⟨2, ![n0, n1]⟩) ![0, 0] (⟨2, ![n0, n1]⟩ : Shape).size inb).toLoadRect = w :=
  View.readCov_unit_zero v hz inb w

end Cert.Whole

end
-- ==== Proof.K.Body0.lean ====
/-
  The first kernel's body on whole staging buffers, in its two control cases. It reads one batch element's (12, 2, 10000)
  blocks of the two transposed arrays and adds three block sums — absolute error, squared second difference in time,
  squared difference of node sums — into three (1, 1) output buffers, which it zeroes first at grid point 0.
-/
import proofs.«408175_j43473658970670_4_alg».proof.Proof.Gen.Kernel.Launch
import proofs.«408175_j43473658970670_4_alg».proof.Proof.Gen.Kernel.Skeleton
import proofs.«408175_j43473658970670_4_alg».proof.Proof.Gen.Kernel.Points
import proofs.«408175_j43473658970670_4_alg».proof.Proof.LibWhole
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinate: "this is grid point 0". -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val % 16 = 0 :=
  (by decide +kernel : ∀ t : Fin grid0.N, cond0 (grid0.coords t) ↔ t.val % 16 = 0)

/-- All four offsets of a four-axis buffer's whole rectangle are zero. -/
theorem hz4 : (![0, 0, 0, 0] : Fin 4 → ℕ) = fun _ => 0 := by
  funext a
  match a with
  | ⟨0, _⟩ => rfl
  | ⟨1, _⟩ => rfl
  | ⟨2, _⟩ => rfl
  | ⟨3, _⟩ => rfl

/-- A load of a four-axis buffer through its whole rectangle reads the contents. -/
theorem readAt_whole4 {κ : Kind} {sp : Space} {e : EltTy} {n0 n1 n2 n3 : ℕ} (v : View sig κ sp ⟨4, ![n0, n1, n2, n3]⟩ e) (f : v.ty.Contents (Elt F))
    (inb : ∀ a, (![0, 0, 0, 0] : Fin (⟨4, ![n0, n1, n2, n3]⟩ : Shape).rank → ℕ) a + (⟨4, ![n0, n1, n2, n3]⟩ : Shape).size a ≤ (⟨4, ![n0, n1, n2, n3]⟩ : Shape).size a) :
    v.readAt (Elt F) (Rect.unit (s := ⟨4, ![n0, n1, n2, n3]⟩) ![0, 0, 0, 0] (⟨4, ![n0, n1, n2, n3]⟩ : Shape).size inb).toLoadRect f = v.read (Elt F) f := by
  rw [View.readAt_eq_ld, View.ld_unit_zero hz4]

set_option maxHeartbeats 1000000 in
/-- First point: each output buffer, whatever it held, ends at its block sum added to the zero just stored. -/
theorem run0_first (c : Dev nD) (E : Set ℕ) (i : grid0.Coords)
    (arg1 : Memref sig .tc .vmem S1x12x2x10000 .f32) (harg1 : arg1.IsWhole) (arg2 : Memref sig .tc .vmem S1x12x2x10000 .f32) (harg2 : arg2.IsWhole)
    (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S1x12x2x10000 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay1 (k0_pay9 x0 x1) (k0_pay4 (F := F)))
            ∗ owns (c : Thread nD τ) arg4 fullShare (k0_pay2 (k0_pay10 x0 x1) (k0_pay5 (F := F)))
            ∗ owns (c : Thread nD τ) arg5 fullShare (k0_pay3 (k0_pay11 x0 x1) (k0_pay6 (F := F)))) -∗ K ⟨⟩))
      ⊢ wp frame (wpE (defs₀ (F := F)) Variants.none c none) E (cc0__mtc_kernel i arg1 harg1 arg2 harg2 arg3 harg3 arg4 harg4 arg5 harg5) K := by
  simp only [cc0__mtc_kernel_eq_skeleton]; unfold cc0__mtc_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    dsimp only
    rw [Cert.Whole.read_writes_cons, Cert.Whole.readCov_whole, readAt_whole4, readAt_whole4, harg1.read_unread, harg2.read_unread]
  isplitl [H3]
  · iexists _; isplitr
    swap; · iexact H3
    ipureintro
    sl_unfold_words
    dsimp only
    rw [Cert.Whole.read_writes_cons, Cert.Whole.readCov_whole, readAt_whole4, readAt_whole4, harg1.read_unread, harg2.read_unread]
  iexists _; isplitr
  swap; · iexact H4
  ipureintro
  sl_unfold_words
  dsimp only
  rw [Cert.Whole.read_writes_cons, Cert.Whole.readCov_whole, readAt_whole4, readAt_whole4, harg1.read_unread, harg2.read_unread]

set_option maxHeartbeats 1000000 in
/-- A later point: each output buffer, holding y, ends at its block sum added to y. -/
theorem run0_later (c : Dev nD) (E : Set ℕ) (i : grid0.Coords)
    (arg1 : Memref sig .tc .vmem S1x12x2x10000 .f32) (harg1 : arg1.IsWhole) (arg2 : Memref sig .tc .vmem S1x12x2x10000 .f32) (harg2 : arg2.IsWhole)
    (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S1x12x2x10000 .f32) (y3 y4 y5 : Vec F S1x1 .f32) (K : PUnit → sProp 𝕄) :
    iprop(owns (c : Thread nD τ) arg1 fullShare x0 ∗ owns (c : Thread nD τ) arg2 fullShare x1 ∗ owns (c : Thread nD τ) arg3 fullShare y3 ∗ owns (c : Thread nD τ) arg4 fullShare y4 ∗ owns (c : Thread nD τ) arg5 fullShare y5
        ∗ (iprop(owns (c : Thread nD τ) arg1 fullShare x0 ∗ owns (c : Thread nD τ) arg2 fullShare x1
            ∗ owns (c : Thread nD τ) arg3 fullShare (k0_pay1 (k0_pay9 x0 x1) y3)
            ∗ owns (c : Thread nD τ) arg4 fullShare (k0_pay2 (k0_pay10 x0 x1) y4)
            ∗ owns (c : Thread nD τ) arg5 fullShare (k0_pay3 (k0_pay11 x0 x1) y5)) -∗ K ⟨⟩))
      ⊢ wp frame (wpE (defs₀ (F := F)) Variants.none c none) E (cc0__mtc_kernel i arg1 harg1 arg2 harg2 arg3 harg3 arg4 harg4 arg5 harg5) K := by
  simp only [cc0__mtc_kernel_eq_skeleton]; unfold cc0__mtc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    dsimp only
    rw [Cert.Whole.read_writes_cons, Cert.Whole.readAt_whole, readAt_whole4, readAt_whole4, harg1.read_unread, harg2.read_unread, harg3.read_unread]
  isplitl [H3]
  · iexists _; isplitr
    swap; · iexact H3
    ipureintro
    dsimp only
    rw [Cert.Whole.read_writes_cons, Cert.Whole.readAt_whole, readAt_whole4, readAt_whole4, harg1.read_unread, harg2.read_unread, harg4.read_unread]
  iexists _; isplitr
  swap; · iexact H4
  ipureintro
  dsimp only
  rw [Cert.Whole.read_writes_cons, Cert.Whole.readAt_whole, readAt_whole4, readAt_whole4, harg1.read_unread, harg2.read_unread, harg5.read_unread]

end Cert.Kernel.Hand

end
-- ==== Proof.K.Data0.lean ====
/-
  The two pipelines' proof data at a parameter V, the buffer contents when the region is entered. After the body at grid
  point t each input window's staging buffer still holds its block; each (1, 1) output buffer holds the running total:
  at point 0 the block's sum added to zero, at point t + 1 the block's sum added to what point t left (the output
  windows' block index never moves and they are written back only after the last point, so a point finds what the point
  before left). The body obligation at every point follows from the two body runs.
-/
import proofs.«408175_j43473658970670_4_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Pipeline 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x12x2x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12x2x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- The running total of absolute errors after point n. -/
def acc0_2 (c : Dev nD) : (n : ℕ) → n < cfg0.N → Vec F S1x1 .f32
  | 0, hn => k0_pay1 (k0_pay9 (iblk0 V c 0 ⟨0, hn⟩) (iblk0 V c 1 ⟨0, hn⟩)) (k0_pay4 (F := F))
  | n + 1, hn => k0_pay1 (k0_pay9 (iblk0 V c 0 ⟨n + 1, hn⟩) (iblk0 V c 1 ⟨n + 1, hn⟩)) (acc0_2 c n (Nat.lt_of_succ_lt hn))
/-- The running total of squared second differences after point n. -/
def acc0_3 (c : Dev nD) : (n : ℕ) → n < cfg0.N → Vec F S1x1 .f32
  | 0, hn => k0_pay2 (k0_pay10 (iblk0 V c 0 ⟨0, hn⟩) (iblk0 V c 1 ⟨0, hn⟩)) (k0_pay5 (F := F))
  | n + 1, hn => k0_pay2 (k0_pay10 (iblk0 V c 0 ⟨n + 1, hn⟩) (iblk0 V c 1 ⟨n + 1, hn⟩)) (acc0_3 c n (Nat.lt_of_succ_lt hn))
/-- The running total of squared node-sum differences after point n. -/
def acc0_4 (c : Dev nD) : (n : ℕ) → n < cfg0.N → Vec F S1x1 .f32
  | 0, hn => k0_pay3 (k0_pay11 (iblk0 V c 0 ⟨0, hn⟩) (iblk0 V c 1 ⟨0, hn⟩)) (k0_pay6 (F := F))
  | n + 1, hn => k0_pay3 (k0_pay11 (iblk0 V c 0 ⟨n + 1, hn⟩) (iblk0 V c 1 ⟨n + 1, hn⟩)) (acc0_4 c n (Nat.lt_of_succ_lt hn))

/-- Pipeline 0's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0_2 V c t.val t.isLt
    | ⟨3, _⟩ => acc0_3 V c t.val t.isLt
    | ⟨4, _⟩ => acc0_4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0_2 V c t.val t.isLt := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After point 0 an output window's buffer holds what the point before left: it is not written back between. -/
theorem before0_2 (c : Dev nD) (t : Fin cfg0.N) (h0 : ¬t.val % 16 = 0) (d) :
    (dat0 V c).before 2 t d = acc0_2 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3 (c : Dev nD) (t : Fin cfg0.N) (h0 : ¬t.val % 16 = 0) (d) :
    (dat0 V c).before 3 t d = acc0_3 V c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4 (c : Dev nD) (t : Fin cfg0.N) (h0 : ¬t.val % 16 = 0) (d) :
    (dat0 V c).before 4 t d = acc0_4 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

/-- The running totals at point 0 and at a later point, unfolded one step. -/
theorem acc0_2_first (c : Dev nD) (t : Fin cfg0.N) (h0 : t.val % 16 = 0) :
    acc0_2 V c t.val t.isLt = k0_pay1 (k0_pay9 (iblk0 V c 0 t) (iblk0 V c 1 t)) (k0_pay4 (F := F)) := by
  have hN : t.val < 16 := lt_of_lt_of_eq t.isLt (show cfg0.N = 16 from N_0)
  obtain ⟨n, hn⟩ := t
  cases n with
  | zero => rfl
  | succ n => exact absurd h0 (by dsimp only at hN ⊢; omega)
theorem acc0_2_later (c : Dev nD) (t : Fin cfg0.N) (h0 : ¬t.val % 16 = 0) :
    acc0_2 V c t.val t.isLt = k0_pay1 (k0_pay9 (iblk0 V c 0 t) (iblk0 V c 1 t)) (acc0_2 V c (t.val - 1) (Nat.lt_of_le_of_lt (Nat.sub_le _ _) t.isLt)) := by
  obtain ⟨n, hn⟩ := t
  cases n with
  | zero => exact absurd (Nat.zero_mod _) h0
  | succ n => rfl
theorem acc0_3_first (c : Dev nD) (t : Fin cfg0.N) (h0 : t.val % 16 = 0) :
    acc0_3 V c t.val t.isLt = k0_pay2 (k0_pay10 (iblk0 V c 0 t) (iblk0 V c 1 t)) (k0_pay5 (F := F)) := by
  have hN : t.val < 16 := lt_of_lt_of_eq t.isLt (show cfg0.N = 16 from N_0)
  obtain ⟨n, hn⟩ := t
  cases n with
  | zero => rfl
  | succ n => exact absurd h0 (by dsimp only at hN ⊢; omega)
theorem acc0_3_later (c : Dev nD) (t : Fin cfg0.N) (h0 : ¬t.val % 16 = 0) :
    acc0_3 V c t.val t.isLt = k0_pay2 (k0_pay10 (iblk0 V c 0 t) (iblk0 V c 1 t)) (acc0_3 V c (t.val - 1) (Nat.lt_of_le_of_lt (Nat.sub_le _ _) t.isLt)) := by
  obtain ⟨n, hn⟩ := t
  cases n with
  | zero => exact absurd (Nat.zero_mod _) h0
  | succ n => rfl
theorem acc0_4_first (c : Dev nD) (t : Fin cfg0.N) (h0 : t.val % 16 = 0) :
    acc0_4 V c t.val t.isLt = k0_pay3 (k0_pay11 (iblk0 V c 0 t) (iblk0 V c 1 t)) (k0_pay6 (F := F)) := by
  have hN : t.val < 16 := lt_of_lt_of_eq t.isLt (show cfg0.N = 16 from N_0)
  obtain ⟨n, hn⟩ := t
  cases n with
  | zero => rfl
  | succ n => exact absurd h0 (by dsimp only at hN ⊢; omega)
theorem acc0_4_later (c : Dev nD) (t : Fin cfg0.N) (h0 : ¬t.val % 16 = 0) :
    acc0_4 V c t.val t.isLt = k0_pay3 (k0_pay11 (iblk0 V c 0 t) (iblk0 V c 1 t)) (acc0_4 V c (t.val - 1) (Nat.lt_of_le_of_lt (Nat.sub_le _ _) t.isLt)) := by
  obtain ⟨n, hn⟩ := t
  cases n with
  | zero => exact absurd (Nat.zero_mod _) h0
  | succ n => rfl

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 16 = 0
  · rw [acc0_2_first V c t h0, acc0_3_first V c t h0, acc0_4_first V c t h0]
    iintro ⟨HΦ, Ho, ⟨%d0, H0⟩, ⟨%d1, H1⟩, ⟨%d2, H2⟩, ⟨%d3, H3⟩, ⟨%d4, H4⟩⟩
    iapply (run0_first c Set.univ (grid0.coords t) _ _ _ _ _ _ _ _ _ _ ((hcond0 t).mpr h0) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_2_later V c t h0, acc0_3_later V c t h0, acc0_4_later V c t h0]
    simp only [before0_2 V c t h0, before0_3 V c t h0, before0_4 V c t h0]
    iintro ⟨HΦ, Ho, ⟨%d0, H0⟩, ⟨%d1, H1⟩, ⟨%d2, H2⟩, ⟨%d3, H3⟩, ⟨%d4, H4⟩⟩
    iapply (run0_later c Set.univ (grid0.coords t) _ _ _ _ _ _ _ _ _ _ (fun h => h0 ((hcond0 t).mp h)) (iblk0 V c 0 t) (iblk0 V c 1 t) _ _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The edge kernel's body on whole staging buffers, in its two control cases. At the first grid point the (1, 1) output
  buffer is zeroed and the block's sum of squares is added to that zero; at every later point the sum is added to
  what the buffer already holds. In both cases the four input blocks are only read.
-/
import proofs.«408175_j43473658970670_4_alg».proof.Proof.Gen.Kernel.Launch
import proofs.«408175_j43473658970670_4_alg».proof.Proof.Gen.Kernel.Skeleton
import proofs.«408175_j43473658970670_4_alg».proof.Proof.Gen.Kernel.Points
import proofs.«408175_j43473658970670_4_alg».proof.Proof.LibWhole
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinate: "this is grid point 0". -/
abbrev cond1 (i : grid1.Coords) : Prop :=
  (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val % 160 = 0 :=
  (by decide +kernel : ∀ t : Fin grid1.N, cond1 (grid1.coords t) ↔ t.val % 160 = 0)

set_option maxHeartbeats 1000000 in
/-- First point: the output buffer, whatever it held, ends at the block's sum added to the zero just stored. -/
theorem run1_first (c : Dev nD) (E : Set ℕ) (i : grid1.Coords)
    (arg1 : Memref sig .tc .vmem S2000x384 .f32) (harg1 : arg1.IsWhole) (arg2 : Memref sig .tc .vmem S2000x384 .f32) (harg2 : arg2.IsWhole)
    (arg3 : Memref sig .tc .vmem S2000x384 .f32) (harg3 : arg3.IsWhole) (arg4 : Memref sig .tc .vmem S2000x384 .f32) (harg4 : arg4.IsWhole)
    (arg5 : Memref sig .tc .vmem S1x1 .f32) (harg5 : arg5.IsWhole) (hc : cond1 i)
    (x0 x1 x2 x3 : Vec F S2000x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay2 x0 x1 x2 x3 (k1_pay1 (F := F)))) -∗ K ⟨⟩))
      ⊢ wp frame (wpE (defs₀ (F := F)) Variants.none c none) E (cc1__spatial_kernel i arg1 harg1 arg2 harg2 arg3 harg3 arg4 harg4 arg5 harg5) K := by
  simp only [cc1__spatial_kernel_eq_skeleton]; unfold cc1__spatial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  sl_unfold_words
  rw [Cert.Whole.read_writes_cons, Cert.Whole.readCov_whole, Cert.Whole.readAt_whole, Cert.Whole.readAt_whole, Cert.Whole.readAt_whole, Cert.Whole.readAt_whole,
    harg1.read_unread, harg2.read_unread, harg3.read_unread, harg4.read_unread]

set_option maxHeartbeats 1000000 in
/-- A later point: the output buffer, holding y, ends at the block's sum added to y. -/
theorem run1_later (c : Dev nD) (E : Set ℕ) (i : grid1.Coords)
    (arg1 : Memref sig .tc .vmem S2000x384 .f32) (harg1 : arg1.IsWhole) (arg2 : Memref sig .tc .vmem S2000x384 .f32) (harg2 : arg2.IsWhole)
    (arg3 : Memref sig .tc .vmem S2000x384 .f32) (harg3 : arg3.IsWhole) (arg4 : Memref sig .tc .vmem S2000x384 .f32) (harg4 : arg4.IsWhole)
    (arg5 : Memref sig .tc .vmem S1x1 .f32) (harg5 : arg5.IsWhole) (hc : ¬cond1 i)
    (x0 x1 x2 x3 : Vec F S2000x384 .f32) (y : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay2 x0 x1 x2 x3 y)) -∗ K ⟨⟩))
      ⊢ wp frame (wpE (defs₀ (F := F)) Variants.none c none) E (cc1__spatial_kernel i arg1 harg1 arg2 harg2 arg3 harg3 arg4 harg4 arg5 harg5) K := by
  simp only [cc1__spatial_kernel_eq_skeleton]; unfold cc1__spatial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [Cert.Whole.read_writes_cons, Cert.Whole.readAt_whole, Cert.Whole.readAt_whole, Cert.Whole.readAt_whole, Cert.Whole.readAt_whole, Cert.Whole.readAt_whole,
    harg1.read_unread, harg2.read_unread, harg3.read_unread, harg4.read_unread, harg5.read_unread]

end Cert.Kernel.Hand

end
-- ==== Proof.K.Data1.lean ====
/-
  The edge pipeline's proof data at a parameter V, the buffer contents when the region is entered: after the body at
  grid point t each of the four input windows' staging buffers still holds its block of 2000 rows, and the (1, 1) output
  buffer holds the running total of the blocks' sums of squares — added to zero at point 0, to what the point before
  left afterwards (the output window's block index never moves and it is written back only after the last point).
-/
import proofs.«408175_j43473658970670_4_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S2000x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x384 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The running total of the blocks' sums of squares after point n. -/
def acc1 (c : Dev nD) : (n : ℕ) → n < cfg1.N → Vec F S1x1 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

/-- Pipeline 1's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After point 0 the output window's buffer holds what the point before left: it is not written back between. -/
theorem before1_4 (c : Dev nD) (t : Fin cfg1.N) (h0 : ¬t.val % 160 = 0) (d) :
    (dat1 V c).before 4 t d = acc1 V c (t.val - 1) (Nat.lt_of_le_of_lt (Nat.sub_le _ _) t.isLt) := by
  have hN : t.val < 160 := lt_of_lt_of_eq t.isLt (show cfg1.N = 160 from N_1)
  rw [Dat.before_out_kept _ 4 rfl t (by omega) (Bool.eq_false_iff.mpr fun h => by have := (flush1_4 _).mp h; dsimp only at this; omega)
    (fun _ => rfl) (fun _ _ => rfl)]
  dsimp only [dat1]

theorem acc1_first (c : Dev nD) (t : Fin cfg1.N) (h0 : t.val % 160 = 0) :
    acc1 V c t.val t.isLt = k1_pay2 (iblk1 V c 0 t) (iblk1 V c 1 t) (iblk1 V c 2 t) (iblk1 V c 3 t) (k1_pay1 (F := F)) := by
  have hN : t.val < 160 := lt_of_lt_of_eq t.isLt (show cfg1.N = 160 from N_1)
  obtain ⟨n, hn⟩ := t
  cases n with
  | zero => rfl
  | succ n => exact absurd h0 (by dsimp only at hN ⊢; omega)
theorem acc1_later (c : Dev nD) (t : Fin cfg1.N) (h0 : ¬t.val % 160 = 0) :
    acc1 V c t.val t.isLt = k1_pay2 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h0
  | succ n => rfl

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 160 = 0
  · rw [acc1_first V c t h0]
    iintro ⟨HΦ, Ho, ⟨%d0, H0⟩, ⟨%d1, H1⟩, ⟨%d2, H2⟩, ⟨%d3, H3⟩, ⟨%d4, H4⟩⟩
    iapply (run1_first c Set.univ (grid1.coords t) _ _ _ _ _ _ _ _ _ _ ((hcond1 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_later V c t h0]
    simp only [before1_4 V c t h0]
    iintro ⟨HΦ, Ho, ⟨%d0, H0⟩, ⟨%d1, H1⟩, ⟨%d2, H2⟩, ⟨%d3, H3⟩, ⟨%d4, H4⟩⟩
    iapply (run1_later c Set.univ (grid1.coords t) _ _ _ _ _ _ _ _ _ _ (fun h => h0 ((hcond1 t).mp h)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program's run: between two items of the entry function every unscoped buffer is held at named contents —
  the launch contents, then each host stretch applied, each kernel region's output arrays replaced by what its
  write-backs leave — beside the core's generator register and an empty debt record. Each region is entered from that
  state and left at it; so every execution terminates and the three arguments end as launched.
-/
import proofs.«408175_j43473658970670_4_alg».proof.Proof.Gen.Kernel.Regions
import proofs.«408175_j43473658970670_4_alg».proof.Proof.K.Data0
import proofs.«408175_j43473658970670_4_alg».proof.Proof.K.Data1
import Idealize.ShloMosaic.Lib.Pipeline.FrameSuffix
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- Region 0 is entered at the launch contents after the first host stretch. -/
abbrev VR1 : (c : Dev nD) → (b : Ref sig .tc) → Buf (Elt F) ((c : Thread nD τ).loc b) := fun c b => V1 m c b

/-- After region 0: its output arrays at what the write-backs leave, every other buffer as entered. -/
def W2 (c : Dev nD) : Valuation τ sig (Elt F) :=
  Pipeline.withArrays spec0 c (V1 m c) fun w => (dat0 (VR1 m) c).arrAt w cfg0.N

/-- What region 0 leaves, as the unknowns the generated valuations are written over. -/
def outsA : Outs (F := F) := fun _ r c => W2 m c r

/-- Region 1 is entered after the four gathers. -/
abbrev VR7 : (c : Dev nD) → (b : Ref sig .tc) → Buf (Elt F) ((c : Thread nD τ).loc b) := fun c b => V7 m (outsA m) c b

/-- After region 1: its output array at what the write-back leaves, every other buffer as entered. -/
def W8 (c : Dev nD) : Valuation τ sig (Elt F) :=
  Pipeline.withArrays spec1 c (V7 m (outsA m) c) fun w => (dat1 (VR7 m) c).arrAt w cfg1.N

/-- What both regions leave. -/
def outs : Outs (F := F) := fun J r c => if J = 8 then W8 m c r else W2 m c r

theorem V7_outs (c : Dev nD) : V7 m (outs m) c = V7 m (outsA m) c := rfl

abbrev VR2 : (c : Dev nD) → (b : Ref sig .tc) → Buf (Elt F) ((c : Thread nD τ).loc b) := fun c b => V2 m (outs m) c b
abbrev VR8 : (c : Dev nD) → (b : Ref sig .tc) → Buf (Elt F) ((c : Thread nD τ).loc b) := fun c b => V8 m (outs m) c b

theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W8_arr (c : Dev nD) (w : Fin cfg1.W) :
    W8 m c (Proc.devRef .tc (Pipeline.arrRef spec1 w)) = (dat1 (VR7 m) c).arrAt w cfg1.N := by
  unfold W8; exact Pipeline.withArrays_arr spec1 launch1.win.arr_inj c _ _ w

/-- What region 0 leaves in its three output arrays. -/
theorem V2_out0 (c : Dev nD) : V2 m (outs m) c main_v6_0 = (dat0 (VR1 m) c).arrAt 2 cfg0.N := by
  have e : V2 m (outs m) c main_v6_0 = outs m 2 main_v6_0 c := by
    simp only [V2, Function.update_of_ne (StableHlo.devRef_ne_of_ne (by decide) : (Proc.devRef .tc main_v6_0 : DevRef τ sig) ≠ Proc.devRef .tc main_v6_2),
      Function.update_of_ne (StableHlo.devRef_ne_of_ne (by decide) : (Proc.devRef .tc main_v6_0 : DevRef τ sig) ≠ Proc.devRef .tc main_v6_1), Function.update_self]
  have e2 : outs m 2 main_v6_0 c = W2 m c main_v6_0 := by unfold outs; exact if_neg (by decide)
  exact (e.trans e2).trans (W2_arr m c 2)
theorem V2_out1 (c : Dev nD) : V2 m (outs m) c main_v6_1 = (dat0 (VR1 m) c).arrAt 3 cfg0.N := by
  have e : V2 m (outs m) c main_v6_1 = outs m 2 main_v6_1 c := by
    simp only [V2, Function.update_of_ne (StableHlo.devRef_ne_of_ne (by decide) : (Proc.devRef .tc main_v6_1 : DevRef τ sig) ≠ Proc.devRef .tc main_v6_2), Function.update_self]
  have e2 : outs m 2 main_v6_1 c = W2 m c main_v6_1 := by unfold outs; exact if_neg (by decide)
  exact (e.trans e2).trans (W2_arr m c 3)
theorem V2_out2 (c : Dev nD) : V2 m (outs m) c main_v6_2 = (dat0 (VR1 m) c).arrAt 4 cfg0.N := by
  have e : V2 m (outs m) c main_v6_2 = outs m 2 main_v6_2 c := by
    simp only [V2, Function.update_self]
  have e2 : outs m 2 main_v6_2 c = W2 m c main_v6_2 := by unfold outs; exact if_neg (by decide)
  exact (e.trans e2).trans (W2_arr m c 4)

/-- At region 0's exit each of its arrays holds what the pipeline leaves: an input as entered, an output the write-back. -/
theorem hF0 (c : Dev nD) (w : Fin cfg0.W) : (dat0 (VR1 m) c).arrAt w cfg0.N = VR2 m c (Pipeline.arrRef spec0 w) := by
  rcases (by decide : ∀ w : Fin cfg0.W, w = 0 ∨ w = 1 ∨ w = 2 ∨ w = 3 ∨ w = 4) w with rfl | rfl | rfl | rfl | rfl
  · exact ((dat0 (VR1 m) c).arrAt_in 0 rfl _).trans ((A_eq0 (VR1 m) c 0).trans (V2_of m (outs m) c main_v4 (by decide)).symm)
  · exact ((dat0 (VR1 m) c).arrAt_in 1 rfl _).trans ((A_eq0 (VR1 m) c 1).trans (V2_of m (outs m) c main_v5 (by decide)).symm)
  · exact (V2_out0 m c).symm
  · exact (V2_out1 m c).symm
  · exact (V2_out2 m c).symm

theorem hrest0 (c : Dev nD) : ∀ b, b ∉ Finset.univ.image (Pipeline.arrRef spec0) → VR2 m c b = VR1 m c b :=
  fun b hb => V2_of m (outs m) c b (by
    intro hmem
    apply hb
    simp only [List.mem_cons, List.mem_nil_iff, or_false] at hmem
    rcases hmem with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

/-- What region 1 leaves in its output array. -/
theorem V8_out (c : Dev nD) : V8 m (outs m) c main_v21 = (dat1 (VR7 m) c).arrAt 4 cfg1.N := by
  have e : V8 m (outs m) c main_v21 = outs m 8 main_v21 c := by simp only [V8, Function.update_self]
  have e2 : outs m 8 main_v21 c = W8 m c main_v21 := by unfold outs; exact if_pos rfl
  exact (e.trans e2).trans (W8_arr m c 4)

theorem hF1 (c : Dev nD) (w : Fin cfg1.W) : (dat1 (VR7 m) c).arrAt w cfg1.N = VR8 m c (Pipeline.arrRef spec1 w) := by
  rcases (by decide : ∀ w : Fin cfg1.W, w = 0 ∨ w = 1 ∨ w = 2 ∨ w = 3 ∨ w = 4) w with rfl | rfl | rfl | rfl | rfl
  · exact ((dat1 (VR7 m) c).arrAt_in 0 rfl _).trans ((A_eq1 (VR7 m) c 0).trans ((V8_of m (outs m) c main_v17 (by decide)).trans (congrFun (V7_outs m c) _)).symm)
  · exact ((dat1 (VR7 m) c).arrAt_in 1 rfl _).trans ((A_eq1 (VR7 m) c 1).trans ((V8_of m (outs m) c main_v18 (by decide)).trans (congrFun (V7_outs m c) _)).symm)
  · exact ((dat1 (VR7 m) c).arrAt_in 2 rfl _).trans ((A_eq1 (VR7 m) c 2).trans ((V8_of m (outs m) c main_v19 (by decide)).trans (congrFun (V7_outs m c) _)).symm)
  · exact ((dat1 (VR7 m) c).arrAt_in 3 rfl _).trans ((A_eq1 (VR7 m) c 3).trans ((V8_of m (outs m) c main_v20 (by decide)).trans (congrFun (V7_outs m c) _)).symm)
  · exact (V8_out m c).symm

theorem hrest1 (c : Dev nD) : ∀ b, b ∉ Finset.univ.image (Pipeline.arrRef spec1) → VR8 m c b = VR7 m c b :=
  fun b hb => (V8_of m (outs m) c b (by
    intro hmem
    apply hb
    simp only [List.mem_cons, List.mem_nil_iff, or_false] at hmem
    subst hmem
    exact Finset.mem_image.mpr ⟨4, Finset.mem_univ _, rfl⟩)).trans (congrFun (V7_outs m c) _)

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR7 m) c

abbrev 𝒱₀ : Variants := Variants.none
abbrev L : GSem nD τ sig → Finset Unit := fun _ => ∅
abbrev lv : GSem nD τ sig → Unit → ℕ := fun _ _ => 0

/-- Beside the buffers: the generator register at some state and the core's debt record, empty. -/
abbrev Rr (c : Dev nD) : sProp 𝕄 := iprop((∃ r, prngReg c r) ∗ ∃ W, owes (c : Thread nD τ) (0 : CellTallies nD τ sig Unit) W)

/-! ## The two regions -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    -- the region's arrays are split out of the unscoped buffers; the register goes to the invariant, the debt record stays
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hbufs, Hreg, Hdebt⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hother
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    -- the arrays at their final contents and the untouched rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Harr, Hdebt, Hreg, Hother⟩
    imodintro
    isplitl [Harr Hother]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR7 m) c).loose
  hwaits := Pipeline.hwaits_of_owed_zero _ _ _ _ L lv 1 fun _ _ => rfl
  pre c := iprop(StableHlo.held (c : Thread nD τ) (Pipeline.ucRefs τ sig) (V7 m (outsA m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VR7 m c)
  hentry c := by
    -- the region's arrays are split out of the unscoped buffers; the register goes to the invariant, the debt record stays
    rw [Pipeline.ownSems0_none]
    have hsplit := Pipeline.arrays_of_unscopedBufs (p := 1) (pcfgs (F := F)) adm (pdats m) launch1.win launch1.arr_whole c
      ((pdats m 1 c).share_full fun _ => rfl) (VR7 m c) fun _ => rfl
    rw [Pipeline.unscopedBufs_held] at hsplit
    iintro ⟨⟨Hbufs, Hreg, Hdebt⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hother
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    -- the arrays at their final contents and the untouched rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR7 m c) (VR8 m c) ((pdats m 1 c).arrAt · cfg1.N) (hF1 m c) (hrest1 m c)
    rw [Pipeline.unscopedBufs_held] at hjoin
    iintro ⟨Harr, Hdebt, Hreg, Hother⟩
    imodintro
    isplitl [Harr Hother]
    · iapply hjoin; isplitl [Harr] <;> iassumption
    isplitl [Hreg]; · iexact Hreg
    unfold Pipeline.Dat.owesAt Pipeline.owesWithin
    icases Hdebt with ⟨%W, -, Hdebt⟩; iexists W; iexact Hdebt

end Cert.Kernel.Hand

end
-- ==== Proof.K.Frame.lean ====
/-
  The launch: from any memory with zero counters every weakly fair execution of the entry function terminates and the
  three arguments end as launched.
-/
import proofs.«408175_j43473658970670_4_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, Hdebt, -, Hreg, -⟩, -⟩
      imodintro
      isplitl [Hreg]; · iexists _; iexact Hreg
      iexists ∅; iexact Hdebt)
    (hE2 := fun c => by iintro ⟨-, Hdebt⟩; iexact Hdebt)
    (reg0 m) (fun _ => .rfl) (fun _ => .rfl)
    (reg1 m) (fun c => by rw [V7_outs m c]; exact .rfl) (fun _ => .rfl)

end Cert.Kernel.Hand

end
-- ==== Proof.KI.Body0.lean ====
/-
  The first kernel's body on whole staging buffers, in its two control cases. It reads one batch element's (12, 2, 10000)
  blocks of the two transposed arrays and adds three block sums — absolute error, squared second difference in time,
  squared difference of node sums — into three (1, 1) output buffers, which it zeroes first at grid point 0.
-/
import proofs.«408175_j43473658970670_4_alg».proof.Proof.Gen.KernelIdeal.Launch
import proofs.«408175_j43473658970670_4_alg».proof.Proof.Gen.KernelIdeal.Skeleton
import proofs.«408175_j43473658970670_4_alg».proof.Proof.Gen.KernelIdeal.Points
import proofs.«408175_j43473658970670_4_alg».proof.Proof.LibWhole
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinate: "this is grid point 0". -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val % 16 = 0 :=
  (by decide +kernel : ∀ t : Fin grid0.N, cond0 (grid0.coords t) ↔ t.val % 16 = 0)

/-- All four offsets of a four-axis buffer's whole rectangle are zero. -/
theorem hz4 : (![0, 0, 0, 0] : Fin 4 → ℕ) = fun _ => 0 := by
  funext a
  match a with
  | ⟨0, _⟩ => rfl
  | ⟨1, _⟩ => rfl
  | ⟨2, _⟩ => rfl
  | ⟨3, _⟩ => rfl

/-- A load of a four-axis buffer through its whole rectangle reads the contents. -/
theorem readAt_whole4 {κ : Kind} {sp : Space} {e : EltTy} {n0 n1 n2 n3 : ℕ} (v : View sig κ sp ⟨4, ![n0, n1, n2, n3]⟩ e) (f : v.ty.Contents (Elt F))
    (inb : ∀ a, (![0, 0, 0, 0] : Fin (⟨4, ![n0, n1, n2, n3]⟩ : Shape).rank → ℕ) a + (⟨4, ![n0, n1, n2, n3]⟩ : Shape).size a ≤ (⟨4, ![n0, n1, n2, n3]⟩ : Shape).size a) :
    v.readAt (Elt F) (Rect.unit (s := ⟨4, ![n0, n1, n2, n3]⟩) ![0, 0, 0, 0] (⟨4, ![n0, n1, n2, n3]⟩ : Shape).size inb).toLoadRect f = v.read (Elt F) f := by
  rw [View.readAt_eq_ld, View.ld_unit_zero hz4]

set_option maxHeartbeats 1000000 in
/-- First point: each output buffer, whatever it held, ends at its block sum added to the zero just stored. -/
theorem run0_first (c : Dev nD) (E : Set ℕ) (i : grid0.Coords)
    (arg1 : Memref sig .tc .vmem S1x12x2x10000 .f32) (harg1 : arg1.IsWhole) (arg2 : Memref sig .tc .vmem S1x12x2x10000 .f32) (harg2 : arg2.IsWhole)
    (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S1x12x2x10000 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay1 (k0_pay9 x0 x1) (k0_pay4 (F := F)))
            ∗ owns (c : Thread nD τ) arg4 fullShare (k0_pay2 (k0_pay10 x0 x1) (k0_pay5 (F := F)))
            ∗ owns (c : Thread nD τ) arg5 fullShare (k0_pay3 (k0_pay11 x0 x1) (k0_pay6 (F := F)))) -∗ K ⟨⟩))
      ⊢ wp frame (wpE (defs₀ (F := F)) Variants.none c none) E (cc0__mtc_kernel i arg1 harg1 arg2 harg2 arg3 harg3 arg4 harg4 arg5 harg5) K := by
  simp only [cc0__mtc_kernel_eq_skeleton]; unfold cc0__mtc_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    dsimp only
    rw [Cert.Whole.read_writes_cons, Cert.Whole.readCov_whole, readAt_whole4, readAt_whole4, harg1.read_unread, harg2.read_unread]
  isplitl [H3]
  · iexists _; isplitr
    swap; · iexact H3
    ipureintro
    sl_unfold_words
    dsimp only
    rw [Cert.Whole.read_writes_cons, Cert.Whole.readCov_whole, readAt_whole4, readAt_whole4, harg1.read_unread, harg2.read_unread]
  iexists _; isplitr
  swap; · iexact H4
  ipureintro
  sl_unfold_words
  dsimp only
  rw [Cert.Whole.read_writes_cons, Cert.Whole.readCov_whole, readAt_whole4, readAt_whole4, harg1.read_unread, harg2.read_unread]

set_option maxHeartbeats 1000000 in
/-- A later point: each output buffer, holding y, ends at its block sum added to y. -/
theorem run0_later (c : Dev nD) (E : Set ℕ) (i : grid0.Coords)
    (arg1 : Memref sig .tc .vmem S1x12x2x10000 .f32) (harg1 : arg1.IsWhole) (arg2 : Memref sig .tc .vmem S1x12x2x10000 .f32) (harg2 : arg2.IsWhole)
    (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S1x12x2x10000 .f32) (y3 y4 y5 : Vec F S1x1 .f32) (K : PUnit → sProp 𝕄) :
    iprop(owns (c : Thread nD τ) arg1 fullShare x0 ∗ owns (c : Thread nD τ) arg2 fullShare x1 ∗ owns (c : Thread nD τ) arg3 fullShare y3 ∗ owns (c : Thread nD τ) arg4 fullShare y4 ∗ owns (c : Thread nD τ) arg5 fullShare y5
        ∗ (iprop(owns (c : Thread nD τ) arg1 fullShare x0 ∗ owns (c : Thread nD τ) arg2 fullShare x1
            ∗ owns (c : Thread nD τ) arg3 fullShare (k0_pay1 (k0_pay9 x0 x1) y3)
            ∗ owns (c : Thread nD τ) arg4 fullShare (k0_pay2 (k0_pay10 x0 x1) y4)
            ∗ owns (c : Thread nD τ) arg5 fullShare (k0_pay3 (k0_pay11 x0 x1) y5)) -∗ K ⟨⟩))
      ⊢ wp frame (wpE (defs₀ (F := F)) Variants.none c none) E (cc0__mtc_kernel i arg1 harg1 arg2 harg2 arg3 harg3 arg4 harg4 arg5 harg5) K := by
  simp only [cc0__mtc_kernel_eq_skeleton]; unfold cc0__mtc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  obtain rfl := harg3.eq_unread hf2; obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    dsimp only
    rw [Cert.Whole.read_writes_cons, Cert.Whole.readAt_whole, readAt_whole4, readAt_whole4, harg1.read_unread, harg2.read_unread, harg3.read_unread]
  isplitl [H3]
  · iexists _; isplitr
    swap; · iexact H3
    ipureintro
    dsimp only
    rw [Cert.Whole.read_writes_cons, Cert.Whole.readAt_whole, readAt_whole4, readAt_whole4, harg1.read_unread, harg2.read_unread, harg4.read_unread]
  iexists _; isplitr
  swap; · iexact H4
  ipureintro
  dsimp only
  rw [Cert.Whole.read_writes_cons, Cert.Whole.readAt_whole, readAt_whole4, readAt_whole4, harg1.read_unread, harg2.read_unread, harg5.read_unread]

end Cert.KernelIdeal.Hand

end
-- ==== Proof.KI.Data0.lean ====
/-
  The two pipelines' proof data at a parameter V, the buffer contents when the region is entered. After the body at grid
  point t each input window's staging buffer still holds its block; each (1, 1) output buffer holds the running total:
  at point 0 the block's sum added to zero, at point t + 1 the block's sum added to what point t left (the output
  windows' block index never moves and they are written back only after the last point, so a point finds what the point
  before left). The body obligation at every point follows from the two body runs.
-/
import proofs.«408175_j43473658970670_4_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Pipeline 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x12x2x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12x2x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- The running total of absolute errors after point n. -/
def acc0_2 (c : Dev nD) : (n : ℕ) → n < cfg0.N → Vec F S1x1 .f32
  | 0, hn => k0_pay1 (k0_pay9 (iblk0 V c 0 ⟨0, hn⟩) (iblk0 V c 1 ⟨0, hn⟩)) (k0_pay4 (F := F))
  | n + 1, hn => k0_pay1 (k0_pay9 (iblk0 V c 0 ⟨n + 1, hn⟩) (iblk0 V c 1 ⟨n + 1, hn⟩)) (acc0_2 c n (Nat.lt_of_succ_lt hn))
/-- The running total of squared second differences after point n. -/
def acc0_3 (c : Dev nD) : (n : ℕ) → n < cfg0.N → Vec F S1x1 .f32
  | 0, hn => k0_pay2 (k0_pay10 (iblk0 V c 0 ⟨0, hn⟩) (iblk0 V c 1 ⟨0, hn⟩)) (k0_pay5 (F := F))
  | n + 1, hn => k0_pay2 (k0_pay10 (iblk0 V c 0 ⟨n + 1, hn⟩) (iblk0 V c 1 ⟨n + 1, hn⟩)) (acc0_3 c n (Nat.lt_of_succ_lt hn))
/-- The running total of squared node-sum differences after point n. -/
def acc0_4 (c : Dev nD) : (n : ℕ) → n < cfg0.N → Vec F S1x1 .f32
  | 0, hn => k0_pay3 (k0_pay11 (iblk0 V c 0 ⟨0, hn⟩) (iblk0 V c 1 ⟨0, hn⟩)) (k0_pay6 (F := F))
  | n + 1, hn => k0_pay3 (k0_pay11 (iblk0 V c 0 ⟨n + 1, hn⟩) (iblk0 V c 1 ⟨n + 1, hn⟩)) (acc0_4 c n (Nat.lt_of_succ_lt hn))

/-- Pipeline 0's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0_2 V c t.val t.isLt
    | ⟨3, _⟩ => acc0_3 V c t.val t.isLt
    | ⟨4, _⟩ => acc0_4 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0_2 V c t.val t.isLt := by dsimp only [dat0]
theorem after0_3 (c : Dev nD) (t : Fin cfg0.N) : (dat0 V c).after 3 t = acc0_3 V c t.val t.isLt := by dsimp only [dat0]
theorem after0_4 (c : Dev nD) (t : Fin cfg0.N) : (dat0 V c).after 4 t = acc0_4 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After point 0 an output window's buffer holds what the point before left: it is not written back between. -/
theorem before0_2 (c : Dev nD) (t : Fin cfg0.N) (h0 : ¬t.val % 16 = 0) (d) :
    (dat0 V c).before 2 t d = acc0_2 V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3 (c : Dev nD) (t : Fin cfg0.N) (h0 : ¬t.val % 16 = 0) (d) :
    (dat0 V c).before 3 t d = acc0_3 V c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4 (c : Dev nD) (t : Fin cfg0.N) (h0 : ¬t.val % 16 = 0) (d) :
    (dat0 V c).before 4 t d = acc0_4 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

/-- The running totals at point 0 and at a later point, unfolded one step. -/
theorem acc0_2_first (c : Dev nD) (t : Fin cfg0.N) (h0 : t.val % 16 = 0) :
    acc0_2 V c t.val t.isLt = k0_pay1 (k0_pay9 (iblk0 V c 0 t) (iblk0 V c 1 t)) (k0_pay4 (F := F)) := by
  have hN : t.val < 16 := lt_of_lt_of_eq t.isLt (show cfg0.N = 16 from N_0)
  obtain ⟨n, hn⟩ := t
  cases n with
  | zero => rfl
  | succ n => exact absurd h0 (by dsimp only at hN ⊢; omega)
theorem acc0_2_later (c : Dev nD) (t : Fin cfg0.N) (h0 : ¬t.val % 16 = 0) :
    acc0_2 V c t.val t.isLt = k0_pay1 (k0_pay9 (iblk0 V c 0 t) (iblk0 V c 1 t)) (acc0_2 V c (t.val - 1) (Nat.lt_of_le_of_lt (Nat.sub_le _ _) t.isLt)) := by
  obtain ⟨n, hn⟩ := t
  cases n with
  | zero => exact absurd (Nat.zero_mod _) h0
  | succ n => rfl
theorem acc0_3_first (c : Dev nD) (t : Fin cfg0.N) (h0 : t.val % 16 = 0) :
    acc0_3 V c t.val t.isLt = k0_pay2 (k0_pay10 (iblk0 V c 0 t) (iblk0 V c 1 t)) (k0_pay5 (F := F)) := by
  have hN : t.val < 16 := lt_of_lt_of_eq t.isLt (show cfg0.N = 16 from N_0)
  obtain ⟨n, hn⟩ := t
  cases n with
  | zero => rfl
  | succ n => exact absurd h0 (by dsimp only at hN ⊢; omega)
theorem acc0_3_later (c : Dev nD) (t : Fin cfg0.N) (h0 : ¬t.val % 16 = 0) :
    acc0_3 V c t.val t.isLt = k0_pay2 (k0_pay10 (iblk0 V c 0 t) (iblk0 V c 1 t)) (acc0_3 V c (t.val - 1) (Nat.lt_of_le_of_lt (Nat.sub_le _ _) t.isLt)) := by
  obtain ⟨n, hn⟩ := t
  cases n with
  | zero => exact absurd (Nat.zero_mod _) h0
  | succ n => rfl
theorem acc0_4_first (c : Dev nD) (t : Fin cfg0.N) (h0 : t.val % 16 = 0) :
    acc0_4 V c t.val t.isLt = k0_pay3 (k0_pay11 (iblk0 V c 0 t) (iblk0 V c 1 t)) (k0_pay6 (F := F)) := by
  have hN : t.val < 16 := lt_of_lt_of_eq t.isLt (show cfg0.N = 16 from N_0)
  obtain ⟨n, hn⟩ := t
  cases n with
  | zero => rfl
  | succ n => exact absurd h0 (by dsimp only at hN ⊢; omega)
theorem acc0_4_later (c : Dev nD) (t : Fin cfg0.N) (h0 : ¬t.val % 16 = 0) :
    acc0_4 V c t.val t.isLt = k0_pay3 (k0_pay11 (iblk0 V c 0 t) (iblk0 V c 1 t)) (acc0_4 V c (t.val - 1) (Nat.lt_of_le_of_lt (Nat.sub_le _ _) t.isLt)) := by
  obtain ⟨n, hn⟩ := t
  cases n with
  | zero => exact absurd (Nat.zero_mod _) h0
  | succ n => rfl

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 16 = 0
  · rw [acc0_2_first V c t h0, acc0_3_first V c t h0, acc0_4_first V c t h0]
    iintro ⟨HΦ, Ho, ⟨%d0, H0⟩, ⟨%d1, H1⟩, ⟨%d2, H2⟩, ⟨%d3, H3⟩, ⟨%d4, H4⟩⟩
    iapply (run0_first c Set.univ (grid0.coords t) _ _ _ _ _ _ _ _ _ _ ((hcond0 t).mpr h0) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_2_later V c t h0, acc0_3_later V c t h0, acc0_4_later V c t h0]
    simp only [before0_2 V c t h0, before0_3 V c t h0, before0_4 V c t h0]
    iintro ⟨HΦ, Ho, ⟨%d0, H0⟩, ⟨%d1, H1⟩, ⟨%d2, H2⟩, ⟨%d3, H3⟩, ⟨%d4, H4⟩⟩
    iapply (run0_later c Set.univ (grid0.coords t) _ _ _ _ _ _ _ _ _ _ (fun h => h0 ((hcond0 t).mp h)) (iblk0 V c 0 t) (iblk0 V c 1 t) _ _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The edge kernel's body on whole staging buffers, in its two control cases. At the first grid point the (1, 1) output
  buffer is zeroed and the block's sum of squares is added to that zero; at every later point the sum is added to
  what the buffer already holds. In both cases the four input blocks are only read.
-/
import proofs.«408175_j43473658970670_4_alg».proof.Proof.Gen.KernelIdeal.Launch
import proofs.«408175_j43473658970670_4_alg».proof.Proof.Gen.KernelIdeal.Skeleton
import proofs.«408175_j43473658970670_4_alg».proof.Proof.Gen.KernelIdeal.Points
import proofs.«408175_j43473658970670_4_alg».proof.Proof.LibWhole
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinate: "this is grid point 0". -/
abbrev cond1 (i : grid1.Coords) : Prop :=
  (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val % 160 = 0 :=
  (by decide +kernel : ∀ t : Fin grid1.N, cond1 (grid1.coords t) ↔ t.val % 160 = 0)

set_option maxHeartbeats 1000000 in
/-- First point: the output buffer, whatever it held, ends at the block's sum added to the zero just stored. -/
theorem run1_first (c : Dev nD) (E : Set ℕ) (i : grid1.Coords)
    (arg1 : Memref sig .tc .vmem S2000x384 .f32) (harg1 : arg1.IsWhole) (arg2 : Memref sig .tc .vmem S2000x384 .f32) (harg2 : arg2.IsWhole)
    (arg3 : Memref sig .tc .vmem S2000x384 .f32) (harg3 : arg3.IsWhole) (arg4 : Memref sig .tc .vmem S2000x384 .f32) (harg4 : arg4.IsWhole)
    (arg5 : Memref sig .tc .vmem S1x1 .f32) (harg5 : arg5.IsWhole) (hc : cond1 i)
    (x0 x1 x2 x3 : Vec F S2000x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay2 x0 x1 x2 x3 (k1_pay1 (F := F)))) -∗ K ⟨⟩))
      ⊢ wp frame (wpE (defs₀ (F := F)) Variants.none c none) E (cc1__spatial_kernel i arg1 harg1 arg2 harg2 arg3 harg3 arg4 harg4 arg5 harg5) K := by
  simp only [cc1__spatial_kernel_eq_skeleton]; unfold cc1__spatial_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  sl_unfold_words
  rw [Cert.Whole.read_writes_cons, Cert.Whole.readCov_whole, Cert.Whole.readAt_whole, Cert.Whole.readAt_whole, Cert.Whole.readAt_whole, Cert.Whole.readAt_whole,
    harg1.read_unread, harg2.read_unread, harg3.read_unread, harg4.read_unread]

set_option maxHeartbeats 1000000 in
/-- A later point: the output buffer, holding y, ends at the block's sum added to y. -/
theorem run1_later (c : Dev nD) (E : Set ℕ) (i : grid1.Coords)
    (arg1 : Memref sig .tc .vmem S2000x384 .f32) (harg1 : arg1.IsWhole) (arg2 : Memref sig .tc .vmem S2000x384 .f32) (harg2 : arg2.IsWhole)
    (arg3 : Memref sig .tc .vmem S2000x384 .f32) (harg3 : arg3.IsWhole) (arg4 : Memref sig .tc .vmem S2000x384 .f32) (harg4 : arg4.IsWhole)
    (arg5 : Memref sig .tc .vmem S1x1 .f32) (harg5 : arg5.IsWhole) (hc : ¬cond1 i)
    (x0 x1 x2 x3 : Vec F S2000x384 .f32) (y : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay2 x0 x1 x2 x3 y)) -∗ K ⟨⟩))
      ⊢ wp frame (wpE (defs₀ (F := F)) Variants.none c none) E (cc1__spatial_kernel i arg1 harg1 arg2 harg2 arg3 harg3 arg4 harg4 arg5 harg5) K := by
  simp only [cc1__spatial_kernel_eq_skeleton]; unfold cc1__spatial_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [Cert.Whole.read_writes_cons, Cert.Whole.readAt_whole, Cert.Whole.readAt_whole, Cert.Whole.readAt_whole, Cert.Whole.readAt_whole, Cert.Whole.readAt_whole,
    harg1.read_unread, harg2.read_unread, harg3.read_unread, harg4.read_unread, harg5.read_unread]

end Cert.KernelIdeal.Hand

end
-- ==== Proof.KI.Data1.lean ====
/-
  The edge pipeline's proof data at a parameter V, the buffer contents when the region is entered: after the body at
  grid point t each of the four input windows' staging buffers still holds its block of 2000 rows, and the (1, 1) output
  buffer holds the running total of the blocks' sums of squares — added to zero at point 0, to what the point before
  left afterwards (the output window's block index never moves and it is written back only after the last point).
-/
import proofs.«408175_j43473658970670_4_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S2000x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x384 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The running total of the blocks' sums of squares after point n. -/
def acc1 (c : Dev nD) : (n : ℕ) → n < cfg1.N → Vec F S1x1 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

/-- Pipeline 1's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After point 0 the output window's buffer holds what the point before left: it is not written back between. -/
theorem before1_4 (c : Dev nD) (t : Fin cfg1.N) (h0 : ¬t.val % 160 = 0) (d) :
    (dat1 V c).before 4 t d = acc1 V c (t.val - 1) (Nat.lt_of_le_of_lt (Nat.sub_le _ _) t.isLt) := by
  have hN : t.val < 160 := lt_of_lt_of_eq t.isLt (show cfg1.N = 160 from N_1)
  rw [Dat.before_out_kept _ 4 rfl t (by omega) (Bool.eq_false_iff.mpr fun h => by have := (flush1_4 _).mp h; dsimp only at this; omega)
    (fun _ => rfl) (fun _ _ => rfl)]
  dsimp only [dat1]

theorem acc1_first (c : Dev nD) (t : Fin cfg1.N) (h0 : t.val % 160 = 0) :
    acc1 V c t.val t.isLt = k1_pay2 (iblk1 V c 0 t) (iblk1 V c 1 t) (iblk1 V c 2 t) (iblk1 V c 3 t) (k1_pay1 (F := F)) := by
  have hN : t.val < 160 := lt_of_lt_of_eq t.isLt (show cfg1.N = 160 from N_1)
  obtain ⟨n, hn⟩ := t
  cases n with
  | zero => rfl
  | succ n => exact absurd h0 (by dsimp only at hN ⊢; omega)
theorem acc1_later (c : Dev nD) (t : Fin cfg1.N) (h0 : ¬t.val % 160 = 0) :
    acc1 V c t.val t.isLt = k1_pay2 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h0
  | succ n => rfl

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 160 = 0
  · rw [acc1_first V c t h0]
    iintro ⟨HΦ, Ho, ⟨%d0, H0⟩, ⟨%d1, H1⟩, ⟨%d2, H2⟩, ⟨%d3, H3⟩, ⟨%d4, H4⟩⟩
    iapply (run1_first c Set.univ (grid1.coords t) _ _ _ _ _ _ _ _ _ _ ((hcond1 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_later V c t h0]
    simp only [before1_4 V c t h0]
    iintro ⟨HΦ, Ho, ⟨%d0, H0⟩, ⟨%d1, H1⟩, ⟨%d2, H2⟩, ⟨%d3, H3⟩, ⟨%d4, H4⟩⟩
    iapply (run1_later c Set.univ (grid1.coords t) _ _ _ _ _ _ _ _ _ _ (fun h => h0 ((hcond1 t).mp h)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program's run: between two items of the entry function every unscoped buffer is held at named contents —
  the launch contents, then each host stretch applied, each kernel region's output arrays replaced by what its
  write-backs leave — beside the core's generator register and an empty debt record. Each region is entered from that
  state and left at it; so every execution terminates and the three arguments end as launched.
-/
import proofs.«408175_j43473658970670_4_alg».proof.Proof.Gen.KernelIdeal.Regions
import proofs.«408175_j43473658970670_4_alg».proof.Proof.KI.Data0
import proofs.«408175_j43473658970670_4_alg».proof.Proof.KI.Data1
import Idealize.ShloMosaic.Lib.Pipeline.FrameSuffix
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- Region 0 is entered at the launch contents after the first host stretch. -/
abbrev VR1 : (c : Dev nD) → (b : Ref sig .tc) → Buf (Elt F) ((c : Thread nD τ).loc b) := fun c b => V1 m c b

/-- After region 0: its output arrays at what the write-backs leave, every other buffer as entered. -/
def W2 (c : Dev nD) : Valuation τ sig (Elt F) :=
  Pipeline.withArrays spec0 c (V1 m c) fun w => (dat0 (VR1 m) c).arrAt w cfg0.N

/-- What region 0 leaves, as the unknowns the generated valuations are written over. -/
def outsA : Outs (F := F) := fun _ r c => W2 m c r

/-- Region 1 is entered after the four gathers. -/
abbrev VR7 : (c : Dev nD) → (b : Ref sig .tc) → Buf (Elt F) ((c : Thread nD τ).loc b) := fun c b => V7 m (outsA m) c b

/-- After region 1: its output array at what the write-back leaves, every other buffer as entered. -/
def W8 (c : Dev nD) : Valuation τ sig (Elt F) :=
  Pipeline.withArrays spec1 c (V7 m (outsA m) c) fun w => (dat1 (VR7 m) c).arrAt w cfg1.N

/-- What both regions leave. -/
def outs : Outs (F := F) := fun J r c => if J = 8 then W8 m c r else W2 m c r

theorem V7_outs (c : Dev nD) : V7 m (outs m) c = V7 m (outsA m) c := rfl

abbrev VR2 : (c : Dev nD) → (b : Ref sig .tc) → Buf (Elt F) ((c : Thread nD τ).loc b) := fun c b => V2 m (outs m) c b
abbrev VR8 : (c : Dev nD) → (b : Ref sig .tc) → Buf (Elt F) ((c : Thread nD τ).loc b) := fun c b => V8 m (outs m) c b

theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W8_arr (c : Dev nD) (w : Fin cfg1.W) :
    W8 m c (Proc.devRef .tc (Pipeline.arrRef spec1 w)) = (dat1 (VR7 m) c).arrAt w cfg1.N := by
  unfold W8; exact Pipeline.withArrays_arr spec1 launch1.win.arr_inj c _ _ w

/-- What region 0 leaves in its three output arrays. -/
theorem V2_out0 (c : Dev nD) : V2 m (outs m) c main_v6_0 = (dat0 (VR1 m) c).arrAt 2 cfg0.N := by
  have e : V2 m (outs m) c main_v6_0 = outs m 2 main_v6_0 c := by
    simp only [V2, Function.update_of_ne (StableHlo.devRef_ne_of_ne (by decide) : (Proc.devRef .tc main_v6_0 : DevRef τ sig) ≠ Proc.devRef .tc main_v6_2),
      Function.update_of_ne (StableHlo.devRef_ne_of_ne (by decide) : (Proc.devRef .tc main_v6_0 : DevRef τ sig) ≠ Proc.devRef .tc main_v6_1), Function.update_self]
  have e2 : outs m 2 main_v6_0 c = W2 m c main_v6_0 := by unfold outs; exact if_neg (by decide)
  exact (e.trans e2).trans (W2_arr m c 2)
theorem V2_out1 (c : Dev nD) : V2 m (outs m) c main_v6_1 = (dat0 (VR1 m) c).arrAt 3 cfg0.N := by
  have e : V2 m (outs m) c main_v6_1 = outs m 2 main_v6_1 c := by
    simp only [V2, Function.update_of_ne (StableHlo.devRef_ne_of_ne (by decide) : (Proc.devRef .tc main_v6_1 : DevRef τ sig) ≠ Proc.devRef .tc main_v6_2), Function.update_self]
  have e2 : outs m 2 main_v6_1 c = W2 m c main_v6_1 := by unfold outs; exact if_neg (by decide)
  exact (e.trans e2).trans (W2_arr m c 3)
theorem V2_out2 (c : Dev nD) : V2 m (outs m) c main_v6_2 = (dat0 (VR1 m) c).arrAt 4 cfg0.N := by
  have e : V2 m (outs m) c main_v6_2 = outs m 2 main_v6_2 c := by
    simp only [V2, Function.update_self]
  have e2 : outs m 2 main_v6_2 c = W2 m c main_v6_2 := by unfold outs; exact if_neg (by decide)
  exact (e.trans e2).trans (W2_arr m c 4)

/-- At region 0's exit each of its arrays holds what the pipeline leaves: an input as entered, an output the write-back. -/
theorem hF0 (c : Dev nD) (w : Fin cfg0.W) : (dat0 (VR1 m) c).arrAt w cfg0.N = VR2 m c (Pipeline.arrRef spec0 w) := by
  rcases (by decide : ∀ w : Fin cfg0.W, w = 0 ∨ w = 1 ∨ w = 2 ∨ w = 3 ∨ w = 4) w with rfl | rfl | rfl | rfl | rfl
  · exact ((dat0 (VR1 m) c).arrAt_in 0 rfl _).trans ((A_eq0 (VR1 m) c 0).trans (V2_of m (outs m) c main_v4 (by decide)).symm)
  · exact ((dat0 (VR1 m) c).arrAt_in 1 rfl _).trans ((A_eq0 (VR1 m) c 1).trans (V2_of m (outs m) c main_v5 (by decide)).symm)
  · exact (V2_out0 m c).symm
  · exact (V2_out1 m c).symm
  · exact (V2_out2 m c).symm

theorem hrest0 (c : Dev nD) : ∀ b, b ∉ Finset.univ.image (Pipeline.arrRef spec0) → VR2 m c b = VR1 m c b :=
  fun b hb => V2_of m (outs m) c b (by
    intro hmem
    apply hb
    simp only [List.mem_cons, List.mem_nil_iff, or_false] at hmem
    rcases hmem with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

/-- What region 1 leaves in its output array. -/
theorem V8_out (c : Dev nD) : V8 m (outs m) c main_v21 = (dat1 (VR7 m) c).arrAt 4 cfg1.N := by
  have e : V8 m (outs m) c main_v21 = outs m 8 main_v21 c := by simp only [V8, Function.update_self]
  have e2 : outs m 8 main_v21 c = W8 m c main_v21 := by unfold outs; exact if_pos rfl
  exact (e.trans e2).trans (W8_arr m c 4)

theorem hF1 (c : Dev nD) (w : Fin cfg1.W) : (dat1 (VR7 m) c).arrAt w cfg1.N = VR8 m c (Pipeline.arrRef spec1 w) := by
  rcases (by decide : ∀ w : Fin cfg1.W, w = 0 ∨ w = 1 ∨ w = 2 ∨ w = 3 ∨ w = 4) w with rfl | rfl | rfl | rfl | rfl
  · exact ((dat1 (VR7 m) c).arrAt_in 0 rfl _).trans ((A_eq1 (VR7 m) c 0).trans ((V8_of m (outs m) c main_v17 (by decide)).trans (congrFun (V7_outs m c) _)).symm)
  · exact ((dat1 (VR7 m) c).arrAt_in 1 rfl _).trans ((A_eq1 (VR7 m) c 1).trans ((V8_of m (outs m) c main_v18 (by decide)).trans (congrFun (V7_outs m c) _)).symm)
  · exact ((dat1 (VR7 m) c).arrAt_in 2 rfl _).trans ((A_eq1 (VR7 m) c 2).trans ((V8_of m (outs m) c main_v19 (by decide)).trans (congrFun (V7_outs m c) _)).symm)
  · exact ((dat1 (VR7 m) c).arrAt_in 3 rfl _).trans ((A_eq1 (VR7 m) c 3).trans ((V8_of m (outs m) c main_v20 (by decide)).trans (congrFun (V7_outs m c) _)).symm)
  · exact (V8_out m c).symm

theorem hrest1 (c : Dev nD) : ∀ b, b ∉ Finset.univ.image (Pipeline.arrRef spec1) → VR8 m c b = VR7 m c b :=
  fun b hb => (V8_of m (outs m) c b (by
    intro hmem
    apply hb
    simp only [List.mem_cons, List.mem_nil_iff, or_false] at hmem
    subst hmem
    exact Finset.mem_image.mpr ⟨4, Finset.mem_univ _, rfl⟩)).trans (congrFun (V7_outs m c) _)

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR7 m) c

abbrev 𝒱₀ : Variants := Variants.none
abbrev L : GSem nD τ sig → Finset Unit := fun _ => ∅
abbrev lv : GSem nD τ sig → Unit → ℕ := fun _ _ => 0

/-- Beside the buffers: the generator register at some state and the core's debt record, empty. -/
abbrev Rr (c : Dev nD) : sProp 𝕄 := iprop((∃ r, prngReg c r) ∗ ∃ W, owes (c : Thread nD τ) (0 : CellTallies nD τ sig Unit) W)

/-! ## The two regions -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    -- the region's arrays are split out of the unscoped buffers; the register goes to the invariant, the debt record stays
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hbufs, Hreg, Hdebt⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hother
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    -- the arrays at their final contents and the untouched rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Harr, Hdebt, Hreg, Hother⟩
    imodintro
    isplitl [Harr Hother]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR7 m) c).loose
  hwaits := Pipeline.hwaits_of_owed_zero _ _ _ _ L lv 1 fun _ _ => rfl
  pre c := iprop(StableHlo.held (c : Thread nD τ) (Pipeline.ucRefs τ sig) (V7 m (outsA m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VR7 m c)
  hentry c := by
    -- the region's arrays are split out of the unscoped buffers; the register goes to the invariant, the debt record stays
    rw [Pipeline.ownSems0_none]
    have hsplit := Pipeline.arrays_of_unscopedBufs (p := 1) (pcfgs (F := F)) adm (pdats m) launch1.win launch1.arr_whole c
      ((pdats m 1 c).share_full fun _ => rfl) (VR7 m c) fun _ => rfl
    rw [Pipeline.unscopedBufs_held] at hsplit
    iintro ⟨⟨Hbufs, Hreg, Hdebt⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hother
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    -- the arrays at their final contents and the untouched rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR7 m c) (VR8 m c) ((pdats m 1 c).arrAt · cfg1.N) (hF1 m c) (hrest1 m c)
    rw [Pipeline.unscopedBufs_held] at hjoin
    iintro ⟨Harr, Hdebt, Hreg, Hother⟩
    imodintro
    isplitl [Harr Hother]
    · iapply hjoin; isplitl [Harr] <;> iassumption
    isplitl [Hreg]; · iexact Hreg
    unfold Pipeline.Dat.owesAt Pipeline.owesWithin
    icases Hdebt with ⟨%W, -, Hdebt⟩; iexists W; iexact Hdebt

end Cert.KernelIdeal.Hand

end
-- ==== Proof.KI.Frame.lean ====
/-
  The launch: from any memory with zero counters every weakly fair execution of the entry function terminates and the
  three arguments end as launched.
-/
import proofs.«408175_j43473658970670_4_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, Hdebt, -, Hreg, -⟩, -⟩
      imodintro
      isplitl [Hreg]; · iexists _; iexact Hreg
      iexists ∅; iexact Hdebt)
    (hE2 := fun c => by iintro ⟨-, Hdebt⟩; iexact Hdebt)
    (reg0 m) (fun _ => .rfl) (fun _ => .rfl)
    (reg1 m) (fun c => by rw [V7_outs m c]; exact .rfl) (fun _ => .rfl)

end Cert.KernelIdeal.Hand

end
-- ==== Proof.KI.RunVal.lean ====
/-
  The same launch with the result named: the result buffer ends at the last host stretch's value of it over what the
  two regions left.
-/
import proofs.«408175_j43473658970670_4_alg».proof.Proof.KI.Run
import proofs.«408175_j43473658970670_4_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The same run with the result named. -/
theorem run_val : θ_run defs (onTc (τ := τ) (main (F := F))) ⟨m, fun _ => 0, ρ⟩ (fun r => ∀ c : Dev nD,
      r.2.mem ((c.tc : Thread nD τ).loc main_v36) = V9 m (outs m) c main_v36
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, Hdebt, -, Hreg, -⟩, -⟩
      imodintro
      isplitl [Hreg]; · iexists _; iexact Hreg
      iexists ∅; iexact Hdebt)
    (hE2 := fun c => by iintro ⟨-, Hdebt⟩; iexact Hdebt)
    (reg0 m) (fun _ => .rfl) (fun _ => .rfl)
    (reg1 m) (fun c => by rw [V7_outs m c]; exact .rfl) (fun _ => .rfl)

end Cert.KernelIdeal.Hand

end
-- ==== Proof.KI.Final.lean ====
/-
  What the two regions leave in their output arrays: each (1, 1) output window has one block, the whole array, written
  back once, after the last grid point; so each output array ends holding the running total after the last point.
-/
import proofs.«408175_j43473658970670_4_alg».proof.Proof.KI.Data0
import proofs.«408175_j43473658970670_4_alg».proof.Proof.KI.Data1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last grid point of the edge kernel. -/
def tl1 : Fin grid1.N := ⟨159, by rw [N_1]; decide⟩

/-- The one write-back of output window 2, at the last point, writes the running total: its one block is the whole (1, 1) array. -/
theorem flushed0_2 (c : Dev nD) (t : Fin cfg0.N) (hf : (cfg0.win 2).flush t = true) :
    (dat0 V c).flushed 2 t = ((cfg0.win 2).blk t).view.read (Elt F) (acc0_2 V c 15 (by rw [show cfg0.N = 16 from N_0]; decide)) := by
  have hN : cfg0.N = 16 := N_0
  have hl : t.val = 15 := by have := (flush0_2 t).mp hf; have := t.isLt; omega
  obtain rfl : t = t0_15 := Fin.ext hl
  show (cfg0.win 2).cut (grid0.coords t0_15) ((dat0 V c).after 2 t0_15) = _
  rw [after0_2]
  have hzero : (fun a => win0_2.index t0_15 a * main_v6_0.ty.shape.size a) = fun _ => 0 := funext fun a => by
    fin_cases a <;> decide
  exact (Memref.read_access_unit_zero (Elt F) main_v6_0 hzero (fun a => by rw [congrFun hzero a]; simp) _).symm

/-- So that array ends holding the running total after the last point. -/
theorem final0_2 (c : Dev nD) :
    (dat0 V c).arrAt 2 cfg0.N = acc0_2 V c 15 (by rw [show cfg0.N = 16 from N_0]; decide) :=
  (dat0 V c).arrAt_eq_of_cover 2 _ (flushed0_2 V c) fun i =>
    ⟨t0_15, (flush0_2 t0_15).mpr rfl, by
      show i ∈ ((View.whole main_v6_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega⟩

/-- The one write-back of output window 3, at the last point, writes the running total: its one block is the whole (1, 1) array. -/
theorem flushed0_3 (c : Dev nD) (t : Fin cfg0.N) (hf : (cfg0.win 3).flush t = true) :
    (dat0 V c).flushed 3 t = ((cfg0.win 3).blk t).view.read (Elt F) (acc0_3 V c 15 (by rw [show cfg0.N = 16 from N_0]; decide)) := by
  have hN : cfg0.N = 16 := N_0
  have hl : t.val = 15 := by have := (flush0_3 t).mp hf; have := t.isLt; omega
  obtain rfl : t = t0_15 := Fin.ext hl
  show (cfg0.win 3).cut (grid0.coords t0_15) ((dat0 V c).after 3 t0_15) = _
  rw [after0_3]
  have hzero : (fun a => win0_3.index t0_15 a * main_v6_1.ty.shape.size a) = fun _ => 0 := funext fun a => by
    fin_cases a <;> decide
  exact (Memref.read_access_unit_zero (Elt F) main_v6_1 hzero (fun a => by rw [congrFun hzero a]; simp) _).symm

/-- So that array ends holding the running total after the last point. -/
theorem final0_3 (c : Dev nD) :
    (dat0 V c).arrAt 3 cfg0.N = acc0_3 V c 15 (by rw [show cfg0.N = 16 from N_0]; decide) :=
  (dat0 V c).arrAt_eq_of_cover 3 _ (flushed0_3 V c) fun i =>
    ⟨t0_15, (flush0_3 t0_15).mpr rfl, by
      show i ∈ ((View.whole main_v6_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 0 from by decide +kernel, show win0_3.xsize (grid0.coords t0_15) 0 = 1 from by decide +kernel]; omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]; omega⟩

/-- The one write-back of output window 4, at the last point, writes the running total: its one block is the whole (1, 1) array. -/
theorem flushed0_4 (c : Dev nD) (t : Fin cfg0.N) (hf : (cfg0.win 4).flush t = true) :
    (dat0 V c).flushed 4 t = ((cfg0.win 4).blk t).view.read (Elt F) (acc0_4 V c 15 (by rw [show cfg0.N = 16 from N_0]; decide)) := by
  have hN : cfg0.N = 16 := N_0
  have hl : t.val = 15 := by have := (flush0_4 t).mp hf; have := t.isLt; omega
  obtain rfl : t = t0_15 := Fin.ext hl
  show (cfg0.win 4).cut (grid0.coords t0_15) ((dat0 V c).after 4 t0_15) = _
  rw [after0_4]
  have hzero : (fun a => win0_4.index t0_15 a * main_v6_2.ty.shape.size a) = fun _ => 0 := funext fun a => by
    fin_cases a <;> decide
  exact (Memref.read_access_unit_zero (Elt F) main_v6_2 hzero (fun a => by rw [congrFun hzero a]; simp) _).symm

/-- So that array ends holding the running total after the last point. -/
theorem final0_4 (c : Dev nD) :
    (dat0 V c).arrAt 4 cfg0.N = acc0_4 V c 15 (by rw [show cfg0.N = 16 from N_0]; decide) :=
  (dat0 V c).arrAt_eq_of_cover 4 _ (flushed0_4 V c) fun i =>
    ⟨t0_15, (flush0_4 t0_15).mpr rfl, by
      show i ∈ ((View.whole main_v6_2).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t0_15 0 * win0_4.size 0 ≤ (i 0 : Nat) ∧ (i 0 : Nat) < win0_4.index t0_15 0 * win0_4.size 0 + win0_4.xsize (grid0.coords t0_15) 0
        rw [show win0_4.index t0_15 0 * win0_4.size 0 = 0 from by decide +kernel, show win0_4.xsize (grid0.coords t0_15) 0 = 1 from by decide +kernel]; omega
      | ⟨1, _⟩ =>
        show win0_4.index t0_15 1 * win0_4.size 1 ≤ (i 1 : Nat) ∧ (i 1 : Nat) < win0_4.index t0_15 1 * win0_4.size 1 + win0_4.xsize (grid0.coords t0_15) 1
        rw [show win0_4.index t0_15 1 * win0_4.size 1 = 0 from by decide +kernel, show win0_4.xsize (grid0.coords t0_15) 1 = 1 from by decide +kernel]; omega⟩

/-- The one write-back of output window 4, at the last point, writes the running total: its one block is the whole (1, 1) array. -/
theorem flushed1_4 (c : Dev nD) (t : Fin cfg1.N) (hf : (cfg1.win 4).flush t = true) :
    (dat1 V c).flushed 4 t = ((cfg1.win 4).blk t).view.read (Elt F) (acc1 V c 159 (by rw [show cfg1.N = 160 from N_1]; decide)) := by
  have hN : cfg1.N = 160 := N_1
  have hl : t.val = 159 := by have := (flush1_4 t).mp hf; have := t.isLt; omega
  obtain rfl : t = tl1 := Fin.ext hl
  show (cfg1.win 4).cut (grid1.coords tl1) ((dat1 V c).after 4 tl1) = _
  rw [after1_4]
  have hzero : (fun a => win1_4.index tl1 a * main_v21.ty.shape.size a) = fun _ => 0 := funext fun a => by
    fin_cases a <;> decide
  exact (Memref.read_access_unit_zero (Elt F) main_v21 hzero (fun a => by rw [congrFun hzero a]; simp) _).symm

/-- So that array ends holding the running total after the last point. -/
theorem final1_4 (c : Dev nD) :
    (dat1 V c).arrAt 4 cfg1.N = acc1 V c 159 (by rw [show cfg1.N = 160 from N_1]; decide) :=
  (dat1 V c).arrAt_eq_of_cover 4 _ (flushed1_4 V c) fun i =>
    ⟨tl1, (flush1_4 tl1).mpr rfl, by
      show i ∈ ((View.whole main_v21).slice (win1_4.rect tl1)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index tl1 0 * win1_4.size 0 ≤ (i 0 : Nat) ∧ (i 0 : Nat) < win1_4.index tl1 0 * win1_4.size 0 + win1_4.xsize (grid1.coords tl1) 0
        rw [show win1_4.index tl1 0 * win1_4.size 0 = 0 from by decide +kernel, show win1_4.xsize (grid1.coords tl1) 0 = 1 from by decide +kernel]; omega
      | ⟨1, _⟩ =>
        show win1_4.index tl1 1 * win1_4.size 1 ≤ (i 1 : Nat) ∧ (i 1 : Nat) < win1_4.index tl1 1 * win1_4.size 1 + win1_4.xsize (grid1.coords tl1) 1
        rw [show win1_4.index tl1 1 * win1_4.size 1 = 0 from by decide +kernel, show win1_4.xsize (grid1.coords tl1) 1 = 1 from by decide +kernel]; omega⟩

end Cert.KernelIdeal.Hand

end
-- ==== Proof.KV.Blocks.lean ====
/-
  Which elements of the regions' input arrays a grid point's blocks hold: the first kernel's point t holds batch element
  t, all of its times, features and nodes; the edge kernel's point t holds rows 2000 t to 2000 t + 1999, all columns.
-/
import proofs.«408175_j43473658970670_4_alg».proof.Proof.KI.Data0
import proofs.«408175_j43473658970670_4_alg».proof.Proof.KI.Data1
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grids: the block index is the grid point on the leading axis, zero elsewhere. -/
theorem idx0_0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx0_1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = t.val ∧ win1_3.index t 1 = 0 :=
  (by decide +kernel : ∀ t : Fin grid1.N, win1_3.index t 0 = t.val ∧ win1_3.index t 1 = 0)

/-- Grid point t of the first kernel reads batch element t of window 0's array. -/
theorem iblk0_0_apply (c : Dev nD) (t : Fin cfg0.N) (z : Fin 1) (tt : Fin 12) (d : Fin 2) (n : Fin 10000) :
    (iblk0 V c 0 t : Vec F S1x12x2x10000 .f32) (ix4 z tt d n)
      = (V c main_v4 : S16x12x2x10000.Idx → Elt F .f32) (ix4 ⟨t.val, lt_of_lt_of_eq t.isLt N_0⟩ tt d n) := by
  have hi := idx0_0 t
  unfold iblk0
  rw [View.read_apply]
  show V c main_v4 _ = V c main_v4 _
  congr 1
  funext a
  apply Fin.ext
  have hz : z.val = 0 := by omega
  match a with
  | ⟨0, _⟩ => show win0_0.index t 0 * 1 + 1 * z.val = t.val; rw [hi.1]; omega
  | ⟨1, _⟩ => show win0_0.index t 1 * 12 + 1 * tt.val = tt.val; rw [hi.2.1]; omega
  | ⟨2, _⟩ => show win0_0.index t 2 * 2 + 1 * d.val = d.val; rw [hi.2.2.1]; omega
  | ⟨3, _⟩ => show win0_0.index t 3 * 10000 + 1 * n.val = n.val; rw [hi.2.2.2]; omega

/-- Grid point t of the first kernel reads batch element t of window 1's array. -/
theorem iblk0_1_apply (c : Dev nD) (t : Fin cfg0.N) (z : Fin 1) (tt : Fin 12) (d : Fin 2) (n : Fin 10000) :
    (iblk0 V c 1 t : Vec F S1x12x2x10000 .f32) (ix4 z tt d n)
      = (V c main_v5 : S16x12x2x10000.Idx → Elt F .f32) (ix4 ⟨t.val, lt_of_lt_of_eq t.isLt N_0⟩ tt d n) := by
  have hi := idx0_1 t
  unfold iblk0
  rw [View.read_apply]
  show V c main_v5 _ = V c main_v5 _
  congr 1
  funext a
  apply Fin.ext
  have hz : z.val = 0 := by omega
  match a with
  | ⟨0, _⟩ => show win0_1.index t 0 * 1 + 1 * z.val = t.val; rw [hi.1]; omega
  | ⟨1, _⟩ => show win0_1.index t 1 * 12 + 1 * tt.val = tt.val; rw [hi.2.1]; omega
  | ⟨2, _⟩ => show win0_1.index t 2 * 2 + 1 * d.val = d.val; rw [hi.2.2.1]; omega
  | ⟨3, _⟩ => show win0_1.index t 3 * 10000 + 1 * n.val = n.val; rw [hi.2.2.2]; omega

/-- Grid point t of the edge kernel reads rows 2000 t .. 2000 t + 1999 of window 0's array. -/
theorem iblk1_0_apply (c : Dev nD) (t : Fin cfg1.N) (r : Fin 2000) (cc : Fin 384) :
    (iblk1 V c 0 t : Vec F S2000x384 .f32) (ix2 r cc)
      = (V c main_v17 : S320000x384.Idx → Elt F .f32) (ix2 ⟨t.val * 2000 + r.val, by have := lt_of_lt_of_eq t.isLt N_1; omega⟩ cc) := by
  have hi := idx1_0 t
  unfold iblk1
  rw [View.read_apply]
  show V c main_v17 _ = V c main_v17 _
  congr 1
  funext a
  apply Fin.ext
  match a with
  | ⟨0, _⟩ => show win1_0.index t 0 * 2000 + 1 * r.val = t.val * 2000 + r.val; rw [hi.1]; omega
  | ⟨1, _⟩ => show win1_0.index t 1 * 384 + 1 * cc.val = cc.val; rw [hi.2]; omega

/-- Grid point t of the edge kernel reads rows 2000 t .. 2000 t + 1999 of window 1's array. -/
theorem iblk1_1_apply (c : Dev nD) (t : Fin cfg1.N) (r : Fin 2000) (cc : Fin 384) :
    (iblk1 V c 1 t : Vec F S2000x384 .f32) (ix2 r cc)
      = (V c main_v18 : S320000x384.Idx → Elt F .f32) (ix2 ⟨t.val * 2000 + r.val, by have := lt_of_lt_of_eq t.isLt N_1; omega⟩ cc) := by
  have hi := idx1_1 t
  unfold iblk1
  rw [View.read_apply]
  show V c main_v18 _ = V c main_v18 _
  congr 1
  funext a
  apply Fin.ext
  match a with
  | ⟨0, _⟩ => show win1_1.index t 0 * 2000 + 1 * r.val = t.val * 2000 + r.val; rw [hi.1]; omega
  | ⟨1, _⟩ => show win1_1.index t 1 * 384 + 1 * cc.val = cc.val; rw [hi.2]; omega

/-- Grid point t of the edge kernel reads rows 2000 t .. 2000 t + 1999 of window 2's array. -/
theorem iblk1_2_apply (c : Dev nD) (t : Fin cfg1.N) (r : Fin 2000) (cc : Fin 384) :
    (iblk1 V c 2 t : Vec F S2000x384 .f32) (ix2 r cc)
      = (V c main_v19 : S320000x384.Idx → Elt F .f32) (ix2 ⟨t.val * 2000 + r.val, by have := lt_of_lt_of_eq t.isLt N_1; omega⟩ cc) := by
  have hi := idx1_2 t
  unfold iblk1
  rw [View.read_apply]
  show V c main_v19 _ = V c main_v19 _
  congr 1
  funext a
  apply Fin.ext
  match a with
  | ⟨0, _⟩ => show win1_2.index t 0 * 2000 + 1 * r.val = t.val * 2000 + r.val; rw [hi.1]; omega
  | ⟨1, _⟩ => show win1_2.index t 1 * 384 + 1 * cc.val = cc.val; rw [hi.2]; omega

/-- Grid point t of the edge kernel reads rows 2000 t .. 2000 t + 1999 of window 3's array. -/
theorem iblk1_3_apply (c : Dev nD) (t : Fin cfg1.N) (r : Fin 2000) (cc : Fin 384) :
    (iblk1 V c 3 t : Vec F S2000x384 .f32) (ix2 r cc)
      = (V c main_v20 : S320000x384.Idx → Elt F .f32) (ix2 ⟨t.val * 2000 + r.val, by have := lt_of_lt_of_eq t.isLt N_1; omega⟩ cc) := by
  have hi := idx1_3 t
  unfold iblk1
  rw [View.read_apply]
  show V c main_v20 _ = V c main_v20 _
  congr 1
  funext a
  apply Fin.ext
  match a with
  | ⟨0, _⟩ => show win1_3.index t 0 * 2000 + 1 * r.val = t.val * 2000 + r.val; rw [hi.1]; omega
  | ⟨1, _⟩ => show win1_3.index t 1 * 384 + 1 * cc.val = cc.val; rw [hi.2]; omega

end Cert.KernelIdeal.Hand

end
-- ==== Proof.Spec.lean ====
/-
  What the loss is, as extended-real sums over the two (16, 12, 10000, 2) arrays P (predictions) and Q (targets) and the
  two maps that send an edge to its source and destination node:
    * the absolute error summed over every entry;
    * the squared second difference (first difference in time of P minus that of Q) summed over the 11 time steps;
    * the squared difference of the node sums of P and Q, summed over batch, time and feature;
    * the squared difference of |P(src) - P(dst)| and |Q(src) - Q(dst)| summed over batch, time, edge and feature.
  Each is a plain finite sum, so any regrouping or reordering of it is the same extended real.
-/
import Idealize.ShloMosaic.PureOps
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

/-- A (16, 12, 10000, 2) array of extended reals. -/
abbrev Arr4 : Type := (⟨4, ![16, 12, 10000, 2]⟩ : Shape).Idx → EReal

/-- Absolute value on the extended reals, as the larger of a number and its negative. -/
def absE (x : EReal) : EReal := max x (-x)

/-- Time step t + 1 of 12, for t one of the first 11. -/
def tsucc (t : Fin 11) : Fin 12 := ⟨t.val + 1, by omega⟩
/-- Time step t of 12, for t one of the first 11. -/
def tcast (t : Fin 11) : Fin 12 := ⟨t.val, by omega⟩

def mainSum (P Q : Arr4) : EReal :=
  ∑ b : Fin 16, ∑ t : Fin 12, ∑ n : Fin 10000, ∑ d : Fin 2, absE (P (ix4 b t n d) - Q (ix4 b t n d))

def tempSum (P Q : Arr4) : EReal :=
  ∑ b : Fin 16, ∑ t : Fin 11, ∑ n : Fin 10000, ∑ d : Fin 2,
    ((P (ix4 b (tsucc t) n d) - P (ix4 b (tcast t) n d)) - (Q (ix4 b (tsucc t) n d) - Q (ix4 b (tcast t) n d)))
      * ((P (ix4 b (tsucc t) n d) - P (ix4 b (tcast t) n d)) - (Q (ix4 b (tsucc t) n d) - Q (ix4 b (tcast t) n d)))

def consSum (P Q : Arr4) : EReal :=
  ∑ b : Fin 16, ∑ t : Fin 12, ∑ d : Fin 2,
    ((∑ n : Fin 10000, P (ix4 b t n d)) - (∑ n : Fin 10000, Q (ix4 b t n d)))
      * ((∑ n : Fin 10000, P (ix4 b t n d)) - (∑ n : Fin 10000, Q (ix4 b t n d)))

def spatSum (P Q : Arr4) (src dst : Fin 320000 → Fin 10000) : EReal :=
  ∑ b : Fin 16, ∑ t : Fin 12, ∑ e : Fin 320000, ∑ d : Fin 2,
    (absE (P (ix4 b t (src e) d) - P (ix4 b t (dst e) d)) - absE (Q (ix4 b t (src e) d) - Q (ix4 b t (dst e) d)))
      * (absE (P (ix4 b t (src e) d) - P (ix4 b t (dst e) d)) - absE (Q (ix4 b t (src e) d) - Q (ix4 b t (dst e) d)))

/-- A node index as NumPy reads it: a negative one counts from the end of the 10000 nodes. -/
def wrap (x : BitVec 32) : BitVec 32 := Scalar.select (IntOp.cmpi .slt x 0#32) (IntOp.addi x 10000#32) x

/-- The row a gather reads for a start index: the wrapped index read as a signed integer, clamped into [0, 9999]. -/
def rowOf (x : BitVec 32) : Fin 10000 := ⟨min (wrap x).toInt.toNat 9999, by omega⟩

/-- Edge e's source node (row 0 of the (2, 320000) edge list) and destination node (row 1). -/
def srcOf (idx : (⟨2, ![2, 320000]⟩ : Shape).Idx → BitVec 32) (e : Fin 320000) : Fin 10000 := rowOf (idx (ix2 0 e))
def dstOf (idx : (⟨2, ![2, 320000]⟩ : Shape).Idx → BitVec 32) (e : Fin 320000) : Fin 10000 := rowOf (idx (ix2 1 e))

end Cert.Spec

end
-- ==== Proof.KV.Payload.lean ====
/-
  The two kernel bodies' arithmetic at the ideal instance, element (0, 0) of each (1, 1) result, as plain finite sums
  over the coordinates of the input blocks: the lane and sublane reductions are sums over one axis each, the reshapes
  between them move no element, and adding into the output buffer is adding to its element.
-/
import proofs.«408175_j43473658970670_4_alg».proof.Proof.Gen.KernelIdeal.Skeleton
import proofs.«408175_j43473658970670_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

/-! ## Reshapes that only add a trailing unit axis move no element -/

section Layout
variable {α : Type}

/-- A vector of `a` entries viewed as a column `[a, 1]` reads, at `(p, q)`, the vector at `p`. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An `[a, b, c]` array viewed as `[a, b, c, 1]` reads, at `(i, j, k, q)`, the array at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (q : Fin 1) :
    shapeCast ⟨4, ![a, b, c, 1]⟩ x h (ix4 i j k q) = x (ix3 i j k) :=
  shapeCast_apply x h _ _ (by
    have hq : q.val = 0 := by omega
    rw [Shape.rowMajor_val_four, Shape.rowMajor_val_three]
    show (i.val * b + j.val) * c + k.val = ((i.val * b + j.val) * c + k.val) * 1 + q.val
    rw [hq, Nat.mul_one, Nat.add_zero])

end Layout

/-! ## A reduction over one axis is the sum over that axis's coordinate -/

section Sums
variable {φ : FTy}

/-- Rank 2, over the rows: the column's sum. -/
theorem sum2_axis0 {n0 n1 : ℕ} (v : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (q : Fin n1) :
    multiReduction (F := Ideal) .add [0] ⟨1, ![n1]⟩ v acc h hφ hacc (ix1 q) = ∑ k : Fin n0, v (ix2 k q) := by
  refine (Ideal.multiReduction_add_single v acc h hφ hacc _).trans (Finset.sum_congr rfl fun k _ => ?_)
  exact congrArg v (funext fun b => Fin.ext (by match b with | ⟨0, _⟩ => rfl | ⟨1, _⟩ => rfl))

/-- Rank 2, over the columns: the row's sum. -/
theorem sum2_axis1 {n0 n1 : ℕ} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (p : Fin n0) :
    multiReduction (F := Ideal) .add [1] ⟨1, ![n0]⟩ v acc h hφ hacc (ix1 p) = ∑ k : Fin n1, v (ix2 p k) := by
  refine (Ideal.multiReduction_add_single v acc h hφ hacc _).trans (Finset.sum_congr rfl fun k _ => ?_)
  exact congrArg v (funext fun b => Fin.ext (by match b with | ⟨0, _⟩ => rfl | ⟨1, _⟩ => rfl))

/-- Rank 3, over the leading axis. -/
theorem sum3_axis0 {n0 n1 n2 : ℕ} (v : FVec Ideal ⟨3, ![n0, n1, n2]⟩ φ) (acc : BitVec φ.bits)
    (h : (⟨3, ![n0, n1, n2]⟩ : Shape).Reduces [0] ⟨2, ![n1, n2]⟩) (hφ : FKind.Formats φ)
    (hacc : acc = FKind.add.neutral φ hφ) (p : Fin n1) (q : Fin n2) :
    multiReduction (F := Ideal) .add [0] ⟨2, ![n1, n2]⟩ v acc h hφ hacc (ix2 p q) = ∑ k : Fin n0, v (ix3 k p q) := by
  refine (Ideal.multiReduction_add_single v acc h hφ hacc _).trans (Finset.sum_congr rfl fun k _ => ?_)
  exact congrArg v (funext fun b => Fin.ext (by match b with | ⟨0, _⟩ => rfl | ⟨1, _⟩ => rfl | ⟨2, _⟩ => rfl))

/-- Rank 4, over axis 1. -/
theorem sum4_axis1 {n0 n1 n2 n3 : ℕ} (v : FVec Ideal ⟨4, ![n0, n1, n2, n3]⟩ φ) (acc : BitVec φ.bits)
    (h : (⟨4, ![n0, n1, n2, n3]⟩ : Shape).Reduces [1] ⟨3, ![n0, n2, n3]⟩) (hφ : FKind.Formats φ)
    (hacc : acc = FKind.add.neutral φ hφ) (a : Fin n0) (c : Fin n2) (e : Fin n3) :
    multiReduction (F := Ideal) .add [1] ⟨3, ![n0, n2, n3]⟩ v acc h hφ hacc (ix3 a c e) = ∑ k : Fin n1, v (ix4 a k c e) := by
  refine (Ideal.multiReduction_add_single v acc h hφ hacc _).trans (Finset.sum_congr rfl fun k _ => ?_)
  exact congrArg v (funext fun b => Fin.ext (by
    match b with | ⟨0, _⟩ => rfl | ⟨1, _⟩ => rfl | ⟨2, _⟩ => rfl | ⟨3, _⟩ => rfl))

/-- Rank 4, over the last axis. -/
theorem sum4_axis3 {n0 n1 n2 n3 : ℕ} (v : FVec Ideal ⟨4, ![n0, n1, n2, n3]⟩ φ) (acc : BitVec φ.bits)
    (h : (⟨4, ![n0, n1, n2, n3]⟩ : Shape).Reduces [3] ⟨3, ![n0, n1, n2]⟩) (hφ : FKind.Formats φ)
    (hacc : acc = FKind.add.neutral φ hφ) (a : Fin n0) (b : Fin n1) (c : Fin n2) :
    multiReduction (F := Ideal) .add [3] ⟨3, ![n0, n1, n2]⟩ v acc h hφ hacc (ix3 a b c) = ∑ k : Fin n3, v (ix4 a b c k) := by
  refine (Ideal.multiReduction_add_single v acc h hφ hacc _).trans (Finset.sum_congr rfl fun k _ => ?_)
  exact congrArg v (funext fun e => Fin.ext (by
    match e with | ⟨0, _⟩ => rfl | ⟨1, _⟩ => rfl | ⟨2, _⟩ => rfl | ⟨3, _⟩ => rfl))

end Sums

variable (x0 x1 : Vec Ideal S1x12x2x10000 .f32) (y : Vec Ideal S1x1 .f32)

/-- The zero the output buffers are reset to. -/
theorem pay4_apply : k0_pay4 (F := Ideal) (ix2 0 0) = 0 := by
  unfold k0_pay4
  simp only [broadcast_apply, Ideal.ofBits_def, Ideal.ofBits_zero_f32]
theorem pay5_apply : k0_pay5 (F := Ideal) (ix2 0 0) = 0 := by
  unfold k0_pay5
  simp only [broadcast_apply, Ideal.ofBits_def, Ideal.ofBits_zero_f32]
theorem pay6_apply : k0_pay6 (F := Ideal) (ix2 0 0) = 0 := by
  unfold k0_pay6
  simp only [broadcast_apply, Ideal.ofBits_def, Ideal.ofBits_zero_f32]
theorem k1_pay1_apply : k1_pay1 (F := Ideal) (ix2 0 0) = 0 := by
  unfold k1_pay1
  simp only [broadcast_apply, Ideal.ofBits_def, Ideal.ofBits_zero_f32]

/-- Adding a block sum into the buffer. -/
theorem pay1_apply (v : FVec Ideal S1x1 .f32) : k0_pay1 (F := Ideal) v y (ix2 0 0) = y (ix2 0 0) + v (ix2 0 0) := by
  unfold k0_pay1
  exact congrArg (fun w : Ideal .f32 => w + v (ix2 0 0)) (congrFun (shapeCast_self y shapeCasts_S1x1_S1x1) (ix2 0 0))
theorem pay2_apply (v : FVec Ideal S1x1 .f32) : k0_pay2 (F := Ideal) v y (ix2 0 0) = y (ix2 0 0) + v (ix2 0 0) := by
  unfold k0_pay2
  exact congrArg (fun w : Ideal .f32 => w + v (ix2 0 0)) (congrFun (shapeCast_self y shapeCasts_S1x1_S1x1) (ix2 0 0))

/-- The block's absolute errors: summed over time, the one-point batch axis, the nodes, the features (in the kernel's order). -/
theorem pay9_apply : k0_pay9 (F := Ideal) x0 x1 (ix2 0 0)
    = ∑ d : Fin 2, ∑ n : Fin 10000, ∑ z : Fin 1, ∑ t : Fin 12, absE (x0 (ix4 z t d n) - x1 (ix4 z t d n)) := by
  unfold k0_pay9 k0_pay7 k0_pay8
  -- the (1, 1) view of the one-entry vector
  refine (shapeCast_a_a1_apply _ _ (0 : Fin 1) (0 : Fin 1)).trans ?_
  -- over the two features
  refine (sum2_axis0 _ _ _ _ _ _).trans (Finset.sum_congr rfl fun d _ => ?_)
  refine (shapeCast_a_a1_apply _ _ d (0 : Fin 1)).trans ?_
  -- over the nodes
  refine (sum2_axis1 _ _ _ _ _ _).trans (Finset.sum_congr rfl fun n _ => ?_)
  -- over the one-point batch axis
  refine (sum3_axis0 _ _ _ _ _ _ _).trans (Finset.sum_congr rfl fun z _ => ?_)
  -- over time
  refine (sum4_axis1 _ _ _ _ _ _ _ _).trans (Finset.sum_congr rfl fun t _ => ?_)
  simp only [shapeCast_self]
  rfl

/-- The block's squared second differences over the 11 time steps. -/
theorem pay10_apply : k0_pay10 (F := Ideal) x0 x1 (ix2 0 0)
    = ∑ d : Fin 2, ∑ n : Fin 10000, ∑ z : Fin 1, ∑ t : Fin 11,
        ((x0 (ix4 z (tsucc t) d n) - x0 (ix4 z (tcast t) d n)) - (x1 (ix4 z (tsucc t) d n) - x1 (ix4 z (tcast t) d n))) * ((x0 (ix4 z (tsucc t) d n) - x0 (ix4 z (tcast t) d n)) - (x1 (ix4 z (tsucc t) d n) - x1 (ix4 z (tcast t) d n))) := by
  unfold k0_pay10 k0_pay7 k0_pay8
  refine (shapeCast_a_a1_apply _ _ (0 : Fin 1) (0 : Fin 1)).trans ?_
  refine (sum2_axis0 _ _ _ _ _ _).trans (Finset.sum_congr rfl fun d _ => ?_)
  refine (shapeCast_a_a1_apply _ _ d (0 : Fin 1)).trans ?_
  refine (sum2_axis1 _ _ _ _ _ _).trans (Finset.sum_congr rfl fun n _ => ?_)
  refine (sum3_axis0 _ _ _ _ _ _ _).trans (Finset.sum_congr rfl fun z _ => ?_)
  refine (sum4_axis1 _ _ _ _ _ _ _ _).trans (Finset.sum_congr rfl fun t _ => ?_)
  -- the two time slices read steps t + 1 and t
  have hs : ∀ X : FVec Ideal S1x12x2x10000 .f32,
      extractStridedSlice S1x11x2x10000 ![0, 1, 0, 0] X slices_S1x12x2x10000_o0_1_0_0_S1x11x2x10000 (ix4 z t d n)
        = X (ix4 z (tsucc t) d n) :=
    fun X => slice4_axis1_apply 1 X _ z t d n (tsucc t) (Nat.add_comm t.val 1)
  have hc : ∀ X : FVec Ideal S1x12x2x10000 .f32,
      extractStridedSlice S1x11x2x10000 ![0, 0, 0, 0] X slices_S1x12x2x10000_o0_0_0_0_S1x11x2x10000 (ix4 z t d n)
        = X (ix4 z (tcast t) d n) :=
    fun X => slice4_axis1_apply 0 X _ z t d n (tcast t) (Nat.zero_add t.val).symm
  simp only [shapeCast_self, mulf_apply, subf_apply, hs, hc]

/-- The squared node-sum differences of a block, summed over time, at batch point z, feature d. -/
theorem pay11_apply (z : Fin 1) (d : Fin 2) (k : Fin 1) : k0_pay11 (F := Ideal) x0 x1 (ix3 z d k)
    = ∑ t : Fin 12, ((∑ n : Fin 10000, x0 (ix4 z t d n)) - (∑ n : Fin 10000, x1 (ix4 z t d n)))
        * ((∑ n : Fin 10000, x0 (ix4 z t d n)) - (∑ n : Fin 10000, x1 (ix4 z t d n))) := by
  unfold k0_pay11 k0_pay7 k0_pay8
  refine (sum4_axis1 _ _ _ _ _ _ _ _).trans (Finset.sum_congr rfl fun t _ => ?_)
  -- the node sum of one array, kept as a trailing unit axis
  have hn : ∀ X : FVec Ideal S1x12x2x10000 .f32,
      shapeCast S1x12x2x1 (multiReduction (F := Ideal) .add [3] S1x12x2
          (shapeCast S1x12x2x10000 X shapeCasts_S1x12x2x10000_S1x12x2x10000) 0x00000000#32
          reduces_S1x12x2x10000_S1x12x2 (.inl rfl) rfl) shapeCasts_S1x12x2_S1x12x2x1 (ix4 z t d k)
        = ∑ n : Fin 10000, X (ix4 z t d n) := fun X => by
    refine (shapeCast_abc_abc1_apply _ _ z t d k).trans ?_
    refine (sum4_axis3 _ _ _ _ _ _ _ _).trans ?_
    rw [shapeCast_self]
  simp only [mulf_apply, subf_apply, hn]

/-- The block's squared node-sum differences, added into the buffer. -/
theorem pay3_apply : k0_pay3 (F := Ideal) (k0_pay11 (F := Ideal) x0 x1) y (ix2 0 0)
    = y (ix2 0 0) + ∑ d : Fin 2, ∑ k : Fin 1, ∑ z : Fin 1, ∑ t : Fin 12,
        ((∑ n : Fin 10000, x0 (ix4 z t d n)) - (∑ n : Fin 10000, x1 (ix4 z t d n))) * ((∑ n : Fin 10000, x0 (ix4 z t d n)) - (∑ n : Fin 10000, x1 (ix4 z t d n))) := by
  unfold k0_pay3
  refine (addf_apply _ _ _).trans ?_
  rw [shapeCast_self]
  refine congrArg (y (ix2 0 0) + ·) ?_
  refine (shapeCast_a_a1_apply _ _ (0 : Fin 1) (0 : Fin 1)).trans ?_
  -- over the two features
  refine (sum2_axis0 _ _ _ _ _ _).trans (Finset.sum_congr rfl fun d _ => ?_)
  refine (shapeCast_a_a1_apply _ _ d (0 : Fin 1)).trans ?_
  -- over the unit axis the node sums were kept on
  refine (sum2_axis1 _ _ _ _ _ _).trans (Finset.sum_congr rfl fun k _ => ?_)
  -- over the one-point batch axis
  refine (sum3_axis0 _ _ _ _ _ _ _).trans (Finset.sum_congr rfl fun z _ => ?_)
  exact pay11_apply x0 x1 z d k

/-- The edge block's sum of squares, added into the buffer. -/
theorem k1_pay2_apply (a0 a1 a2 a3 : Vec Ideal S2000x384 .f32) : k1_pay2 (F := Ideal) a0 a1 a2 a3 y (ix2 0 0)
    = y (ix2 0 0) + ∑ r : Fin 2000, ∑ cc : Fin 384,
        (absE (a0 (ix2 r cc) - a1 (ix2 r cc)) - absE (a2 (ix2 r cc) - a3 (ix2 r cc))) * (absE (a0 (ix2 r cc) - a1 (ix2 r cc)) - absE (a2 (ix2 r cc) - a3 (ix2 r cc))) := by
  unfold k1_pay2
  refine (addf_apply _ _ _).trans ?_
  rw [shapeCast_self]
  refine congrArg (y (ix2 0 0) + ·) ?_
  -- the (1, 1) view of the one-entry vector of column sums
  refine (shapeCast_a_a1_apply _ _ (0 : Fin 1) (0 : Fin 1)).trans ?_
  -- the sum over the 2000 rows of the column of row sums
  refine (sum2_axis0 _ _ _ _ _ _).trans (Finset.sum_congr rfl fun r _ => ?_)
  refine (shapeCast_a_a1_apply _ _ r (0 : Fin 1)).trans ?_
  -- each row sum runs over the 384 columns
  refine (sum2_axis1 _ _ _ _ _ _).trans (Finset.sum_congr rfl fun cc _ => ?_)
  simp only [shapeCast_self]
  rfl

end Cert.KernelIdeal.Val

end
-- ==== Proof.Math.lean ====
/-
  Regroupings of finite sums in a commutative monoid: a sum over the index tuples of a 3- or 4-axis array as an iterated
  sum over its coordinates; iterated sums with their axes taken in another order, a one-point axis dropped; and a sum over
  160 blocks of 2000 rows and 384 columns re-read as a sum over (16, 12) x 320000 rows x 2, the column being
  24 b + 2 t + d.
-/
import Idealize.ShloMosaic.Lib.ValueIdx
import Mathlib.Algebra.BigOperators.Group.Finset.Basic
import Mathlib.Algebra.BigOperators.Fin
import Mathlib.Logic.Equiv.Fin.Basic

noncomputable section

namespace Cert.Math

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun j := (j 0, j 1, j 2, j 3)
  invFun p := ix4 p.1 p.2.1 p.2.2.1 p.2.2.2
  left_inv j := (eq_ix4 j).symm
  right_inv _ := rfl

theorem sum_idx3 {n0 n1 n2 : Nat} (f : (⟨3, ![n0, n1, n2]⟩ : Shape).Idx → M) :
    ∑ j, f j = ∑ a : Fin n0, ∑ b : Fin n1, ∑ c : Fin n2, f (ix3 a b c) := by
  -- re-index along the inverse of the coordinate bijection, then split the product range twice
  rw [← Equiv.sum_comp (idxEquiv3 (n0 := n0) (n1 := n1) (n2 := n2)).symm f, Fintype.sum_prod_type]
  refine Finset.sum_congr rfl fun a _ => ?_
  rw [Fintype.sum_prod_type]
  rfl

theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

theorem sum_fin_one (f : Fin 1 → M) : ∑ z : Fin 1, f z = f 0 :=
  Fin.sum_univ_one f

/-- (feature, node, a one-point axis, time) summed in that order is (time, node, feature). -/
theorem reorder_dnzt {T N D : Nat} (g : Fin T → Fin N → Fin D → M) :
    (∑ d : Fin D, ∑ n : Fin N, ∑ _z : Fin 1, ∑ t : Fin T, g t n d) = ∑ t : Fin T, ∑ n : Fin N, ∑ d : Fin D, g t n d := by
  calc (∑ d : Fin D, ∑ n : Fin N, ∑ _z : Fin 1, ∑ t : Fin T, g t n d)
      = ∑ d : Fin D, ∑ n : Fin N, ∑ t : Fin T, g t n d := by
        -- the one-point axis contributes its single term
        refine Finset.sum_congr rfl fun d _ => Finset.sum_congr rfl fun n _ => ?_
        exact Fin.sum_univ_one _
    _ = ∑ d : Fin D, ∑ t : Fin T, ∑ n : Fin N, g t n d :=
        Finset.sum_congr rfl fun d _ => Finset.sum_comm
    _ = ∑ t : Fin T, ∑ d : Fin D, ∑ n : Fin N, g t n d := Finset.sum_comm
    _ = ∑ t : Fin T, ∑ n : Fin N, ∑ d : Fin D, g t n d :=
        Finset.sum_congr rfl fun t _ => Finset.sum_comm

/-- (feature, two one-point axes, time) summed in that order is (time, feature). -/
theorem reorder_dkzt {T D : Nat} (h : Fin T → Fin D → M) :
    (∑ d : Fin D, ∑ _k : Fin 1, ∑ _z : Fin 1, ∑ t : Fin T, h t d) = ∑ t : Fin T, ∑ d : Fin D, h t d := by
  calc (∑ d : Fin D, ∑ _k : Fin 1, ∑ _z : Fin 1, ∑ t : Fin T, h t d)
      = ∑ d : Fin D, ∑ t : Fin T, h t d := by
        refine Finset.sum_congr rfl fun d _ => ?_
        rw [Fin.sum_univ_one, Fin.sum_univ_one]
    _ = ∑ t : Fin T, ∑ d : Fin D, h t d := Finset.sum_comm

/-- Row a of m blocks of n rows, offset b, is below m * n. -/
theorem mul_add_lt {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- A sum over k = m * n points as a double sum, the point being a * n + b. -/
theorem sum_fin_mul {m n k : Nat} (hk : k = m * n) (f : Fin k → M) :
    ∑ e : Fin k, f e = ∑ a : Fin m, ∑ b : Fin n, f ⟨a.val * n + b.val, hk ▸ mul_add_lt a b⟩ := by
  subst hk
  rw [← Equiv.sum_comp finProdFinEquiv f, Fintype.sum_prod_type]
  refine Finset.sum_congr rfl fun a _ => Finset.sum_congr rfl fun b _ => ?_
  congr 1
  apply Fin.ext
  show b.val + n * a.val = a.val * n + b.val
  rw [Nat.mul_comm, Nat.add_comm]

/-- 160 blocks of 2000 rows by 384 columns, against (16, 12) x 320000 rows x 2 with column 24 b + 2 t + d. -/
theorem regroup_edges (h : Fin 320000 → Fin 384 → M) :
    (∑ g : Fin 160, ∑ r : Fin 2000, ∑ c : Fin 384, h ⟨g.val * 2000 + r.val, by omega⟩ c)
      = ∑ b : Fin 16, ∑ t : Fin 12, ∑ e : Fin 320000, ∑ d : Fin 2, h e ⟨b.val * 24 + t.val * 2 + d.val, by omega⟩ := by
  -- the rows: block g, offset r is row 2000 g + r
  have hL : (∑ g : Fin 160, ∑ r : Fin 2000, ∑ c : Fin 384, h ⟨g.val * 2000 + r.val, by omega⟩ c)
      = ∑ e : Fin 320000, ∑ c : Fin 384, h e c :=
    (sum_fin_mul (m := 160) (n := 2000) (k := 320000) (by norm_num) (fun e => ∑ c : Fin 384, h e c)).symm
  -- the columns: 384 = 16 * 24 and 24 = 12 * 2
  have hC : ∀ F : Fin 384 → M, ∑ c : Fin 384, F c
      = ∑ b : Fin 16, ∑ t : Fin 12, ∑ d : Fin 2, F ⟨b.val * 24 + t.val * 2 + d.val, by omega⟩ := by
    intro F
    rw [sum_fin_mul (m := 16) (n := 24) (k := 384) (by norm_num) F]
    refine Finset.sum_congr rfl fun b _ => ?_
    rw [sum_fin_mul (m := 12) (n := 2) (k := 24) (by norm_num) (fun u : Fin 24 => F ⟨b.val * 24 + u.val, by omega⟩)]
    refine Finset.sum_congr rfl fun t _ => Finset.sum_congr rfl fun d _ => ?_
    congr 1
    apply Fin.ext
    show b.val * 24 + (t.val * 2 + d.val) = b.val * 24 + t.val * 2 + d.val
    rw [Nat.add_assoc]
  rw [hL]
  calc (∑ e : Fin 320000, ∑ c : Fin 384, h e c)
      = ∑ e : Fin 320000, ∑ b : Fin 16, ∑ t : Fin 12, ∑ d : Fin 2, h e ⟨b.val * 24 + t.val * 2 + d.val, by omega⟩ :=
        Finset.sum_congr rfl fun e _ => hC (h e)
    _ = ∑ b : Fin 16, ∑ e : Fin 320000, ∑ t : Fin 12, ∑ d : Fin 2, h e ⟨b.val * 24 + t.val * 2 + d.val, by omega⟩ :=
        Finset.sum_comm
    _ = ∑ b : Fin 16, ∑ t : Fin 12, ∑ e : Fin 320000, ∑ d : Fin 2, h e ⟨b.val * 24 + t.val * 2 + d.val, by omega⟩ :=
        Finset.sum_congr rfl fun b _ => Finset.sum_comm

/-- A running total that starts at z + s 0 and adds s (k + 1) at step k + 1 is, after step n, z plus the first n + 1 terms. -/
theorem running_total (z : M) (s : ℕ → M) (acc : ℕ → M) (h0 : acc 0 = z + s 0) (hs : ∀ k, acc (k + 1) = acc k + s (k + 1)) (n : ℕ) :
    acc n = z + ∑ k ∈ Finset.range (n + 1), s k := by
  induction n with
  | zero => rw [h0, Nat.zero_add, Finset.sum_range_one]
  | succ n ih => rw [hs, ih, Finset.sum_range_succ _ (n + 1), add_assoc]

end Cert.Math

end
-- ==== Proof.KV.Sums.lean ====
/-
  The four sums the two kernel regions leave, at the ideal instance, are the loss's four sums. A running total that starts
  at zero and adds one block sum per grid point ends at the sum over the grid points; a block sum is the payload's
  iterated sum over the block's coordinates; a block's element is an element of the region's input array, which the host
  lines before the region wrote from the arguments; and the iterated sums, reordered, are the sums of the specification.
-/
import proofs.«408175_j43473658970670_4_alg».proof.Proof.KI.Data0
import proofs.«408175_j43473658970670_4_alg».proof.Proof.KI.Data1
import proofs.«408175_j43473658970670_4_alg».proof.Proof.KV.Blocks
import proofs.«408175_j43473658970670_4_alg».proof.Proof.KV.Payload
import proofs.«408175_j43473658970670_4_alg».proof.Proof.Math
import proofs.«408175_j43473658970670_4_alg».proof.Proof.Spec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

open Cert.KernelIdeal.Hand

/-- A running total from zero: after step n it is the sum of the first n + 1 terms. -/
theorem total_of_steps {N : ℕ} (acc : (n : ℕ) → n < N → EReal) (s : Fin N → EReal) (hN : 0 < N)
    (h0 : acc 0 hN = 0 + s ⟨0, hN⟩)
    (hs : ∀ n (h : n + 1 < N), acc (n + 1) h = acc n (Nat.lt_of_succ_lt h) + s ⟨n + 1, h⟩) :
    ∀ n (h : n < N), acc n h = ∑ k : Fin (n + 1), s ⟨k.val, lt_of_lt_of_le k.isLt h⟩ := by
  intro n
  induction n with
  | zero =>
    intro h
    rw [h0, zero_add, Fin.sum_univ_one]
    rfl
  | succ n ih =>
    intro h
    rw [hs n h, ih (Nat.lt_of_succ_lt h)]
    exact (Fin.sum_univ_castSucc (fun k : Fin (n + 1 + 1) => s ⟨k.val, lt_of_lt_of_le k.isLt h⟩)).symm

variable (V : (c : Dev nD) → (b : Ref sig .tc) → Buf (Elt Ideal) ((c : Thread nD τ).loc b)) (c : Dev nD) (P Q : Arr4)

/-- Region 0's two input arrays are P and Q with the node axis last. -/
def Reads0 : Prop :=
  (∀ (b : Fin 16) (t : Fin 12) (d : Fin 2) (n : Fin 10000), (V c main_v4 : S16x12x2x10000.Idx → EReal) (ix4 b t d n) = P (ix4 b t n d))
  ∧ (∀ (b : Fin 16) (t : Fin 12) (d : Fin 2) (n : Fin 10000), (V c main_v5 : S16x12x2x10000.Idx → EReal) (ix4 b t d n) = Q (ix4 b t n d))

/-- Region 1's four input arrays hold, at row e and column 24 b + 2 t + d, the (b, t, d) entries of P and Q at edge e's
    source and destination nodes. -/
def Reads1 (src dst : Fin 320000 → Fin 10000) : Prop :=
  (∀ (e : Fin 320000) (b : Fin 16) (t : Fin 12) (d : Fin 2), (V c main_v17 : S320000x384.Idx → EReal) (ix2 e ⟨b.val * 24 + t.val * 2 + d.val, by omega⟩) = P (ix4 b t (src e) d))
  ∧ (∀ (e : Fin 320000) (b : Fin 16) (t : Fin 12) (d : Fin 2), (V c main_v18 : S320000x384.Idx → EReal) (ix2 e ⟨b.val * 24 + t.val * 2 + d.val, by omega⟩) = P (ix4 b t (dst e) d))
  ∧ (∀ (e : Fin 320000) (b : Fin 16) (t : Fin 12) (d : Fin 2), (V c main_v19 : S320000x384.Idx → EReal) (ix2 e ⟨b.val * 24 + t.val * 2 + d.val, by omega⟩) = Q (ix4 b t (src e) d))
  ∧ (∀ (e : Fin 320000) (b : Fin 16) (t : Fin 12) (d : Fin 2), (V c main_v20 : S320000x384.Idx → EReal) (ix2 e ⟨b.val * 24 + t.val * 2 + d.val, by omega⟩) = Q (ix4 b t (dst e) d))

/-! ## One grid point's share of each sum -/

/-- Batch element b's absolute errors. -/
def mainAt (P Q : Arr4) (b : Fin 16) : EReal :=
  ∑ t : Fin 12, ∑ n : Fin 10000, ∑ d : Fin 2, absE (P (ix4 b t n d) - Q (ix4 b t n d))

/-- Batch element b's squared second differences. -/
def tempAt (P Q : Arr4) (b : Fin 16) : EReal :=
  ∑ t : Fin 11, ∑ n : Fin 10000, ∑ d : Fin 2,
    ((P (ix4 b (tsucc t) n d) - P (ix4 b (tcast t) n d)) - (Q (ix4 b (tsucc t) n d) - Q (ix4 b (tcast t) n d)))
      * ((P (ix4 b (tsucc t) n d) - P (ix4 b (tcast t) n d)) - (Q (ix4 b (tsucc t) n d) - Q (ix4 b (tcast t) n d)))

/-- Batch element b's squared node-sum differences. -/
def consAt (P Q : Arr4) (b : Fin 16) : EReal :=
  ∑ t : Fin 12, ∑ d : Fin 2,
    ((∑ n : Fin 10000, P (ix4 b t n d)) - (∑ n : Fin 10000, Q (ix4 b t n d)))
      * ((∑ n : Fin 10000, P (ix4 b t n d)) - (∑ n : Fin 10000, Q (ix4 b t n d)))

/-- The squared difference of the two absolute edge differences, at row e and column cc of four (320000, 384) arrays. -/
def edgeTerm (A B C D : S320000x384.Idx → EReal) (e : Fin 320000) (cc : Fin 384) : EReal :=
  (absE (A (ix2 e cc) - B (ix2 e cc)) - absE (C (ix2 e cc) - D (ix2 e cc)))
    * (absE (A (ix2 e cc) - B (ix2 e cc)) - absE (C (ix2 e cc) - D (ix2 e cc)))

/-! ## One step of each running total -/

/-- Point b adds batch element b's absolute errors. -/
theorem main_step (hr : Reads0 V c P Q) (b : Fin cfg0.N) (y : Vec Ideal S1x1 .f32) :
    k0_pay1 (F := Ideal) (k0_pay9 (F := Ideal) (iblk0 V c 0 b) (iblk0 V c 1 b)) y (ix2 0 0)
      = y (ix2 0 0) + mainAt P Q ⟨b.val, lt_of_lt_of_eq b.isLt N_0⟩ := by
  unfold mainAt
  refine (pay1_apply y _).trans (congrArg (y (ix2 0 0) + ·) ?_)
  refine (pay9_apply _ _).trans ?_
  simp only [iblk0_0_apply, iblk0_1_apply, hr.1, hr.2]
  exact Cert.Math.reorder_dnzt (fun t n d =>
    absE (P (ix4 (⟨b.val, lt_of_lt_of_eq b.isLt N_0⟩ : Fin 16) t n d) - Q (ix4 (⟨b.val, lt_of_lt_of_eq b.isLt N_0⟩ : Fin 16) t n d)))

/-- Point b adds batch element b's squared second differences. -/
theorem temp_step (hr : Reads0 V c P Q) (b : Fin cfg0.N) (y : Vec Ideal S1x1 .f32) :
    k0_pay2 (F := Ideal) (k0_pay10 (F := Ideal) (iblk0 V c 0 b) (iblk0 V c 1 b)) y (ix2 0 0)
      = y (ix2 0 0) + tempAt P Q ⟨b.val, lt_of_lt_of_eq b.isLt N_0⟩ := by
  unfold tempAt
  refine (pay2_apply y _).trans (congrArg (y (ix2 0 0) + ·) ?_)
  refine (pay10_apply _ _).trans ?_
  simp only [iblk0_0_apply, iblk0_1_apply, hr.1, hr.2]
  exact Cert.Math.reorder_dnzt (fun t n d =>
    ((P (ix4 (⟨b.val, lt_of_lt_of_eq b.isLt N_0⟩ : Fin 16) (tsucc t) n d) - P (ix4 (⟨b.val, lt_of_lt_of_eq b.isLt N_0⟩ : Fin 16) (tcast t) n d))
        - (Q (ix4 (⟨b.val, lt_of_lt_of_eq b.isLt N_0⟩ : Fin 16) (tsucc t) n d) - Q (ix4 (⟨b.val, lt_of_lt_of_eq b.isLt N_0⟩ : Fin 16) (tcast t) n d)))
      * ((P (ix4 (⟨b.val, lt_of_lt_of_eq b.isLt N_0⟩ : Fin 16) (tsucc t) n d) - P (ix4 (⟨b.val, lt_of_lt_of_eq b.isLt N_0⟩ : Fin 16) (tcast t) n d))
        - (Q (ix4 (⟨b.val, lt_of_lt_of_eq b.isLt N_0⟩ : Fin 16) (tsucc t) n d) - Q (ix4 (⟨b.val, lt_of_lt_of_eq b.isLt N_0⟩ : Fin 16) (tcast t) n d))))

/-- Point b adds batch element b's squared node-sum differences. -/
theorem cons_step (hr : Reads0 V c P Q) (b : Fin cfg0.N) (y : Vec Ideal S1x1 .f32) :
    k0_pay3 (F := Ideal) (k0_pay11 (F := Ideal) (iblk0 V c 0 b) (iblk0 V c 1 b)) y (ix2 0 0)
      = y (ix2 0 0) + consAt P Q ⟨b.val, lt_of_lt_of_eq b.isLt N_0⟩ := by
  unfold consAt
  refine (pay3_apply _ _ y).trans (congrArg (y (ix2 0 0) + ·) ?_)
  simp only [iblk0_0_apply, iblk0_1_apply, hr.1, hr.2]
  exact Cert.Math.reorder_dkzt (fun t d =>
    ((∑ n : Fin 10000, P (ix4 (⟨b.val, lt_of_lt_of_eq b.isLt N_0⟩ : Fin 16) t n d)) - (∑ n : Fin 10000, Q (ix4 (⟨b.val, lt_of_lt_of_eq b.isLt N_0⟩ : Fin 16) t n d)))
      * ((∑ n : Fin 10000, P (ix4 (⟨b.val, lt_of_lt_of_eq b.isLt N_0⟩ : Fin 16) t n d)) - (∑ n : Fin 10000, Q (ix4 (⟨b.val, lt_of_lt_of_eq b.isLt N_0⟩ : Fin 16) t n d))))

/-- Point g adds the squares of its 2000 rows of edges, every column. -/
theorem spat_step (g : Fin cfg1.N) (y : Vec Ideal S1x1 .f32) :
    k1_pay2 (F := Ideal) (iblk1 V c 0 g) (iblk1 V c 1 g) (iblk1 V c 2 g) (iblk1 V c 3 g) y (ix2 0 0)
      = y (ix2 0 0) + ∑ r : Fin 2000, ∑ cc : Fin 384,
          edgeTerm (V c main_v17) (V c main_v18) (V c main_v19) (V c main_v20)
            ⟨g.val * 2000 + r.val, by have := lt_of_lt_of_eq g.isLt N_1; omega⟩ cc := by
  refine (k1_pay2_apply y _ _ _ _).trans (congrArg (y (ix2 0 0) + ·) ?_)
  simp only [iblk1_0_apply, iblk1_1_apply, iblk1_2_apply, iblk1_3_apply]
  rfl

/-! ## The four totals -/

theorem main_total (hr : Reads0 V c P Q) (h15 : 15 < cfg0.N) :
    acc0_2 V c 15 h15 (ix2 0 0) = mainSum (P) (Q) := by
  have hN : cfg0.N = 16 := N_0
  have key := total_of_steps (fun n h => acc0_2 V c n h (ix2 0 0))
    (fun b : Fin cfg0.N => mainAt P Q ⟨b.val, lt_of_lt_of_eq b.isLt N_0⟩) (by omega)
    (by
      refine (main_step V c P Q hr ⟨0, by omega⟩ (k0_pay4 (F := Ideal))).trans ?_
      rw [pay4_apply])
    (fun n h => main_step V c P Q hr ⟨n + 1, h⟩ (acc0_2 V c n (Nat.lt_of_succ_lt h))) 15 h15
  refine key.trans ?_
  unfold mainSum
  exact Finset.sum_congr rfl fun b _ => rfl

theorem temp_total (hr : Reads0 V c P Q) (h15 : 15 < cfg0.N) :
    acc0_3 V c 15 h15 (ix2 0 0) = tempSum (P) (Q) := by
  have hN : cfg0.N = 16 := N_0
  have key := total_of_steps (fun n h => acc0_3 V c n h (ix2 0 0))
    (fun b : Fin cfg0.N => tempAt P Q ⟨b.val, lt_of_lt_of_eq b.isLt N_0⟩) (by omega)
    (by
      refine (temp_step V c P Q hr ⟨0, by omega⟩ (k0_pay5 (F := Ideal))).trans ?_
      rw [pay5_apply])
    (fun n h => temp_step V c P Q hr ⟨n + 1, h⟩ (acc0_3 V c n (Nat.lt_of_succ_lt h))) 15 h15
  refine key.trans ?_
  unfold tempSum
  exact Finset.sum_congr rfl fun b _ => rfl

theorem cons_total (hr : Reads0 V c P Q) (h15 : 15 < cfg0.N) :
    acc0_4 V c 15 h15 (ix2 0 0) = consSum (P) (Q) := by
  have hN : cfg0.N = 16 := N_0
  have key := total_of_steps (fun n h => acc0_4 V c n h (ix2 0 0))
    (fun b : Fin cfg0.N => consAt P Q ⟨b.val, lt_of_lt_of_eq b.isLt N_0⟩) (by omega)
    (by
      refine (cons_step V c P Q hr ⟨0, by omega⟩ (k0_pay6 (F := Ideal))).trans ?_
      rw [pay6_apply])
    (fun n h => cons_step V c P Q hr ⟨n + 1, h⟩ (acc0_4 V c n (Nat.lt_of_succ_lt h))) 15 h15
  refine key.trans ?_
  unfold consSum
  exact Finset.sum_congr rfl fun b _ => rfl

theorem spat_total (src dst : Fin 320000 → Fin 10000) (hr : Reads1 V c P Q src dst) (h159 : 159 < cfg1.N) :
    acc1 V c 159 h159 (ix2 0 0) = spatSum P Q src dst := by
  have hN : cfg1.N = 160 := N_1
  have key := total_of_steps (fun n h => acc1 V c n h (ix2 0 0))
    (fun g : Fin cfg1.N => ∑ r : Fin 2000, ∑ cc : Fin 384,
      edgeTerm (V c main_v17) (V c main_v18) (V c main_v19) (V c main_v20)
        ⟨g.val * 2000 + r.val, by have := lt_of_lt_of_eq g.isLt N_1; omega⟩ cc) (by omega)
    (by
      refine (spat_step V c ⟨0, by omega⟩ (k1_pay1 (F := Ideal))).trans ?_
      rw [k1_pay1_apply])
    (fun n h => spat_step V c ⟨n + 1, h⟩ (acc1 V c n (Nat.lt_of_succ_lt h))) 159 h159
  refine key.trans ?_
  -- the 160 blocks of 2000 rows are the 320000 edges; the 384 columns are (batch, time, feature)
  refine (Cert.Math.regroup_edges (edgeTerm (V c main_v17) (V c main_v18) (V c main_v19) (V c main_v20))).trans ?_
  unfold spatSum
  refine Finset.sum_congr rfl fun b _ => Finset.sum_congr rfl fun t _ => Finset.sum_congr rfl fun e _ =>
    Finset.sum_congr rfl fun d _ => ?_
  unfold edgeTerm
  rw [hr.1, hr.2.1, hr.2.2.1, hr.2.2.2]

end Cert.KernelIdeal.Val

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.PreFacts.lean ====
/-
  What the precondition says of the edge list: every entry e of the (2, 320000) array of node indices satisfies
  -10000 <= e < 10000 as a signed 32-bit integer; and then the index as NumPy reads it (10000 added to a negative one)
  lies in [0, 9999].
-/
import proofs.«408175_j43473658970670_4_alg».proof.Proof.Gen.Pre_finite_inputs
import proofs.«408175_j43473658970670_4_alg».proof.Proof.Spec
import Idealize.ShloMosaic.Lib.ReduceAll
import Idealize.ShloMosaic.Lib.StableHlo.Predicate

noncomputable section

namespace Cert.PreFacts

open Idealize.ShloMosaic Idealize.ShloMosaic.ValueIdx

/-- The scalar shape has one index. -/
instance : Subsingleton Cert.Pre_finite_inputs.S_.Idx := ⟨fun _ _ => funext fun d => d.elim0⟩

theorem idx_range [hP : Cert.Pre_finite_inputs.Facts] (P Q : FVec Ideal Cert.Pre_finite_inputs.S16x12x10000x2 .f32)
    (idx : IVec Cert.Pre_finite_inputs.S2x320000 32)
    (h : Cert.Pre_finite_inputs.fn (F := Ideal) P Q idx = fun _ => 1#1) (j : Cert.Pre_finite_inputs.S2x320000.Idx) :
    IntOp.cmpi .sge (idx j) 4294957296#32 = 1#1 ∧ IntOp.cmpi .slt (idx j) 10000#32 = 1#1 := by
  -- the predicate's one word is the conjunction of three words; the last is the fold, over every entry, of the two compares
  have h0 := congrFun h ValueIdx.ix0
  dsimp only [Cert.Pre_finite_inputs.fn] at h0
  have h1 := (IntOp.andi_eq_one.1 h0).2
  -- a fold by "and" that came out 1 met 1 at every entry
  have h2 := Host.reduce_andi_all _ _ _ _ _ h1 j
  exact IntOp.andi_eq_one.1 h2

/-- The words -10000, 10000, 0 and 9999 read signed. -/
theorem lit_neg : (4294957296#32 : BitVec 32).toInt = -10000 := by decide
theorem lit_pos : (10000#32 : BitVec 32).toInt = 10000 := by decide
theorem lit_zero : (0#32 : BitVec 32).toInt = 0 := by decide
theorem lit_top : (9999#32 : BitVec 32).toInt = 9999 := by decide

/-- Adding 10000 to a negative word no smaller than -10000 does not wrap around. -/
theorem toInt_add_lit (x : BitVec 32) (hlo : -10000 ≤ x.toInt) (hneg : x.toInt < 0) :
    (x + 10000#32).toInt = x.toInt + 10000 := by
  rw [BitVec.toInt_add, lit_pos]
  exact Int.bmod_eq_of_le_mul_two (by omega) (by omega)

/-- The wrapped index read signed: 10000 more for a negative one, itself otherwise. -/
theorem wrap_toInt (x : BitVec 32) (hlo : -10000 ≤ x.toInt) :
    (Cert.Spec.wrap x).toInt = if x.toInt < 0 then x.toInt + 10000 else x.toInt := by
  by_cases hneg : x.toInt < 0
  · have hc : IntOp.cmpi .slt x 0#32 = 1#1 := IntOp.cmpi_slt.2 (by rw [lit_zero]; exact hneg)
    have hw : Cert.Spec.wrap x = x + 10000#32 := by
      unfold Cert.Spec.wrap
      rw [hc]
      exact select_one _ _
    rw [hw, if_pos hneg]
    exact toInt_add_lit x hlo hneg
  · have hc : IntOp.cmpi .slt x 0#32 = 0#1 :=
      eq_zero_of_ne_one fun hc => hneg (by have := IntOp.cmpi_slt.1 hc; rwa [lit_zero] at this)
    have hw : Cert.Spec.wrap x = x := by
      unfold Cert.Spec.wrap
      rw [hc]
      exact select_zero _ _
    rw [hw, if_neg hneg]

theorem wrap_in_range (x : BitVec 32) (h1 : IntOp.cmpi .sge x 4294957296#32 = 1#1) (h2 : IntOp.cmpi .slt x 10000#32 = 1#1) :
    IntOp.cmpi .sge (Cert.Spec.wrap x) 0#32 = 1#1 ∧ IntOp.cmpi .sle (Cert.Spec.wrap x) 9999#32 = 1#1 := by
  have hlo : -10000 ≤ x.toInt := by have := IntOp.cmpi_sge.1 h1; rwa [lit_neg] at this
  have hhi : x.toInt < 10000 := by have := IntOp.cmpi_slt.1 h2; rwa [lit_pos] at this
  have hw := wrap_toInt x hlo
  rw [IntOp.cmpi_sge, IntOp.cmpi_sle, lit_zero, lit_top, hw]
  split <;> omega

/-- The row a gather reads for an in-range index is the wrapped index itself. -/
theorem rowOf_val (x : BitVec 32) (h1 : IntOp.cmpi .sge x 4294957296#32 = 1#1) (h2 : IntOp.cmpi .slt x 10000#32 = 1#1) :
    ((Cert.Spec.rowOf x).val : Int) = (Cert.Spec.wrap x).toInt := by
  obtain ⟨ha, hb⟩ := wrap_in_range x h1 h2
  rw [IntOp.cmpi_sge, lit_zero] at ha
  rw [IntOp.cmpi_sle, lit_top] at hb
  show ((min (Cert.Spec.wrap x).toInt.toNat 9999 : Nat) : Int) = (Cert.Spec.wrap x).toInt
  omega

end Cert.PreFacts

end
-- ==== Proof.KV.HostRead.lean ====
/-
  What the host lines before the two kernel regions leave in the regions' input arrays, element by element, at the
  ideal instance: the two transposes move the node axis last; the flattening of (node, batch, time, feature) puts
  column 24 b + 2 t + d at (b, t, d); and each of the four row gathers, for node indices in [-10000, 9999], reads the
  row of the wrapped index (the out-of-range fill never applies).
-/
import proofs.«408175_j43473658970670_4_alg».proof.Proof.Gen.KernelIdeal.Regions
import proofs.«408175_j43473658970670_4_alg».proof.Proof.Spec
import proofs.«408175_j43473658970670_4_alg».proof.Proof.LibGather
import proofs.«408175_j43473658970670_4_alg».proof.Proof.PreFacts
import Idealize.ShloMosaic.PureOps.Reduce
import Idealize.ShloMosaic.Lib.Affine
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

/-! ## Layout reads at an index -/

/-- The (batch, time, node, feature) array with the node axis moved last reads, at (b, t, d, n), the array's (b, t, n, d). -/
theorem nodeLast_apply (arr : S16x12x10000x2.Idx → EReal)
    (hT : S16x12x10000x2.Transposes [0, 1, 3, 2] S16x12x2x10000) (b : Fin 16) (t : Fin 12) (d : Fin 2) (n : Fin 10000) :
    transpose S16x12x2x10000 [0, 1, 3, 2] arr hT (ix4 b t d n) = arr (ix4 b t n d) :=
  transpose_apply _ arr hT _ _ fun a => match a with | ⟨0, _⟩ => rfl | ⟨1, _⟩ => rfl | ⟨2, _⟩ => rfl | ⟨3, _⟩ => rfl

/-- The array with the node axis moved first and the other three axes flattened into rows of 384: row n, column
    24 b + 2 t + d is the array's (b, t, n, d). -/
theorem flatten_apply (arr : S16x12x10000x2.Idx → EReal)
    (hT : S16x12x10000x2.Transposes [2, 0, 1, 3] S10000x16x12x2) (hC : S10000x16x12x2.ShapeCasts S10000x384)
    (n : Fin 10000) (b : Fin 16) (t : Fin 12) (d : Fin 2) :
    shapeCast S10000x384 (transpose S10000x16x12x2 [2, 0, 1, 3] arr hT) hC (ix2 n ⟨b.val * 24 + t.val * 2 + d.val, by omega⟩)
      = arr (ix4 b t n d) := by
  refine (shapeCast_apply _ hC _ (ix4 n b t d) ?_).trans ?_
  · rw [Shape.rowMajor_val_four, Shape.rowMajor_val_two]
    show ((n.val * 16 + b.val) * 12 + t.val) * 2 + d.val = n.val * 384 + (b.val * 24 + t.val * 2 + d.val)
    omega
  · exact transpose_apply _ arr hT _ _ fun a => match a with | ⟨0, _⟩ => rfl | ⟨1, _⟩ => rfl | ⟨2, _⟩ => rfl | ⟨3, _⟩ => rfl

/-- Row 0 of the (2, 320000) edge list, as a vector: entry e is the list's (0, e). -/
theorem row0_apply (M : S2x320000.Idx → BitVec 32) (hS : S2x320000.Slices ![0, 0] S1x320000)
    (hC : S1x320000.ShapeCasts S320000) (e : Fin 320000) :
    shapeCast S320000 (extractStridedSlice S1x320000 ![0, 0] M hS) hC (ix1 e) = M (ix2 0 e) := by
  refine (shapeCast_apply _ hC (ix1 e) (ix2 (0 : Fin 1) e) ?_).trans ?_
  · rw [Shape.rowMajor_val_two, Shape.rowMajor_val_one]
    show 0 * 320000 + e.val = e.val
    omega
  · exact extractStridedSlice_apply _ M hS _ (ix2 (0 : Fin 2) e) fun a => match a with
      | ⟨0, _⟩ => rfl
      | ⟨1, _⟩ => by show e.val = 0 + e.val; omega

/-- Row 1 of the edge list, as a vector: entry e is the list's (1, e). -/
theorem row1_apply (M : S2x320000.Idx → BitVec 32) (hS : S2x320000.Slices ![1, 0] S1x320000)
    (hC : S1x320000.ShapeCasts S320000) (e : Fin 320000) :
    shapeCast S320000 (extractStridedSlice S1x320000 ![1, 0] M hS) hC (ix1 e) = M (ix2 1 e) := by
  refine (shapeCast_apply _ hC (ix1 e) (ix2 (0 : Fin 1) e) ?_).trans ?_
  · rw [Shape.rowMajor_val_two, Shape.rowMajor_val_one]
    show 0 * 320000 + e.val = e.val
    omega
  · exact extractStridedSlice_apply _ M hS _ (ix2 (1 : Fin 2) e) fun a => match a with
      | ⟨0, _⟩ => rfl
      | ⟨1, _⟩ => by show e.val = 0 + e.val; omega

/-! ## A conjunction of ones -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := IntOp.andi_eq_one.2 ⟨rfl, h a (List.mem_cons.2 (Or.inl rfl))⟩
    show l.foldl (fun r n => IntOp.andi r (f n)) (IntOp.andi 1#1 (f a)) = 1#1
    rw [ha]
    exact foldl_andi_ones f l fun n hn => h n (List.mem_cons.2 (Or.inr hn))

/-- A reduction by `and`, started at 1, of an array whose every element is 1 is 1 everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun i _ => hx i

/-! ## Reading rows of a table at a vector of node indices -/

/-- The node indices as NumPy reads them: 10000 added to each negative one. -/
def wrapVec (idxv : S320000.Idx → BitVec 32) : S320000.Idx → BitVec 32 :=
  select (cmpi .slt idxv (broadcastInDim S320000 ![] bcast_S_S320000 (constantI S_ 32 0#32)))
    (addi idxv (broadcastInDim S320000 ![] bcast_S_S320000 (constantI S_ 32 10000#32))) idxv

theorem wrapVec_apply (idxv : S320000.Idx → BitVec 32) (i : S320000.Idx) : wrapVec idxv i = Cert.Spec.wrap (idxv i) := rfl

/-- The wrapped indices as a (320000, 1) column: the gather's start indices. -/
def startCol (idxv : S320000.Idx → BitVec 32) : S320000x1.Idx → BitVec 32 :=
  broadcastInDim S320000x1 ![0] bcast_S320000_S320000x1_0 (wrapVec idxv)

theorem startCol_apply (idxv : S320000.Idx → BitVec 32) (e : Fin 320000) (u : Fin 1) :
    startCol idxv (ix2 e u) = Cert.Spec.wrap (idxv (ix1 e)) := by
  unfold startCol
  refine (broadcastInDim_apply _ bcast_S320000_S320000x1_0 (wrapVec idxv) (ix2 e u) (ix1 e) (fun a => match a with
    | ⟨0, _⟩ => by show e.val = if (320000 : Nat) = 1 then 0 else e.val; rw [if_neg (by decide)])).trans ?_
  exact wrapVec_apply idxv (ix1 e)

/-- Per edge, whether the wrapped index lies in [0, 9999]: the two comparisons, conjoined and reduced over the unit axis. -/
def inRange (idxv : S320000.Idx → BitVec 32) : S320000.Idx → BitVec 1 :=
  Host.reduce IntOp.andi
    (andi (cmpi .sge (startCol idxv) (broadcastInDim S320000x1 ![] bcast_S_S320000x1 (constantI S_ 32 0#32)))
      (cmpi .sle (startCol idxv) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The rows of a (10000, 384) table at a vector of 320000 node indices, as the lines of the row lookup compute them:
    the gather at the wrapped indices where those lie in [0, 9999], the fill value elsewhere. -/
def takeRows (table : S10000x384.Idx → EReal) (idxv : S320000.Idx → BitVec 32) : S320000x384.Idx → EReal :=
  select (broadcastInDim S320000x384 ![0] bcast_S320000_S320000x384_0 (inRange idxv))
    (Host.gather gather_S10000x384_S320000x1_S320000x384_1_0_n_n_0_1_1384 table (startCol idxv))
    (broadcastInDim S320000x384 ![] bcast_S_S320000x384 (constant (F := Ideal) S_ .f32 0x7FC00000#32))

section Take
variable (idxv : S320000.Idx → BitVec 32)
  (hw : ∀ x : BitVec 32, IntOp.cmpi .sge x 4294957296#32 = 1#1 → IntOp.cmpi .slt x 10000#32 = 1#1 →
    IntOp.cmpi .sge (wrap x) 0#32 = 1#1 ∧ IntOp.cmpi .sle (wrap x) 9999#32 = 1#1)
  (hr : ∀ i : S320000.Idx, IntOp.cmpi .sge (idxv i) 4294957296#32 = 1#1 ∧ IntOp.cmpi .slt (idxv i) 10000#32 = 1#1)
include hw hr

/-- For indices in [-10000, 9999] every wrapped index is in range. -/
theorem inRange_eq_one (j : S320000.Idx) : inRange idxv j = 1#1 := by
  unfold inRange
  refine reduce_andi_ones _ _ _ _ j rfl fun i => ?_
  obtain ⟨p, q, rfl⟩ : ∃ (p : Fin 320000) (q : Fin 1), i = ix2 p q := ⟨i 0, i 1, eq_ix2 i⟩
  show IntOp.andi (IntOp.cmpi .sge (startCol idxv (ix2 p q)) 0#32) (IntOp.cmpi .sle (startCol idxv (ix2 p q)) 9999#32) = 1#1
  rw [startCol_apply]
  exact IntOp.andi_eq_one.2 (hw _ (hr _).1 (hr _).2)

/-- For indices in [-10000, 9999], row e of the lookup is the table's row at the wrapped index: element (e, k) is the
    table's (Cert.Spec.rowOf (idxv e), k). -/
theorem takeRows_apply (table : S10000x384.Idx → EReal) (e : Fin 320000) (k : Fin 384) :
    takeRows table idxv (ix2 e k) = table (ix2 (Cert.Spec.rowOf (idxv (ix1 e))) k) := by
  have hm : broadcastInDim S320000x384 ![0] bcast_S320000_S320000x384_0 (inRange idxv) (ix2 e k) = 1#1 := by
    unfold broadcastInDim
    exact inRange_eq_one idxv hw hr _
  have hs : startCol idxv (ix2 e 0) = Cert.Spec.wrap (idxv (ix1 e)) := startCol_apply idxv e 0
  unfold takeRows
  rw [select_apply, hm, select_one]
  refine (RowGather.gather_rows gather_S10000x384_S320000x1_S320000x384_1_0_n_n_0_1_1384 rfl rfl rfl rfl rfl
    (startCol idxv) e k table (by decide)).trans ?_
  refine congrArg table (congrArg (fun r : Fin 10000 => (ix2 r k : S10000x384.Idx)) (Fin.ext ?_))
  show min (startCol idxv (ix2 e 0)).toInt.toNat (10000 - 1) = min (Cert.Spec.wrap (idxv (ix1 e))).toInt.toNat 9999
  exact congrArg (fun z : BitVec 32 => min z.toInt.toNat 9999) hs

end Take

/-! ## The host lines' terms, from any contents before them

The lines of a row lookup write each value at its buffer's own type and read it back at the value's type; a value moved
there and back is the value. -/

/-- A value moved to another type along an equality and back along any equality is the value. -/
theorem cast_back {A B : Type} (h1 : A = B) (h2 : B = A) (v : A) : cast h2 (cast h1 v) = v := by
  subst h1; rfl

section Lines
variable (W : Valuation τ sig (Elt Ideal))

theorem ops0_v1 : (StableHlo.after (hostOps0 (F := Ideal)) W (Proc.devRef .tc main_v1) : S320000.Idx → BitVec 32)
    = shapeCast S320000 (extractStridedSlice S1x320000 ![0, 0] (W (Proc.devRef .tc main_arg2) : S2x320000.Idx → BitVec 32)
        slices_S2x320000_S1x320000_0_0) shapeCasts_S1x320000_S320000 := by
  after_results; rfl
theorem ops0_v3 : (StableHlo.after (hostOps0 (F := Ideal)) W (Proc.devRef .tc main_v3) : S320000.Idx → BitVec 32)
    = shapeCast S320000 (extractStridedSlice S1x320000 ![1, 0] (W (Proc.devRef .tc main_arg2) : S2x320000.Idx → BitVec 32)
        slices_S2x320000_S1x320000_1_0) shapeCasts_S1x320000_S320000 := by
  after_results; rfl
theorem ops0_v4 : (StableHlo.after (hostOps0 (F := Ideal)) W (Proc.devRef .tc main_v4) : S16x12x2x10000.Idx → EReal)
    = transpose S16x12x2x10000 [0, 1, 3, 2] (W (Proc.devRef .tc main_arg0) : S16x12x10000x2.Idx → EReal)
        transposes_S16x12x10000x2_S16x12x2x10000_0_1_3_2 := by
  after_results
theorem ops0_v5 : (StableHlo.after (hostOps0 (F := Ideal)) W (Proc.devRef .tc main_v5) : S16x12x2x10000.Idx → EReal)
    = transpose S16x12x2x10000 [0, 1, 3, 2] (W (Proc.devRef .tc main_arg1) : S16x12x10000x2.Idx → EReal)
        transposes_S16x12x10000x2_S16x12x2x10000_0_1_3_2 := by
  after_results
theorem ops1_v14 : (StableHlo.after (hostOps1 (F := Ideal)) W (Proc.devRef .tc main_v14) : S10000x384.Idx → EReal)
    = shapeCast S10000x384 (transpose S10000x16x12x2 [2, 0, 1, 3] (W (Proc.devRef .tc main_arg0) : S16x12x10000x2.Idx → EReal)
        transposes_S16x12x10000x2_S10000x16x12x2_2_0_1_3) shapeCasts_S10000x16x12x2_S10000x384 := by
  after_results; rfl
theorem ops1_v16 : (StableHlo.after (hostOps1 (F := Ideal)) W (Proc.devRef .tc main_v16) : S10000x384.Idx → EReal)
    = shapeCast S10000x384 (transpose S10000x16x12x2 [2, 0, 1, 3] (W (Proc.devRef .tc main_arg1) : S16x12x10000x2.Idx → EReal)
        transposes_S16x12x10000x2_S10000x16x12x2_2_0_1_3) shapeCasts_S10000x16x12x2_S10000x384 := by
  after_results; rfl

set_option maxHeartbeats 4000000 in
theorem take_v17 : (StableHlo.after (hostOps1_1 (F := Ideal)) W (Proc.devRef .tc main_v17) : S320000x384.Idx → EReal)
    = takeRows (W (Proc.devRef .tc main_v14) : S10000x384.Idx → EReal) (W (Proc.devRef .tc main_v1) : S320000.Idx → BitVec 32) := by
  after_results
  simp only [StableHlo.TRef.toBuf, StableHlo.TRef.ofBuf, cast_back]
  refine eq_of_heq ((cast_heq _ _).trans (heq_of_eq ?_))
  show takeRows (cast _ (W (Proc.devRef .tc main_v14))) (cast _ (W (Proc.devRef .tc main_v1)))
    = takeRows (W (Proc.devRef .tc main_v14)) (W (Proc.devRef .tc main_v1))
  exact congrArg₂ takeRows rfl rfl

set_option maxHeartbeats 4000000 in
theorem take_v18 : (StableHlo.after (hostOps1_2 (F := Ideal)) W (Proc.devRef .tc main_v18) : S320000x384.Idx → EReal)
    = takeRows (W (Proc.devRef .tc main_v14) : S10000x384.Idx → EReal) (W (Proc.devRef .tc main_v3) : S320000.Idx → BitVec 32) := by
  after_results
  simp only [StableHlo.TRef.toBuf, StableHlo.TRef.ofBuf, cast_back]
  refine eq_of_heq ((cast_heq _ _).trans (heq_of_eq ?_))
  show takeRows (cast _ (W (Proc.devRef .tc main_v14))) (cast _ (W (Proc.devRef .tc main_v3)))
    = takeRows (W (Proc.devRef .tc main_v14)) (W (Proc.devRef .tc main_v3))
  exact congrArg₂ takeRows rfl rfl

set_option maxHeartbeats 4000000 in
theorem take_v19 : (StableHlo.after (hostOps1_3 (F := Ideal)) W (Proc.devRef .tc main_v19) : S320000x384.Idx → EReal)
    = takeRows (W (Proc.devRef .tc main_v16) : S10000x384.Idx → EReal) (W (Proc.devRef .tc main_v1) : S320000.Idx → BitVec 32) := by
  after_results
  simp only [StableHlo.TRef.toBuf, StableHlo.TRef.ofBuf, cast_back]
  refine eq_of_heq ((cast_heq _ _).trans (heq_of_eq ?_))
  show takeRows (cast _ (W (Proc.devRef .tc main_v16))) (cast _ (W (Proc.devRef .tc main_v1)))
    = takeRows (W (Proc.devRef .tc main_v16)) (W (Proc.devRef .tc main_v1))
  exact congrArg₂ takeRows rfl rfl

set_option maxHeartbeats 4000000 in
theorem take_v20 : (StableHlo.after (hostOps1_4 (F := Ideal)) W (Proc.devRef .tc main_v20) : S320000x384.Idx → EReal)
    = takeRows (W (Proc.devRef .tc main_v16) : S10000x384.Idx → EReal) (W (Proc.devRef .tc main_v3) : S320000.Idx → BitVec 32) := by
  after_results
  simp only [StableHlo.TRef.toBuf, StableHlo.TRef.ofBuf, cast_back]
  refine eq_of_heq ((cast_heq _ _).trans (heq_of_eq ?_))
  show takeRows (cast _ (W (Proc.devRef .tc main_v16))) (cast _ (W (Proc.devRef .tc main_v3)))
    = takeRows (W (Proc.devRef .tc main_v16)) (W (Proc.devRef .tc main_v3))
  exact congrArg₂ takeRows rfl rfl

end Lines

variable (m : (ℓ : Loc nD τ sig) → Buf (Elt Ideal) ℓ) (c : Dev nD) (outs : Outs (F := Ideal))

/-- The edge list's entries lie in [-10000, 9999] (what the precondition says of them). -/
def IdxOk : Prop := ∀ j : S2x320000.Idx,
  IntOp.cmpi .sge (((m ((c : Thread nD τ).loc main_arg2)) : S2x320000.Idx → BitVec 32) j) 4294957296#32 = 1#1
    ∧ IntOp.cmpi .slt (((m ((c : Thread nD τ).loc main_arg2)) : S2x320000.Idx → BitVec 32) j) 10000#32 = 1#1

/-- Region 0's first input: predictions with the node axis last. -/
theorem v4_apply (b : Fin 16) (t : Fin 12) (d : Fin 2) (n : Fin 10000) :
    (V1 m c main_v4 : S16x12x2x10000.Idx → EReal) (ix4 b t d n) = ((m ((c : Thread nD τ).loc main_arg0)) : S16x12x10000x2.Idx → EReal) (ix4 b t n d) := by
  refine (congrFun (ops0_v4 (V0 m c)) _).trans ?_
  exact nodeLast_apply _ _ b t d n
theorem v5_apply (b : Fin 16) (t : Fin 12) (d : Fin 2) (n : Fin 10000) :
    (V1 m c main_v5 : S16x12x2x10000.Idx → EReal) (ix4 b t d n) = ((m ((c : Thread nD τ).loc main_arg1)) : S16x12x10000x2.Idx → EReal) (ix4 b t n d) := by
  refine (congrFun (ops0_v5 (V0 m c)) _).trans ?_
  exact nodeLast_apply _ _ b t d n

/-! ## The operands of the four row lookups -/

/-- The source-node vector before the lookups: entry e is the edge list's (0, e). -/
theorem src_at (e : Fin 320000) :
    (V3 m outs c main_v1 : S320000.Idx → BitVec 32) (ix1 e) = ((m ((c : Thread nD τ).loc main_arg2)) : S2x320000.Idx → BitVec 32) (ix2 0 e) := by
  rw [V3_of m outs c main_v1 (by decide), V2_of m outs c main_v1 (by decide)]
  refine (congrFun (ops0_v1 (V0 m c)) _).trans ?_
  exact row0_apply _ _ _ e
/-- The destination-node vector before the lookups: entry e is the edge list's (1, e). -/
theorem dst_at (e : Fin 320000) :
    (V3 m outs c main_v3 : S320000.Idx → BitVec 32) (ix1 e) = ((m ((c : Thread nD τ).loc main_arg2)) : S2x320000.Idx → BitVec 32) (ix2 1 e) := by
  rw [V3_of m outs c main_v3 (by decide), V2_of m outs c main_v3 (by decide)]
  refine (congrFun (ops0_v3 (V0 m c)) _).trans ?_
  exact row1_apply _ _ _ e

/-- The flattened predictions before the lookups: row n, column 24 b + 2 t + d. -/
theorem v14_at (n : Fin 10000) (b : Fin 16) (t : Fin 12) (d : Fin 2) :
    (V3 m outs c main_v14 : S10000x384.Idx → EReal) (ix2 n ⟨b.val * 24 + t.val * 2 + d.val, by omega⟩)
      = ((m ((c : Thread nD τ).loc main_arg0)) : S16x12x10000x2.Idx → EReal) (ix4 b t n d) := by
  have h := ops1_v14 (V2 m outs c)
  rw [V2_of m outs c main_arg0 (by decide), V1_of m c main_arg0 (by decide)] at h
  refine (congrFun h _).trans ?_
  exact flatten_apply _ _ _ n b t d
/-- The flattened targets before the lookups. -/
theorem v16_at (n : Fin 10000) (b : Fin 16) (t : Fin 12) (d : Fin 2) :
    (V3 m outs c main_v16 : S10000x384.Idx → EReal) (ix2 n ⟨b.val * 24 + t.val * 2 + d.val, by omega⟩)
      = ((m ((c : Thread nD τ).loc main_arg1)) : S16x12x10000x2.Idx → EReal) (ix4 b t n d) := by
  have h := ops1_v16 (V2 m outs c)
  rw [V2_of m outs c main_arg1 (by decide), V1_of m c main_arg1 (by decide)] at h
  refine (congrFun h _).trans ?_
  exact flatten_apply _ _ _ n b t d

/-- Both node vectors hold indices in [-10000, 9999]. -/
theorem src_ok (hok : IdxOk m c) (i : S320000.Idx) :
    IntOp.cmpi .sge ((V3 m outs c main_v1 : S320000.Idx → BitVec 32) i) 4294957296#32 = 1#1
      ∧ IntOp.cmpi .slt ((V3 m outs c main_v1 : S320000.Idx → BitVec 32) i) 10000#32 = 1#1 := by
  obtain ⟨p, rfl⟩ : ∃ p : Fin 320000, i = ix1 p := ⟨i 0, eq_ix1 i⟩
  rw [src_at m c outs p]
  exact hok _
theorem dst_ok (hok : IdxOk m c) (i : S320000.Idx) :
    IntOp.cmpi .sge ((V3 m outs c main_v3 : S320000.Idx → BitVec 32) i) 4294957296#32 = 1#1
      ∧ IntOp.cmpi .slt ((V3 m outs c main_v3 : S320000.Idx → BitVec 32) i) 10000#32 = 1#1 := by
  obtain ⟨p, rfl⟩ : ∃ p : Fin 320000, i = ix1 p := ⟨i 0, eq_ix1 i⟩
  rw [dst_at m c outs p]
  exact hok _

/-- The four lookups' results as rows of the two flattened arrays at the two node vectors. -/
theorem v17_term : (V7 m outs c main_v17 : S320000x384.Idx → EReal)
    = takeRows (V3 m outs c main_v14 : S10000x384.Idx → EReal) (V3 m outs c main_v1 : S320000.Idx → BitVec 32) := by
  rw [V7_of m outs c main_v17 (by decide), V6_of m outs c main_v17 (by decide), V5_of m outs c main_v17 (by decide)]
  exact take_v17 (V3 m outs c)
theorem v18_term : (V7 m outs c main_v18 : S320000x384.Idx → EReal)
    = takeRows (V3 m outs c main_v14 : S10000x384.Idx → EReal) (V3 m outs c main_v3 : S320000.Idx → BitVec 32) := by
  rw [V7_of m outs c main_v18 (by decide), V6_of m outs c main_v18 (by decide)]
  have h := take_v18 (V4 m outs c)
  rw [V4_of m outs c main_v14 (by decide), V4_of m outs c main_v3 (by decide)] at h
  exact h
theorem v19_term : (V7 m outs c main_v19 : S320000x384.Idx → EReal)
    = takeRows (V3 m outs c main_v16 : S10000x384.Idx → EReal) (V3 m outs c main_v1 : S320000.Idx → BitVec 32) := by
  rw [V7_of m outs c main_v19 (by decide)]
  have h := take_v19 (V5 m outs c)
  rw [V5_of m outs c main_v16 (by decide), V4_of m outs c main_v16 (by decide),
    V5_of m outs c main_v1 (by decide), V4_of m outs c main_v1 (by decide)] at h
  exact h
theorem v20_term : (V7 m outs c main_v20 : S320000x384.Idx → EReal)
    = takeRows (V3 m outs c main_v16 : S10000x384.Idx → EReal) (V3 m outs c main_v3 : S320000.Idx → BitVec 32) := by
  have h := take_v20 (V6 m outs c)
  rw [V6_of m outs c main_v16 (by decide), V5_of m outs c main_v16 (by decide), V4_of m outs c main_v16 (by decide),
    V6_of m outs c main_v3 (by decide), V5_of m outs c main_v3 (by decide), V4_of m outs c main_v3 (by decide)] at h
  exact h

/-- Region 1's four inputs: row e, column 24 b + 2 t + d. -/
theorem v17_apply (hok : IdxOk m c) (e : Fin 320000) (b : Fin 16) (t : Fin 12) (d : Fin 2) :
    (V7 m outs c main_v17 : S320000x384.Idx → EReal) (ix2 e ⟨b.val * 24 + t.val * 2 + d.val, by omega⟩)
      = ((m ((c : Thread nD τ).loc main_arg0)) : S16x12x10000x2.Idx → EReal) (ix4 b t (srcOf (m ((c : Thread nD τ).loc main_arg2)) e) d) := by
  refine (congrFun (v17_term m c outs) _).trans ?_
  refine (takeRows_apply _ Cert.PreFacts.wrap_in_range (src_ok m c outs hok) _ e _).trans ?_
  rw [src_at m c outs e]
  exact v14_at m c outs _ b t d
theorem v18_apply (hok : IdxOk m c) (e : Fin 320000) (b : Fin 16) (t : Fin 12) (d : Fin 2) :
    (V7 m outs c main_v18 : S320000x384.Idx → EReal) (ix2 e ⟨b.val * 24 + t.val * 2 + d.val, by omega⟩)
      = ((m ((c : Thread nD τ).loc main_arg0)) : S16x12x10000x2.Idx → EReal) (ix4 b t (dstOf (m ((c : Thread nD τ).loc main_arg2)) e) d) := by
  refine (congrFun (v18_term m c outs) _).trans ?_
  refine (takeRows_apply _ Cert.PreFacts.wrap_in_range (dst_ok m c outs hok) _ e _).trans ?_
  rw [dst_at m c outs e]
  exact v14_at m c outs _ b t d
theorem v19_apply (hok : IdxOk m c) (e : Fin 320000) (b : Fin 16) (t : Fin 12) (d : Fin 2) :
    (V7 m outs c main_v19 : S320000x384.Idx → EReal) (ix2 e ⟨b.val * 24 + t.val * 2 + d.val, by omega⟩)
      = ((m ((c : Thread nD τ).loc main_arg1)) : S16x12x10000x2.Idx → EReal) (ix4 b t (srcOf (m ((c : Thread nD τ).loc main_arg2)) e) d) := by
  refine (congrFun (v19_term m c outs) _).trans ?_
  refine (takeRows_apply _ Cert.PreFacts.wrap_in_range (src_ok m c outs hok) _ e _).trans ?_
  rw [src_at m c outs e]
  exact v16_at m c outs _ b t d
theorem v20_apply (hok : IdxOk m c) (e : Fin 320000) (b : Fin 16) (t : Fin 12) (d : Fin 2) :
    (V7 m outs c main_v20 : S320000x384.Idx → EReal) (ix2 e ⟨b.val * 24 + t.val * 2 + d.val, by omega⟩)
      = ((m ((c : Thread nD τ).loc main_arg1)) : S16x12x10000x2.Idx → EReal) (ix4 b t (dstOf (m ((c : Thread nD τ).loc main_arg2)) e) d) := by
  refine (congrFun (v20_term m c outs) _).trans ?_
  refine (takeRows_apply _ Cert.PreFacts.wrap_in_range (dst_ok m c outs hok) _ e _).trans ?_
  rw [dst_at m c outs e]
  exact v16_at m c outs _ b t d

end Cert.KernelIdeal.Val

end
-- ==== Proof.KV.Tail.lean ====
/-
  The last lines of both programs: from the four sums, each divided by its element count, the weighted total
  1.0 main + 0.1 spatial + 0.05 temporal + 0.02 conservation and the four means, stacked as (total, main, spatial,
  temporal, conservation). One function of the four sums, so equal sums give equal results.
-/
import Idealize.ShloMosaic.PureOps
import Idealize.ShloMosaic.PureOps.Ideal

noncomputable section

namespace Cert.Tail

open Idealize.ShloMosaic

abbrev T0 : Shape := ⟨0, ![]⟩
abbrev T1 : Shape := ⟨1, ![1]⟩
abbrev T5 : Shape := ⟨1, ![5]⟩

/-- The stacked result from the four sums a (absolute error), s (spatial), t (temporal), k (conservation). -/
def lossTail (hb : T0.BroadcastsInDim T1 (![] : Fin 0 → Fin T1.rank)) (hc : Shape.Concatenates [T1, T1, T1, T1, T1] T5 0)
    (a s t k : FVec Ideal T0 .f32) : FVec Ideal T5 .f32 :=
  concatenate T5 0
    [⟨T1, broadcastInDim T1 ![] hb
        (addf (addf (addf (mulf (constant T0 .f32 0x3F800000#32) (Host.divf a (constant T0 .f32 0x4A6A6000#32)))
                          (mulf (constant T0 .f32 0x3DCCCCCD#32) (Host.divf s (constant T0 .f32 0x4CEA6000#32))))
                    (mulf (constant T0 .f32 0x3D4CCCCD#32) (Host.divf t (constant T0 .f32 0x4A56D800#32))))
              (mulf (constant T0 .f32 0x3CA3D70A#32) (Host.divf k (constant T0 .f32 0x43C00000#32))))⟩,
     ⟨T1, broadcastInDim T1 ![] hb (Host.divf a (constant T0 .f32 0x4A6A6000#32))⟩,
     ⟨T1, broadcastInDim T1 ![] hb (Host.divf s (constant T0 .f32 0x4CEA6000#32))⟩,
     ⟨T1, broadcastInDim T1 ![] hb (Host.divf t (constant T0 .f32 0x4A56D800#32))⟩,
     ⟨T1, broadcastInDim T1 ![] hb (Host.divf k (constant T0 .f32 0x43C00000#32))⟩] hc

end Cert.Tail

end
-- ==== Proof.LibGatherNode.lean ====
/-
  Reading a gather along the node axis of a four-axis array at an element.

  Picking n nodes out of an (A, B, N, D) array along its third axis is a gather whose start indices are an (n, 1) column
  of node numbers: the array's third axis is collapsed and start-indexed, its other three axes are the offset axes of the
  result, and the index vector lies along axis 1 of the column.  Result element (a, b, e, k) is then the array's element
  (a, b, r, k), where r is the e-th start index read as a signed integer and clamped into [0, N - 1].
-/
import Idealize.ShloMosaic.PureOps.ShapeOps
import Idealize.ShloMosaic.Lib.ValueIdx

namespace Idealize.ShloMosaic.NodeGather

open Idealize.ShloMosaic Idealize.ShloMosaic.ValueIdx

/-- Two equal lists read at equal positions give the same element. -/
theorem getElem_of_eq {β : Type} {l l' : List β} (h : l = l') {i j : Nat} (hij : i = j) (hi : i < l.length)
    (hj : j < l'.length) : l[i] = l'[j] := by
  subst h; subst hij; rfl

/-- A list known to be one element long, read at any position, gives that element. -/
theorem getElem_of_eq_singleton {β : Type} {l : List β} {x : β} (h : l = [x]) (i : Nat) (hi : i < l.length) : l[i] = x := by
  subst h
  have : i = 0 := by simpa using hi
  subst this; rfl

section
variable {A B N D n w : Nat} (d : GatherDims ⟨4, ![A, B, N, D]⟩ ⟨2, ![n, 1]⟩ ⟨4, ![A, B, n, D]⟩)
    (hoff : d.offsetDims = [0, 1, 3]) (hcoll : d.collapsedSliceDims = [2]) (hob : d.operandBatchingDims = [])
    (hsim : d.startIndexMap = [2]) (hivd : d.indexVectorDim = 1)
    (idx : IVec ⟨2, ![n, 1]⟩ w) (a : Fin A) (b : Fin B) (e : Fin n) (k : Fin D)
include hcoll hob

/-- The operand's axes that are kept (neither collapsed nor batching) are the first, second and fourth. -/
theorem sKept_eq : d.sKept = [0, 1, 3] := by
  show (List.finRange 4).filter (· ∉ d.collapsedSliceDims ++ d.operandBatchingDims) = [0, 1, 3]
  rw [hcoll, hob]
  rfl

include hoff hsim

/-- On a kept axis of the operand (position p among the kept axes, the result's axis q there) the operand index is the
    result's coordinate on axis q. -/
theorem operandIdx_kept (j : (⟨4, ![A, B, n, D]⟩ : Shape).Idx) (ax : Fin 4) (p : Nat) (q : Fin 4)
    (hmem : ax ∈ ([0, 1, 3] : List (Fin 4))) (hp : List.idxOf ax ([0, 1, 3] : List (Fin 4)) = p)
    (hp3 : p < 3) (hq : ([0, 1, 3] : List (Fin 4))[p] = q) (hne : ax ≠ 2) :
    (d.operandIdx j idx ax).val = (j q).val := by
  have hsK := sKept_eq d hcoll hob
  have hb : ax ∉ d.operandBatchingDims := by rw [hob]; exact List.not_mem_nil
  have hk : ax ∈ d.sKept := by rw [hsK]; exact hmem
  have hm : ax ∉ d.startIndexMap := by rw [hsim]; exact fun h => hne (List.mem_singleton.mp h)
  simp only [GatherDims.operandIdx, GatherDims.batchCoord_eq_zero _ _ _ hb, Nat.add_zero, GatherDims.start,
    dif_neg hm, Nat.zero_add]
  unfold GatherDims.offCoord
  rw [dif_pos hk]
  have hget : d.offsetDims[d.sKept.idxOf ax]'(by rw [d.offset_length]; exact List.idxOf_lt_length_iff.2 hk) = q := by
    rw [← hq]
    exact getElem_of_eq hoff (by rw [hsK]; exact hp) _ hp3
  rw [hget]

include hivd

/-- On the node axis the operand index is the start index of the result's third coordinate, read signed and clamped. -/
theorem operandIdx_node :
    (d.operandIdx (ix4 a b e k) idx (2 : Fin 4)).val = min (idx (ix2 e 0)).toInt.toNat (N - 1) := by
  have hb : (2 : Fin 4) ∉ d.operandBatchingDims := by rw [hob]; exact List.not_mem_nil
  have hk : (2 : Fin 4) ∉ d.sKept := by rw [GatherDims.mem_sKept, hcoll]; simp
  have hm : (2 : Fin 4) ∈ d.startIndexMap := by rw [hsim]; exact List.mem_singleton.mpr rfl
  have hsl : d.sliceSizes 2 = 1 := d.slice_collapsed 2 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 2) = min (idx (ix2 e 0)).toInt.toNat (N - 1)
  rw [hsl]
  refine congrArg (fun q => min (idx q).toInt.toNat (N - 1)) ?_
  funext c
  match c with
  | ⟨0, _⟩ =>
    unfold GatherDims.siIdx
    rw [dif_neg (by rw [hivd]; simp)]
    unfold GatherDims.siCoord
    apply Fin.ext
    simp only [Fin.val_cast]
    have hbd : d.batchDims = [2] := by
      show (List.finRange 4).filter (· ∉ d.offsetDims) = [2]
      rw [hoff]; rfl
    rw [getElem_of_eq_singleton hbd]
    rfl
  | ⟨1, _⟩ =>
    unfold GatherDims.siIdx
    rw [dif_pos (by rw [hivd])]
    apply Fin.ext
    show List.idxOf (2 : Fin 4) d.startIndexMap = 0
    rw [hsim]; simp

/-- Element (a, b, e, k) of a node gather is the array's element (a, b, r, k), r the e-th start index read signed and
    clamped into the node range. -/
theorem gather_nodes {α : Type} (x : (⟨4, ![A, B, N, D]⟩ : Shape).Idx → α) (hN : 0 < N) :
    Host.gather d x idx (ix4 a b e k) = x (ix4 a b ⟨min (idx (ix2 e 0)).toInt.toNat (N - 1), by omega⟩ k) := by
  unfold Host.gather
  congr 1
  funext c
  apply Fin.ext
  match c with
  | ⟨0, _⟩ =>
    exact operandIdx_kept d hoff hcoll hob hsim idx (ix4 a b e k) 0 0 0 (by decide) (by decide) (by decide) rfl (by decide)
  | ⟨1, _⟩ =>
    exact operandIdx_kept d hoff hcoll hob hsim idx (ix4 a b e k) 1 1 1 (by decide) (by decide) (by decide) rfl (by decide)
  | ⟨2, _⟩ => exact operandIdx_node d hoff hcoll hob hsim hivd idx a b e k
  | ⟨3, _⟩ =>
    exact operandIdx_kept d hoff hcoll hob hsim idx (ix4 a b e k) 3 2 3 (by decide) (by decide) (by decide) rfl (by decide)
end

end Idealize.ShloMosaic.NodeGather
-- ==== Proof.RefValue.lean ====
/-
  The reference's four sums are the loss's four sums: each host reduction over every axis is the sum over the array's
  index tuples, read coordinate by coordinate; a slice in time reads time step t or t + 1; the gather along the node
  axis reads the row that the wrapped, clamped start index names.
-/
import proofs.«408175_j43473658970670_4_alg».proof.Proof.Gen.ReferenceIdeal.Read
import proofs.«408175_j43473658970670_4_alg».proof.Proof.Spec
import proofs.«408175_j43473658970670_4_alg».proof.Proof.Math
import proofs.«408175_j43473658970670_4_alg».proof.Proof.LibGatherNode

noncomputable section

namespace Cert.RefValue

open Idealize.ShloMosaic Idealize.ShloMosaic.ValueIdx Cert.ReferenceIdeal Cert.ReferenceIdeal.Read Cert.Spec

variable (P Q : (⟨S16x12x10000x2, .f32⟩ : BufTy).Contents (Elt Ideal)) (idx : (⟨S2x320000, .i32⟩ : BufTy).Contents (Elt Ideal))

/-- The all-zero word read as an extended real is 0: every reduction here starts from it. -/
theorem zero_word : FloatOps.ofBits (F := Ideal) .f32 0x00000000#32 = (0 : EReal) := Ideal.ofBits_zero_f32

/-! ## The absolute error: a sum over every entry -/

theorem ref_main : val_main_v2 (F := Ideal) P Q = fun _ => mainSum P Q := by
  funext i
  show _ = mainSum P Q
  rw [val_main_v2_apply, val_main_cst_apply, zero_word, zero_add]
  unfold mainSum
  refine (Cert.Math.sum_idx4 _).trans ?_
  refine Finset.sum_congr rfl fun b _ => Finset.sum_congr rfl fun t _ => Finset.sum_congr rfl fun n _ =>
    Finset.sum_congr rfl fun d _ => ?_
  rfl

/-! ## The second difference in time -/

/-- The slice that starts at time step 1 reads entry (b, t, n, d) at time step t + 1. -/
theorem idx44 (b : Fin 16) (t : Fin 11) (n : Fin 10000) (d : Fin 2) : idx_main_v44 (ix4 b t n d) = ix4 b (tsucc t) n d :=
  funext fun a => Fin.ext (by
    match a with
    | ⟨0, _⟩ => rfl
    | ⟨1, _⟩ => exact Nat.add_comm 1 t.val
    | ⟨2, _⟩ => rfl
    | ⟨3, _⟩ => rfl)
/-- The slice that starts at time step 0 reads entry (b, t, n, d) at time step t. -/
theorem idx45 (b : Fin 16) (t : Fin 11) (n : Fin 10000) (d : Fin 2) : idx_main_v45 (ix4 b t n d) = ix4 b (tcast t) n d :=
  funext fun a => Fin.ext (by
    match a with
    | ⟨0, _⟩ => rfl
    | ⟨1, _⟩ => rfl
    | ⟨2, _⟩ => rfl
    | ⟨3, _⟩ => rfl)
theorem idx47 (b : Fin 16) (t : Fin 11) (n : Fin 10000) (d : Fin 2) : idx_main_v47 (ix4 b t n d) = ix4 b (tsucc t) n d :=
  funext fun a => Fin.ext (by
    match a with
    | ⟨0, _⟩ => rfl
    | ⟨1, _⟩ => exact Nat.add_comm 1 t.val
    | ⟨2, _⟩ => rfl
    | ⟨3, _⟩ => rfl)
theorem idx48 (b : Fin 16) (t : Fin 11) (n : Fin 10000) (d : Fin 2) : idx_main_v48 (ix4 b t n d) = ix4 b (tcast t) n d :=
  funext fun a => Fin.ext (by
    match a with
    | ⟨0, _⟩ => rfl
    | ⟨1, _⟩ => rfl
    | ⟨2, _⟩ => rfl
    | ⟨3, _⟩ => rfl)

theorem ref_temp : val_main_v52 (F := Ideal) P Q = fun _ => tempSum P Q := by
  funext i
  show _ = tempSum P Q
  rw [val_main_v52_apply, val_main_cst_10_apply, zero_word, zero_add]
  unfold tempSum
  refine (Cert.Math.sum_idx4 _).trans ?_
  refine Finset.sum_congr rfl fun b _ => Finset.sum_congr rfl fun t _ => Finset.sum_congr rfl fun n _ =>
    Finset.sum_congr rfl fun d _ => ?_
  rw [val_main_v51_apply, val_main_v50_apply, val_main_v46_apply, val_main_v49_apply, val_main_v44_apply,
    val_main_v45_apply, val_main_v47_apply, val_main_v48_apply, idx44, idx45, idx47, idx48] <;> rfl

/-! ## The node sums -/

/-- The sum over the node axis reads, for result entry (b, t, d) and node k, the array's entry (b, t, k, d). -/
theorem idx54 (b : Fin 16) (t : Fin 12) (d : Fin 2) (k : Fin 10000) : idx_main_v54 (ix3 b t d) k = ix4 b t k d :=
  funext fun a => Fin.ext (by
    match a with
    | ⟨0, _⟩ => rfl
    | ⟨1, _⟩ => rfl
    | ⟨2, _⟩ => rfl
    | ⟨3, _⟩ => rfl)
theorem idx55 (b : Fin 16) (t : Fin 12) (d : Fin 2) (k : Fin 10000) : idx_main_v55 (ix3 b t d) k = ix4 b t k d :=
  funext fun a => Fin.ext (by
    match a with
    | ⟨0, _⟩ => rfl
    | ⟨1, _⟩ => rfl
    | ⟨2, _⟩ => rfl
    | ⟨3, _⟩ => rfl)

/-- The first array's node sum at (b, t, d). -/
theorem v54_at (b : Fin 16) (t : Fin 12) (d : Fin 2) :
    val_main_v54 (F := Ideal) P (ix3 b t d) = ∑ n : Fin 10000, P (ix4 b t n d) := by
  rw [val_main_v54_apply, val_main_cst_12_apply, zero_word, zero_add]
  exact Finset.sum_congr rfl fun k _ => congrArg P (idx54 b t d k)
/-- The second array's node sum at (b, t, d). -/
theorem v55_at (b : Fin 16) (t : Fin 12) (d : Fin 2) :
    val_main_v55 (F := Ideal) Q (ix3 b t d) = ∑ n : Fin 10000, Q (ix4 b t n d) := by
  rw [val_main_v55_apply, val_main_cst_13_apply, zero_word, zero_add]
  exact Finset.sum_congr rfl fun k _ => congrArg Q (idx55 b t d k)

theorem ref_cons : val_main_v58 (F := Ideal) P Q = fun _ => consSum P Q := by
  funext i
  show _ = consSum P Q
  rw [val_main_v58_apply, val_main_cst_14_apply, zero_word, zero_add]
  unfold consSum
  refine (Cert.Math.sum_idx3 _).trans ?_
  refine Finset.sum_congr rfl fun b _ => Finset.sum_congr rfl fun t _ => Finset.sum_congr rfl fun d _ => ?_
  rw [val_main_v57_apply, val_main_v56_apply, v54_at, v55_at] <;> rfl

/-! ## The edge differences: start indices, the four gathers, the sum -/

/-- Start-index entry (e, 0) is read from the edge list's row 0 (sources) or row 1 (destinations) at column e. -/
theorem row13 (e : Fin 320000) :
    idx_main_v4 (idx_main_v5 (idx_main_v13 (ix2 e (0 : Fin 1)))) = ix2 (0 : Fin 2) e :=
  funext fun a => Fin.ext (by
    match a with
    | ⟨0, _⟩ => rfl
    | ⟨1, _⟩ => exact Nat.mod_eq_of_lt e.isLt)
theorem row29 (e : Fin 320000) :
    idx_main_v4 (idx_main_v5 (idx_main_v29 (ix2 e (0 : Fin 1)))) = ix2 (0 : Fin 2) e :=
  funext fun a => Fin.ext (by
    match a with
    | ⟨0, _⟩ => rfl
    | ⟨1, _⟩ => exact Nat.mod_eq_of_lt e.isLt)
theorem row20 (e : Fin 320000) :
    idx_main_v6 (idx_main_v7 (idx_main_v20 (ix2 e (0 : Fin 1)))) = ix2 (1 : Fin 2) e :=
  funext fun a => Fin.ext (by
    match a with
    | ⟨0, _⟩ => rfl
    | ⟨1, _⟩ => exact Nat.mod_eq_of_lt e.isLt)
theorem row36 (e : Fin 320000) :
    idx_main_v6 (idx_main_v7 (idx_main_v36 (ix2 e (0 : Fin 1)))) = ix2 (1 : Fin 2) e :=
  funext fun a => Fin.ext (by
    match a with
    | ⟨0, _⟩ => rfl
    | ⟨1, _⟩ => exact Nat.mod_eq_of_lt e.isLt)

/-- The start index of edge e in each of the four gathers is the wrapped source (or destination) node of e. -/
theorem start13 (e : Fin 320000) : val_main_v13 (F := Ideal) idx (ix2 e (0 : Fin 1)) = wrap (idx (ix2 (0 : Fin 2) e)) := by
  rw [val_main_v13_apply, val_main_v12_apply, val_main_v9_apply, val_main_v11_apply, val_main_v8_apply, val_main_c_apply,
    val_main_v10_apply, val_main_c_1_apply, val_main_v5_apply, val_main_v4_apply, row13] <;> rfl
theorem start29 (e : Fin 320000) : val_main_v29 (F := Ideal) idx (ix2 e (0 : Fin 1)) = wrap (idx (ix2 (0 : Fin 2) e)) := by
  rw [val_main_v29_apply, val_main_v28_apply, val_main_v25_apply, val_main_v27_apply, val_main_v24_apply, val_main_c_4_apply,
    val_main_v26_apply, val_main_c_5_apply, val_main_v5_apply, val_main_v4_apply, row29] <;> rfl
theorem start20 (e : Fin 320000) : val_main_v20 (F := Ideal) idx (ix2 e (0 : Fin 1)) = wrap (idx (ix2 (1 : Fin 2) e)) := by
  rw [val_main_v20_apply, val_main_v19_apply, val_main_v16_apply, val_main_v18_apply, val_main_v15_apply, val_main_c_2_apply,
    val_main_v17_apply, val_main_c_3_apply, val_main_v7_apply, val_main_v6_apply, row20] <;> rfl
theorem start36 (e : Fin 320000) : val_main_v36 (F := Ideal) idx (ix2 e (0 : Fin 1)) = wrap (idx (ix2 (1 : Fin 2) e)) := by
  rw [val_main_v36_apply, val_main_v35_apply, val_main_v32_apply, val_main_v34_apply, val_main_v31_apply, val_main_c_6_apply,
    val_main_v33_apply, val_main_c_7_apply, val_main_v7_apply, val_main_v6_apply, row36] <;> rfl

/-- The reference's gather at (b, t, e, d) reads the array at (b, t, r, d), r the clamped start index of edge e. -/
theorem gather_at (x : (⟨S16x12x10000x2, .f32⟩ : BufTy).Contents (Elt Ideal))
    (si : (⟨S320000x1, .i32⟩ : BufTy).Contents (Elt Ideal)) (b : Fin 16) (t : Fin 12) (e : Fin 320000) (d : Fin 2)
    (r : Fin 10000) (hr : r.val = min (BitVec.toInt (si (ix2 e (0 : Fin 1)))).toNat 9999) :
    Host.gather gather_S16x12x10000x2_S320000x1_S16x12x320000x2_013_2_n_n_2_1_161212 x si (ix4 b t e d) = x (ix4 b t r d) :=
  (NodeGather.gather_nodes gather_S16x12x10000x2_S320000x1_S16x12x320000x2_013_2_n_n_2_1_161212 rfl rfl rfl rfl rfl si b t e d x (by omega)).trans
    (congrArg (fun q => x (ix4 b t q d)) (Fin.ext hr.symm))

theorem v14_at (b : Fin 16) (t : Fin 12) (e : Fin 320000) (d : Fin 2) :
    val_main_v14 (F := Ideal) P idx (ix4 b t e d) = P (ix4 b t (srcOf idx e) d) :=
  gather_at P (val_main_v13 (F := Ideal) idx) b t e d (srcOf idx e) (by rw [start13] <;> rfl)
theorem v21_at (b : Fin 16) (t : Fin 12) (e : Fin 320000) (d : Fin 2) :
    val_main_v21 (F := Ideal) P idx (ix4 b t e d) = P (ix4 b t (dstOf idx e) d) :=
  gather_at P (val_main_v20 (F := Ideal) idx) b t e d (dstOf idx e) (by rw [start20] <;> rfl)
theorem v30_at (b : Fin 16) (t : Fin 12) (e : Fin 320000) (d : Fin 2) :
    val_main_v30 (F := Ideal) Q idx (ix4 b t e d) = Q (ix4 b t (srcOf idx e) d) :=
  gather_at Q (val_main_v29 (F := Ideal) idx) b t e d (srcOf idx e) (by rw [start29] <;> rfl)
theorem v37_at (b : Fin 16) (t : Fin 12) (e : Fin 320000) (d : Fin 2) :
    val_main_v37 (F := Ideal) Q idx (ix4 b t e d) = Q (ix4 b t (dstOf idx e) d) :=
  gather_at Q (val_main_v36 (F := Ideal) idx) b t e d (dstOf idx e) (by rw [start36] <;> rfl)

theorem ref_spat : val_main_v42 (F := Ideal) P Q idx = fun _ => spatSum P Q (srcOf idx) (dstOf idx) := by
  funext i
  show _ = spatSum P Q (srcOf idx) (dstOf idx)
  rw [val_main_v42_apply, val_main_cst_8_apply, zero_word, zero_add]
  unfold spatSum
  refine (Cert.Math.sum_idx4 _).trans ?_
  refine Finset.sum_congr rfl fun b _ => Finset.sum_congr rfl fun t _ => Finset.sum_congr rfl fun e _ =>
    Finset.sum_congr rfl fun d _ => ?_
  rw [val_main_v41_apply, val_main_v40_apply, val_main_v23_apply, val_main_v39_apply, val_main_v22_apply,
    val_main_v38_apply, v14_at, v21_at, v30_at, v37_at] <;> rfl

end Cert.RefValue

end
-- ==== Proof.LibNary5.lean ====
/-
  A host operation over five operands, read at its result buffer.

  An operation built over a family of references writes its function of the operands' contents to its result
  buffer. For a LITERAL family of five references that value is the function applied to the five contents, each
  read at its own reference — which is the form in which the operands can be read further, one operation at a
  time. The tactic below reads a buffer after a literal list of operations in that way: it unfolds the list,
  then rewrites each operation's result at its own buffer to its function's value and at any other buffer to
  what was there before, the two references told apart by computation.
-/
import Idealize.ShloMosaic.Lib.StableHlo.Run

noncomputable section

namespace Idealize.ShloMosaic.StableHlo

variable {τ : Topo} {sig : RefSig} {Val : EltTy → Type}

/-- An operation over a literal family of five references, read at its result buffer: its function applied to
    the five operands' contents, each read at its own reference. -/
theorem nary5_result {x a b c e y : Ref sig .tc}
    (f : ((k : Fin 5) → ((![x, a, b, c, e] : Fin 5 → Ref sig .tc) k).ty.Contents Val) → y.ty.Contents Val) (hxs hy)
    (G : Valuation τ sig Val) :
    (nary (τ := τ) ![x, a, b, c, e] y f hxs hy).result G (Proc.devRef .tc y)
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [nary_result]; congr 1; funext k; fin_cases k <;> rfl

/-- Reads a buffer after a literal list of operations (nullary, unary, binary, reshape, and five-operand ones):
    what is left is an equation over the starting contents at the buffers the list reads. -/
macro "after_results5" : tactic =>
  `(tactic| (simp only [after_cons, after_nil]
             repeat (first
               | rw [nullary_result] | rw [unary_result] | rw [binary_result] | rw [reshape_result] | rw [nary5_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

end Idealize.ShloMosaic.StableHlo

end
-- ==== Proof.KV.Result.lean ====
/-
  The kernel program's result is the reference's. Both end with the same closing lines applied to four sums; the kernel
  program's four sums are what the two regions left in their (1, 1) output arrays, read as scalars, and each is the
  loss's sum that the reference's whole-array reduction also is.
-/
import proofs.«408175_j43473658970670_4_alg».proof.Proof.KI.Run
import proofs.«408175_j43473658970670_4_alg».proof.Proof.KI.Final
import proofs.«408175_j43473658970670_4_alg».proof.Proof.KV.Sums
import proofs.«408175_j43473658970670_4_alg».proof.Proof.KV.HostRead
import proofs.«408175_j43473658970670_4_alg».proof.Proof.KV.Tail
import proofs.«408175_j43473658970670_4_alg».proof.Proof.RefValue
import proofs.«408175_j43473658970670_4_alg».proof.Proof.PreFacts
import proofs.«408175_j43473658970670_4_alg».proof.Proof.LibNary5
import proofs.«408175_j43473658970670_4_alg».proof.Proof.Gen.ReferenceIdeal.Read
import Idealize.ShloMosaic.Lib.StableHlo.Run
import Idealize.ShloMosaic.Lib.Pipeline.Value
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

open Cert.KernelIdeal.Hand Cert.Tail Idealize.ShloMosaic.StableHlo

variable (m : (ℓ : Loc nD τ sig) → Buf (Elt Ideal) ℓ) (c : Dev nD)

/-- A (1, 1) array read as a scalar. -/
abbrev scalarOf (x : FVec Ideal S1x1 .f32) : FVec Ideal S_ .f32 := shapeCast S_ x shapeCasts_S1x1_S_

/-- The scalar is the array's one element. -/
theorem scalarOf_apply (x : FVec Ideal S1x1 .f32) (i : S_.Idx) : scalarOf x i = x (ix2 0 0) :=
  shapeCast_apply x _ i (ix2 0 0) (by
    rw [Shape.rowMajor_val_two]
    have h := (S_.rowMajor i).isLt
    have hn : S_.numel = 1 := by decide
    show 0 * 1 + 0 = (S_.rowMajor i).val
    omega)

/-- The reference's closing lines over its four sums. -/
theorem ref_tail (P Q : (⟨Cert.ReferenceIdeal.S16x12x10000x2, .f32⟩ : BufTy).Contents (Elt Ideal))
    (idx : (⟨Cert.ReferenceIdeal.S2x320000, .i32⟩ : BufTy).Contents (Elt Ideal)) :
    Cert.ReferenceIdeal.Read.val_main_v72 (F := Ideal) P Q idx
      = lossTail Cert.ReferenceIdeal.Gen.bcast_S_S1 Cert.ReferenceIdeal.Gen.concatenates_S1_S1_S1_S1_S1_S5_d0
          (Cert.ReferenceIdeal.Read.val_main_v2 (F := Ideal) P Q) (Cert.ReferenceIdeal.Read.val_main_v42 (F := Ideal) P Q idx)
          (Cert.ReferenceIdeal.Read.val_main_v52 (F := Ideal) P Q) (Cert.ReferenceIdeal.Read.val_main_v58 (F := Ideal) P Q) := rfl

/-- The three means computed right after region 0. -/
theorem v8_eq (o : Outs (F := Ideal)) : (V8 m o c main_v8 : S_.Idx → EReal)
    = Host.divf (scalarOf (V2 m o c main_v6_0)) (constant (F := Ideal) S_ .f32 0x4A6A6000#32) := by
  rw [V8_of m o c main_v8 (by decide), V7_of m o c main_v8 (by decide), V6_of m o c main_v8 (by decide),
    V5_of m o c main_v8 (by decide), V4_of m o c main_v8 (by decide)]
  show StableHlo.after hostOps1 (V2 m o c) (Proc.devRef .tc main_v8) = _
  after_results5
  rfl
theorem v10_eq (o : Outs (F := Ideal)) : (V8 m o c main_v10 : S_.Idx → EReal)
    = Host.divf (scalarOf (V2 m o c main_v6_1)) (constant (F := Ideal) S_ .f32 0x4A56D800#32) := by
  rw [V8_of m o c main_v10 (by decide), V7_of m o c main_v10 (by decide), V6_of m o c main_v10 (by decide),
    V5_of m o c main_v10 (by decide), V4_of m o c main_v10 (by decide)]
  show StableHlo.after hostOps1 (V2 m o c) (Proc.devRef .tc main_v10) = _
  after_results5
  rfl
theorem v12_eq (o : Outs (F := Ideal)) : (V8 m o c main_v12 : S_.Idx → EReal)
    = Host.divf (scalarOf (V2 m o c main_v6_2)) (constant (F := Ideal) S_ .f32 0x43C00000#32) := by
  rw [V8_of m o c main_v12 (by decide), V7_of m o c main_v12 (by decide), V6_of m o c main_v12 (by decide),
    V5_of m o c main_v12 (by decide), V4_of m o c main_v12 (by decide)]
  show StableHlo.after hostOps1 (V2 m o c) (Proc.devRef .tc main_v12) = _
  after_results5
  rfl

set_option maxHeartbeats 2000000 in
/-- The kernel program's closing lines over what the regions left. -/
theorem ker_tail (o : Outs (F := Ideal)) : (V9 m o c main_v36 : S5.Idx → EReal)
    = lossTail bcast_S_S1 concatenates_S1_S1_S1_S1_S1_S5_d0
        (scalarOf (V2 m o c main_v6_0)) (scalarOf (V8 m o c main_v21)) (scalarOf (V2 m o c main_v6_1)) (scalarOf (V2 m o c main_v6_2)) := by
  have h : V9 m o c main_v36 = StableHlo.after hostOps2 (V8 m o c) (Proc.devRef .tc main_v36) := rfl
  rw [h]
  after_results5
  rw [v8_eq, v10_eq, v12_eq]
  rfl

theorem result_eq (hpre : Cert.Pre_finite_inputs.fn (F := Ideal) (m ((c : Thread nD τ).loc main_arg0)) (m ((c : Thread nD τ).loc main_arg1)) (m ((c : Thread nD τ).loc main_arg2)) = fun _ => 1#1) :
    V9 m (outs m) c main_v36
      = Cert.ReferenceIdeal.Read.val_main_v72 (F := Ideal) (m ((c : Thread nD τ).loc main_arg0)) (m ((c : Thread nD τ).loc main_arg1)) (m ((c : Thread nD τ).loc main_arg2)) := by
  have hok : IdxOk m c := fun j => Cert.PreFacts.idx_range _ _ _ hpre j
  have h15 : 15 < cfg0.N := by rw [show cfg0.N = 16 from N_0]; decide
  have h159 : 159 < cfg1.N := by rw [show cfg1.N = 160 from N_1]; decide
  have hr0 : Reads0 (VR1 m) c (m ((c : Thread nD τ).loc main_arg0)) (m ((c : Thread nD τ).loc main_arg1)) := ⟨fun b t d n => v4_apply m c b t d n, fun b t d n => v5_apply m c b t d n⟩
  have hr1 : Reads1 (VR7 m) c (m ((c : Thread nD τ).loc main_arg0)) (m ((c : Thread nD τ).loc main_arg1)) (srcOf (m ((c : Thread nD τ).loc main_arg2))) (dstOf (m ((c : Thread nD τ).loc main_arg2))) :=
    ⟨fun e b t d => v17_apply m c (outsA m) hok e b t d, fun e b t d => v18_apply m c (outsA m) hok e b t d,
     fun e b t d => v19_apply m c (outsA m) hok e b t d, fun e b t d => v20_apply m c (outsA m) hok e b t d⟩
  have e0 : scalarOf (V2 m (outs m) c main_v6_0)
      = Cert.ReferenceIdeal.Read.val_main_v2 (F := Ideal) (m ((c : Thread nD τ).loc main_arg0)) (m ((c : Thread nD τ).loc main_arg1)) := by
    rw [Cert.RefValue.ref_main]
    funext i
    rw [scalarOf_apply, V2_out0 m c, final0_2, main_total (VR1 m) c (m ((c : Thread nD τ).loc main_arg0)) (m ((c : Thread nD τ).loc main_arg1)) hr0 h15]
  have e1 : scalarOf (V8 m (outs m) c main_v21)
      = Cert.ReferenceIdeal.Read.val_main_v42 (F := Ideal) (m ((c : Thread nD τ).loc main_arg0)) (m ((c : Thread nD τ).loc main_arg1)) (m ((c : Thread nD τ).loc main_arg2)) := by
    rw [Cert.RefValue.ref_spat]
    funext i
    rw [scalarOf_apply, V8_out m c, final1_4, spat_total (VR7 m) c (m ((c : Thread nD τ).loc main_arg0)) (m ((c : Thread nD τ).loc main_arg1)) (srcOf (m ((c : Thread nD τ).loc main_arg2))) (dstOf (m ((c : Thread nD τ).loc main_arg2))) hr1 h159]
  have e2 : scalarOf (V2 m (outs m) c main_v6_1)
      = Cert.ReferenceIdeal.Read.val_main_v52 (F := Ideal) (m ((c : Thread nD τ).loc main_arg0)) (m ((c : Thread nD τ).loc main_arg1)) := by
    rw [Cert.RefValue.ref_temp]
    funext i
    rw [scalarOf_apply, V2_out1 m c, final0_3, temp_total (VR1 m) c (m ((c : Thread nD τ).loc main_arg0)) (m ((c : Thread nD τ).loc main_arg1)) hr0 h15]
  have e3 : scalarOf (V2 m (outs m) c main_v6_2)
      = Cert.ReferenceIdeal.Read.val_main_v58 (F := Ideal) (m ((c : Thread nD τ).loc main_arg0)) (m ((c : Thread nD τ).loc main_arg1)) := by
    rw [Cert.RefValue.ref_cons]
    funext i
    rw [scalarOf_apply, V2_out2 m c, final0_4, cons_total (VR1 m) c (m ((c : Thread nD τ).loc main_arg0)) (m ((c : Thread nD τ).loc main_arg1)) hr0 h15]
  rw [ker_tail, ref_tail, e0, e1, e2, e3]

end Cert.KernelIdeal.Val

end
-- ==== Proof.lean ====
/-
  The certificate. Both printed kernel programs run two pipelined regions among host lines; their frames follow from
  the two kernels' body runs (proof/Proof/K, proof/Proof/KI). At the ideal instance the first region leaves the sums of
  absolute errors, of squared second differences in time and of squared node-sum differences, accumulated over the 16
  batch elements, and the second the sum over 160 blocks of 2000 edges of the squared difference of the absolute edge
  differences of predictions and targets; the reference computes the same four sums as whole-array reductions, and the
  closing arithmetic is the same in both programs. The edge list is assumed to hold node indices in [-10000, 9999]:
  then the kernel's row gathers never meet their out-of-range fill and read the rows the reference reads.
-/
import proofs.«408175_j43473658970670_4_alg».proof.Defs
import proofs.«408175_j43473658970670_4_alg».proof.Proof.Gen.Kernel
import proofs.«408175_j43473658970670_4_alg».proof.Proof.Gen.KernelIdeal
import proofs.«408175_j43473658970670_4_alg».proof.Proof.Gen.ReferenceIdeal
import proofs.«408175_j43473658970670_4_alg».proof.Proof.Gen.Pre_finite_inputs
import proofs.«408175_j43473658970670_4_alg».proof.Proof.Gen.ReferenceIdeal.Run
import proofs.«408175_j43473658970670_4_alg».proof.Proof.Gen.ReferenceIdeal.Read
import proofs.«408175_j43473658970670_4_alg».proof.Proof.K.Frame
import proofs.«408175_j43473658970670_4_alg».proof.Proof.KI.Frame
import proofs.«408175_j43473658970670_4_alg».proof.Proof.KI.RunVal
import proofs.«408175_j43473658970670_4_alg».proof.Proof.KV.Result
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, with the edge list in range, the kernel program's result (the closing
    lines over what the two regions left) is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V9 m (Cert.KernelIdeal.Hand.outs m) c Cert.KernelIdeal.main_v36, Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2.1, (hagree c).2.2]
  exact (Cert.KernelIdeal.Val.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
